-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S64 : Shape := ⟨1, ![64]⟩
abbrev S64x1 : Shape := ⟨2, ![64, 1]⟩
abbrev S1x50000 : Shape := ⟨2, ![1, 50000]⟩
abbrev S64x50000 : Shape := ⟨2, ![64, 50000]⟩
abbrev S1x1 : Shape := ⟨2, ![1, 1]⟩
abbrev S64x50048 : Shape := ⟨2, ![64, 50048]⟩
abbrev S50048x128 : Shape := ⟨2, ![50048, 128]⟩
abbrev S64x2176 : Shape := ⟨2, ![64, 2176]⟩
abbrev S2176x128 : Shape := ⟨2, ![2176, 128]⟩
abbrev S64x128 : Shape := ⟨2, ![64, 128]⟩

abbrev nBuf : Space → Nat
  | .hbm => 116
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S64, .i32⟩
  | .hbm, ⟨93, _⟩ => ⟨S64x1, .i32⟩
  | .hbm, ⟨94, _⟩ => ⟨S1x50000, .i32⟩
  | .hbm, ⟨95, _⟩ => ⟨S64x50000, .i32⟩
  | .hbm, ⟨96, _⟩ => ⟨S64x50000, .i32⟩
  | .hbm, ⟨97, _⟩ => ⟨S64x50000, .i1⟩
  | .hbm, ⟨98, _⟩ => ⟨S64x50000, .f32⟩
  | .hbm, ⟨99, _⟩ => ⟨S_, .f32⟩
  | .hbm, ⟨100, _⟩ => ⟨S64, .f32⟩
  | .hbm, ⟨101, _⟩ => ⟨S64x1, .f32⟩
  | .hbm, ⟨102, _⟩ => ⟨S_, .f32⟩
  | .hbm, ⟨103, _⟩ => ⟨S64x1, .f32⟩
  | .hbm, ⟨104, _⟩ => ⟨S64x1, .f32⟩
  | .hbm, ⟨105, _⟩ => ⟨S_, .f32⟩
  | .hbm, ⟨106, _⟩ => ⟨S64x1, .f32⟩
  | .hbm, ⟨107, _⟩ => ⟨S64x1, .f32⟩
  | .hbm, ⟨108, _⟩ => ⟨S1x1, .f32⟩
  | .hbm, ⟨109, _⟩ => ⟨S_, .i32⟩
  | .hbm, ⟨110, _⟩ => ⟨S_, .f32⟩
  | .hbm, ⟨111, _⟩ => ⟨S64x50048, .f32⟩
  | .hbm, ⟨112, _⟩ => ⟨S_, .i32⟩
  | .hbm, ⟨113, _⟩ => ⟨S_, .f32⟩
  | .hbm, ⟨114, _⟩ => ⟨S50048x128, .f32⟩
  | .hbm, ⟨115, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S64x2176, .f32⟩
  | .local _ .vmem, ⟨11, _⟩ => ⟨S64x2176, .f32⟩
  | .local _ .vmem, ⟨12, _⟩ => ⟨S2176x128, .f32⟩
  | .local _ .vmem, ⟨13, _⟩ => ⟨S2176x128, .f32⟩
  | .local _ .vmem, ⟨14, _⟩ => ⟨S64x1, .f32⟩
  | .local _ .vmem, ⟨15, _⟩ => ⟨S128x1, .f32⟩
  | .local _ .vmem, ⟨16, _⟩ => ⟨S1x1, .f32⟩
  | .local _ .vmem, ⟨17, _⟩ => ⟨S64x1, .f32⟩
  | .local _ .vmem, ⟨18, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_call2_v0 : Ref sig .tc := ⟨.hbm, 110, rfl⟩
abbrev main_v79 : Ref sig .tc := ⟨.hbm, 111, rfl⟩
abbrev main_c_16 : Ref sig .tc := ⟨.hbm, 112, rfl⟩
abbrev main_call3_v0 : Ref sig .tc := ⟨.hbm, 113, rfl⟩
abbrev main_v80 : Ref sig .tc := ⟨.hbm, 114, rfl⟩
abbrev main_v81 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![23], ![false]⟩

def k2_cond2 (i : grid2.Coords) : BitVec 1 :=
  let arg0 : BitVec 32 := BitVec.ofNat 32 (i 0).val
  let c22_i32 : BitVec 32 := 22#32
  let v13 : BitVec 1 := Scalar.cmpi .eq arg0 c22_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x2176 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2176x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S64_S64x1_0 : S64.BroadcastsInDim S64x1 (![0] : Fin 1 → Fin S64x1.rank)
  bcast_S50000_S1x50000_1 : S50000.BroadcastsInDim S1x50000 (![1] : Fin 1 → Fin S1x50000.rank)
  bcast_S1x50000_S64x50000_0_1 : S1x50000.BroadcastsInDim S64x50000 (![0, 1] : Fin 2 → Fin S64x50000.rank)
  bcast_S64x1_S64x50000_0_1 : S64x1.BroadcastsInDim S64x50000 (![0, 1] : Fin 2 → Fin S64x50000.rank)
  reducesTo_S64x50000_S64_d1 : S64x50000.ReducesTo [1] S64
  h_S_ : 0 < S_.numel
  bcast_S_S64x1 : S_.BroadcastsInDim S64x1 (![] : Fin 0 → Fin S64x1.rank)
  shapeCasts_S1_S1x1 : S1.ShapeCasts S1x1
  pads_S64x50000_S64x50048_000_0480 : S64x50000.Pads (![0, 0] : Fin 2 → Nat) ![0, 48] ![0, 0] S64x50048
  pads_S50000x128_S50048x128_0480_000 : S50000x128.Pads (![0, 0] : Fin 2 → Nat) ![48, 0] ![0, 0] S50048x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x2176_S64x2176_0_0 : ∀ a, (![0, 0] : Fin 2 → Nat) a + S64x2176.size a ≤ S64x2176.size a
  h_S64x2176 : 0 < S64x2176.numel
  shapeCasts_S64x2176_S64x2176 : S64x2176.ShapeCasts S64x2176
  inb_S2176x128_S2176x128_0_0 : ∀ a, (![0, 0] : Fin 2 → Nat) a + S2176x128.size a ≤ S2176x128.size a
  h_S2176x128 : 0 < S2176x128.numel
  shapeCasts_S2176x128_S2176x128 : S2176x128.ShapeCasts S2176x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S64x2176_S2176x128_S64x128_1_0_0_1_n_n_wf : DotDims.WF S64x2176 S2176x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x2176.size a ≤ S64x50048.size a
  hwx2_0 : ∀ i : grid2.Coords, EltTy.bits .f32 = 32 ∨ (Rect.block (s := S64x50048) S64x2176.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2176x128.size a ≤ S50048x128.size a
  hwx2_1 : ∀ i : grid2.Coords, EltTy.bits .f32 = 32 ∨ (Rect.block (s := S50048x128) S2176x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S64x2176_S2176x128_S64x128_1_0_0_1_n_n : DotDims S64x2176 S2176x128 S64x128 where
  lhsContracting := [1]
  rhsContracting := [0]
  lhsNonContracting := [0]
  rhsNonContracting := [1]
  lhsBatch := []
  rhsBatch := []
  wf := dot_S64x2176_S2176x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v79) S64x2176.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S2176x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S64x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000, .i32⟩
  | 73 => ⟨S1x800000, .i32⟩
  | 74 => ⟨S800000, .i32⟩
  | 75 => ⟨S850000, .i32⟩
  | 76 => ⟨S1x800000, .i32⟩
  | 77 => ⟨S800000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S50000x128, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S64x128, .f32⟩
  | 6 => ⟨S50000x1, .i32⟩
  | 7 => ⟨S64x128, .f32⟩
  | 8 => ⟨S_, .f32⟩
  | 9 => ⟨S50000, .f32⟩
  | 10 => ⟨S_, .f32⟩
  | 11 => ⟨S64, .f32⟩
  | 12 => ⟨S50000x1, .i32⟩
  | 13 => ⟨S64, .f32⟩
  | 14 => ⟨S_, .f32⟩
  | 15 => ⟨S64, .f32⟩
  | 16 => ⟨S64, .f32⟩
  | 17 => ⟨S64x1, .f32⟩
  | 18 => ⟨S64x128, .f32⟩
  | 19 => ⟨S64x128, .f32⟩
  | 20 => ⟨S64x1, .f32⟩
  | 21 => ⟨S1x1, .f32⟩
  | 22 => ⟨S64x1, .f32⟩
  | 23 => ⟨S64x1, .f32⟩
  | 24 => ⟨S64x1, .f32⟩
  | 25 => ⟨S64x1, .f32⟩
  | 26 => ⟨S_, .f32⟩
  | 27 => ⟨S64x1, .f32⟩
  | 28 => ⟨S64x1, .f32⟩
  | 29 => ⟨S_, .f32⟩
  | 30 => ⟨S64x1, .f32⟩
  | 31 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_20 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_21 : Ref sig .tc := ⟨.hbm, 136, rfl⟩
abbrev main_v98 : Ref sig .tc := ⟨.hbm, 137, rfl⟩
abbrev main_cst_22 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_23 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_24 : Ref sig .tc := ⟨.hbm, 154, rfl⟩
abbrev main_v113 : Ref sig .tc := ⟨.hbm, 155, rfl⟩
abbrev main_v114 : Ref sig .tc := ⟨.hbm, 156, rfl⟩
abbrev main_cst_25 : Ref sig .tc := ⟨.hbm, 157, rfl⟩
abbrev main_v115 : Ref sig .tc := ⟨.hbm, 158, rfl⟩
abbrev main_v116 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Reg0.lean ====
/- Region 0 of the program: one block of 5000 rows of the left matrix times the whole 128 × 128 right matrix at each of
   the ten grid points. What the staging buffers hold after the body at a point, and that the body, run on them, leaves
   exactly that: the proof data of the region and its obligation, at any contents V of the core's buffers on entry. -/
import proofs.«429642_j9543417332444_1_alg».proof.Proof.Gen.Kernel.Launch
import proofs.«429642_j9543417332444_1_alg».proof.Proof.Gen.Kernel.Skeleton
import proofs.«429642_j9543417332444_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 128 block and the whole 128 × 128 block, as rectangles. -/
abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0

/-- What the body's one store leaves in the output block: the product of the two input blocks. -/
def out0_2 (x0 : Vec F S5000x128 .f32) (x1 : Vec F S128x128 .f32) : Vec F S5000x128 .f32 :=
  View.canon [⟨rA0, k0_pay1 (View.ld x0 rA0) (View.ld x1 rB0)⟩]

/-- Input window 0's current staging buffer holds its block at every point, fetched there or not: unfetched,
    the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1, the right matrix, fetched at the first point only: its block index never moves,
    so at every later point the buffer still holds the one block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store is over the whole output block, so it covers it. -/
theorem cover0_2 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

set_option maxHeartbeats 1000000 in
/-- The kernel body on whole staging memrefs, the inputs' at contents x0 and x1 and the output's at anything, runs to
    the continuation holding the inputs' as they were and the output's at the product of the two. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as found; after the body at point t the inputs' buffers at their
    blocks and the output's at the product; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) :
    BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
/- Region 1 of the program: one block of 5000 rows of the left matrix times the whole 128 × 128 right matrix at each of
   the ten grid points. What the staging buffers hold after the body at a point, and that the body, run on them, leaves
   exactly that: the proof data of the region and its obligation, at any contents V of the core's buffers on entry. -/
import proofs.«429642_j9543417332444_1_alg».proof.Proof.Gen.Kernel.Launch
import proofs.«429642_j9543417332444_1_alg».proof.Proof.Gen.Kernel.Skeleton
import proofs.«429642_j9543417332444_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000 × 128 block and the whole 128 × 128 block, as rectangles. -/
abbrev rA1 : Rect S5000x128 := Rect.unit (s := S5000x128) ![0, 0] S5000x128.size inb_S5000x128_S5000x128_0_0
abbrev rB1 : Rect S128x128 := Rect.unit (s := S128x128) ![0, 0] S128x128.size inb_S128x128_S128x128_0_0

/-- What the body's one store leaves in the output block: the product of the two input blocks. -/
def out1_2 (x0 : Vec F S5000x128 .f32) (x1 : Vec F S128x128 .f32) : Vec F S5000x128 .f32 :=
  View.canon [⟨rA1, k1_pay1 (View.ld x0 rA1) (View.ld x1 rB1)⟩]

/-- Input window 0's current staging buffer holds its block at every point, fetched there or not: unfetched,
    the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1, the right matrix, fetched at the first point only: its block index never moves,
    so at every later point the buffer still holds the one block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store is over the whole output block, so it covers it. -/
theorem cover1_2 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

set_option maxHeartbeats 1000000 in
/-- The kernel body on whole staging memrefs, the inputs' at contents x0 and x1 and the output's at anything, runs to
    the continuation holding the inputs' as they were and the output's at the product of the two. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as found; after the body at point t the inputs' buffers at their
    blocks and the output's at the product; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) :
    BodyObligation (dat1 (F := F) V c) (defs₀ (F := F)) Variants.none () Set.univ := fun t => by
  rw [bigSep_W1, bigSep_W1]
  exact sound_body1 V c t

end Region1

end Cert.Kernel.Hand

end
-- ==== Proof.K.Reg2.lean ====
/- Region 2 of the program: the pooling kernel over 23 grid points. At each point a 64 × 2176 block of the one-hot
   matrix times a 2176 × 128 block of the node features is added into a 64 × 128 accumulator the kernel keeps in a
   scratch buffer across the points (reset at the first point); at the last point the accumulator is scaled row by row,
   multiplied by the 128 × 1 classifier column, shifted by the bias and passed through the logistic function into the
   64 × 1 output block, which is written back at that point only.
   Here: the accumulator after each point as a recursion on the point, the region's proof data with the accumulator
   named in the invariant, and the body obligation. -/
import proofs.«429642_j9543417332444_1_alg».proof.Proof.Gen.Kernel.Launch
import proofs.«429642_j9543417332444_1_alg».proof.Proof.Gen.Kernel.Skeleton
import proofs.«429642_j9543417332444_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point n: at the first point the product of that point's blocks added to the
    zero the kernel has just stored; afterwards the product added to what the point before left. -/
def accAt2 (c : Dev nD) : (n : ℕ) → n < cfg2.N → Vec F S64x128 .f32
  | 0, hn => k2_pay2 (k2_pay1 (F := F)) (iblk2 V c 0 ⟨0, hn⟩) (iblk2 V c 1 ⟨0, hn⟩)
  | n + 1, hn => k2_pay2 (accAt2 c n (Nat.lt_of_succ_lt hn)) (iblk2 V c 0 ⟨n + 1, hn⟩) (iblk2 V c 1 ⟨n + 1, hn⟩)

theorem accAt2_zero (c : Dev nD) (hn : 0 < cfg2.N) :
    accAt2 V c 0 hn = k2_pay2 (k2_pay1 (F := F)) (iblk2 V c 0 ⟨0, hn⟩) (iblk2 V c 1 ⟨0, hn⟩) := rfl
theorem accAt2_succ (c : Dev nD) (n : ℕ) (hn : n + 1 < cfg2.N) :
    accAt2 V c (n + 1) hn = k2_pay2 (accAt2 V c n (Nat.lt_of_succ_lt hn)) (iblk2 V c 0 ⟨n + 1, hn⟩) (iblk2 V c 1 ⟨n + 1, hn⟩) := rfl

/-- The scratch buffer the kernel keeps the accumulator in. -/
abbrev scM2 : Memref sig .tc .vmem S64x128 .f32 := Memref.whole cc2_scratch0

/-- The scoped buffers of the core that are neither staging buffers of this region nor its scratch: the other two
    regions' staging buffers, each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant before point n: before the first point the scoped rest at anything and the generator register;
    afterwards the same with the scratch at the accumulator the point before left. -/
def PhiS2 (c : Dev nD) : (n : ℕ) → n ≤ cfg2.N → sProp 𝕄
  | 0, _ => Pipeline.ΦA spec2 c
  | n + 1, hn => iprop((others2 (F := F) c ∗ owns (c : Thread nD τ) scM2 fullShare (accAt2 V c n hn)) ∗ (∃ r, prngReg c r))

theorem PhiS2_zero (c : Dev nD) (h : 0 ≤ cfg2.N) : PhiS2 V c 0 h = Pipeline.ΦA spec2 c := rfl
theorem PhiS2_succ (c : Dev nD) (n : ℕ) (hn : n < cfg2.N) :
    PhiS2 V c (n + 1) hn = iprop((others2 (F := F) c ∗ owns (c : Thread nD τ) scM2 fullShare (accAt2 V c n hn)) ∗ (∃ r, prngReg c r)) := rfl

/-- The region's proof data on core c. The output window's buffer is named at every point by the last point's
    formula over that point's accumulator; at the points where the kernel stores nothing into it the window is idle
    and not written back, and the name is not consulted there. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (accAt2 V c t.val t.isLt) (iblk2 V c 2 t) (iblk2 V c 3 t) (iblk2 V c 4 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = k2_pay3 (accAt2 V c t.val t.isLt) (iblk2 V c 2 t) (iblk2 V c 3 t) (iblk2 V c 4 t) := by
  dsimp only [dat2]

/-- The first condition of the body, from the grid coordinates. -/
abbrev cond2_0 (i : grid2.Coords) : Prop := (Scalar.cmpi .ne (Scalar.extui (Scalar.cmpi .eq (BitVec.ofNat 32 (i 0).val) 0#32)) 0#32) = 1#1
/-- The second condition of the body. -/
abbrev cond2_1 (i : grid2.Coords) : Prop := k2_cond2 i = 1#1

/-- The offsets of the whole-buffer rectangle are zero. -/
theorem zero_offsets2 : (![0, 0] : Fin 2 → Nat) = fun _ => 0 := funext fun a => by fin_cases a <;> rfl

/-- The first condition holds at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last point only. -/
theorem hcond2_1 : ∀ t : Fin cfg2.N, cond2_1 (grid2.coords t) ↔ t.val = 22 :=
  (by decide +kernel : ∀ t : Fin grid2.N, cond2_1 (grid2.coords t) ↔ t.val = 22)

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Where the second condition fails the output window is idle -/
theorem idleAt2_5 : ∀ t : Fin cfg2.N, ¬cond2_1 (grid2.coords t) → cfg2.idle 5 (grid2.coords t) = true := by decide +kernel
/-- and its block is not written back; -/
theorem noFlush2_5 : ∀ t : Fin cfg2.N, ¬cond2_1 (grid2.coords t) → (cfg2.win 5).flush t = false := by decide +kernel
/-- where it holds the window is live. -/
theorem liveAt2_5 : ∀ t : Fin cfg2.N, cond2_1 (grid2.coords t) → cfg2.idle 5 (grid2.coords t) = false := by decide +kernel

/-- Each input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- What the launch hands the region, with the scratch as a memref owned at some contents: one way, -/
theorem PhiA2_split (c : Dev nD) :
    (Pipeline.ΦA spec2 c : sProp 𝕄)
      ⊢ iprop((others2 (F := F) c ∗ (∃ d, owns (c : Thread nD τ) scM2 fullShare d)) ∗ (∃ r, prngReg c r)) := by
  unfold Pipeline.ΦA others2; rw [scopedRest2_eq]; simp only [scM2, owns_whole]
  iintro ⟨⟨H0, H1, H2, H3, H4, H5, H6, H7, H8, H9, HS⟩, Hg⟩
  isplitr [Hg]
  · isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HS
  · iexact Hg
/-- the other way, -/
theorem PhiA2_join (c : Dev nD) :
    iprop((others2 (F := F) c ∗ (∃ d, owns (c : Thread nD τ) scM2 fullShare d)) ∗ (∃ r, prngReg c r))
      ⊢ (Pipeline.ΦA spec2 c : sProp 𝕄) := by
  unfold Pipeline.ΦA others2; rw [scopedRest2_eq]; simp only [scM2, owns_whole]
  iintro ⟨⟨⟨H0, H1, H2, H3, H4, H5, H6, H7, H8, H9⟩, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  · iexact Hg
/-- and so as an equation. -/
theorem PhiA2_eq (c : Dev nD) :
    (Pipeline.ΦA spec2 c : sProp 𝕄)
      = iprop((others2 (F := F) c ∗ (∃ d, owns (c : Thread nD τ) scM2 fullShare d)) ∗ (∃ r, prngReg c r)) :=
  BI.equiv_iff.mp ⟨PhiA2_split c, PhiA2_join c⟩

/-- The invariant before the first point, -/
theorem PhiS2_of_zero (c : Dev nD) (n : ℕ) (h : n ≤ cfg2.N) (hz : n = 0) : PhiS2 V c n h = Pipeline.ΦA spec2 c := by
  subst hz; rfl
/-- and before any later point: the scratch at what the point before left. -/
theorem PhiS2_of_pos (c : Dev nD) (n : ℕ) (h : n ≤ cfg2.N) (hz : n ≠ 0) :
    PhiS2 V c n h = iprop((others2 (F := F) c ∗ owns (c : Thread nD τ) scM2 fullShare (accAt2 V c (n - 1) (by omega))) ∗ (∃ r, prngReg c r)) := by
  cases n with
  | zero => exact absurd rfl hz
  | succ n => rfl
/-- The invariant at a point's start, restated at the point's position. -/
theorem PhiS2_castSucc (c : Dev nD) (t : Fin cfg2.N) :
    (dat2 V c).Φ t.castSucc = PhiS2 V c t.val (Nat.le_of_lt t.isLt) := rfl

/-- The accumulator after the first point, -/
theorem accAt2_first (c : Dev nD) (t : Fin cfg2.N) (h : t.val = 0) :
    accAt2 V c t.val t.isLt = k2_pay2 (k2_pay1 (F := F)) (iblk2 V c 0 t) (iblk2 V c 1 t) := by
  obtain ⟨n, hn⟩ := t
  cases n with
  | zero => rfl
  | succ n => exact absurd h (Nat.succ_ne_zero n)
/-- and after a later one, over what the point before left. -/
theorem accAt2_later (c : Dev nD) (t : Fin cfg2.N) (h : t.val ≠ 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd rfl h
  | succ n => rfl

set_option maxHeartbeats 1000000 in
/-- At the first point the body stores zero over the accumulator, whatever it held, and adds the product of the two
    fetched blocks to it; it touches nothing else. -/
theorem run2_A (c : Dev nD) (i : grid2.Coords) (arg1 : Memref sig .tc .vmem S64x2176 .f32) (harg1 : arg1.IsWhole) (arg2 : Memref sig .tc .vmem S2176x128 .f32) (harg2 : arg2.IsWhole) (arg3 : Memref sig .tc .vmem S64x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S64x128 .f32) (harg7 : arg7.IsWhole) (hc0 : cond2_0 i) (hc1 : ¬cond2_1 i)
    (x0 : Vec F S64x2176 .f32) (x1 : Vec F S2176x128 .f32) (x2 : Vec F S64x1 .f32) (x3 : Vec F S128x1 .f32) (x4 : Vec F S1x1 .f32)
    (xi : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi ∗ owns (c : Thread nD τ) arg7 fullShare (k2_pay2 (k2_pay1 (F := F)) x0 x1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  sl_unfold_words
  rw [View.read_writes_eq_canon _ _ _ (fun y => ⟨_, List.mem_cons.mpr (Or.inl rfl), View.mem_set_unit_zero zero_offsets2 inb_S64x128_S64x128_0_0 y⟩)]
  rw [View.canon_cons_unit_zero (S := S64x128) zero_offsets2]
  simp only [View.readAt_eq_ld, harg1.read_unread, harg2.read_unread, View.readCov_unit_zero (S := S64x128) _ zero_offsets2, View.ld_unit_zero (S := S64x2176) zero_offsets2, View.ld_unit_zero (S := S2176x128) zero_offsets2]

set_option maxHeartbeats 1000000 in
/-- At a point that is neither the first nor the last the body adds the product of the two fetched blocks to the
    accumulator and touches nothing else. -/
theorem run2_B (c : Dev nD) (i : grid2.Coords) (arg1 : Memref sig .tc .vmem S64x2176 .f32) (harg1 : arg1.IsWhole) (arg2 : Memref sig .tc .vmem S2176x128 .f32) (harg2 : arg2.IsWhole) (arg3 : Memref sig .tc .vmem S64x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S64x128 .f32) (harg7 : arg7.IsWhole) (hc0 : ¬cond2_0 i) (hc1 : ¬cond2_1 i)
    (x0 : Vec F S64x2176 .f32) (x1 : Vec F S2176x128 .f32) (x2 : Vec F S64x1 .f32) (x3 : Vec F S128x1 .f32) (x4 : Vec F S1x1 .f32)
    (xi : Vec F S64x1 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi ∗ owns (c : Thread nD τ) arg7 fullShare (k2_pay2 xs x0 x1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  rw [View.read_writes_eq_canon _ _ _ (fun y => ⟨_, List.mem_singleton_self _, View.mem_set_unit_zero zero_offsets2 inb_S64x128_S64x128_0_0 y⟩)]
  rw [View.canon_unit_zero zero_offsets2]
  simp only [View.readAt_eq_ld, harg7.read_unread, harg1.read_unread, harg2.read_unread, View.ld_unit_zero (S := S64x128) zero_offsets2, View.ld_unit_zero (S := S64x2176) zero_offsets2, View.ld_unit_zero (S := S2176x128) zero_offsets2]

set_option maxHeartbeats 1000000 in
/-- At the last point the body adds the product of the two fetched blocks to the accumulator and then stores, over the
    whole output block whatever it held, the last formula of the updated accumulator and the three small inputs. -/
theorem run2_C (c : Dev nD) (i : grid2.Coords) (arg1 : Memref sig .tc .vmem S64x2176 .f32) (harg1 : arg1.IsWhole) (arg2 : Memref sig .tc .vmem S2176x128 .f32) (harg2 : arg2.IsWhole) (arg3 : Memref sig .tc .vmem S64x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S64x128 .f32) (harg7 : arg7.IsWhole) (hc0 : ¬cond2_0 i) (hc1 : cond2_1 i)
    (x0 : Vec F S64x2176 .f32) (x1 : Vec F S2176x128 .f32) (x2 : Vec F S64x1 .f32) (x3 : Vec F S128x1 .f32) (x4 : Vec F S1x1 .f32)
    (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay3 (k2_pay2 xs x0 x1) x2 x3 x4) ∗ owns (c : Thread nD τ) arg7 fullShare (k2_pay2 xs x0 x1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (fun y => ⟨_, List.mem_singleton_self _, View.mem_set_unit_zero zero_offsets2 inb_S64x1_S64x1_0_0 y⟩)]
    rw [View.canon_unit_zero zero_offsets2]
    simp only [View.readAt_eq_ld, harg1.read_unread, harg2.read_unread, harg3.read_unread, harg4.read_unread, harg5.read_unread, harg7.read_unread, View.readCov_unit_zero (S := S64x128) _ zero_offsets2, View.ld_unit_zero (S := S64x128) zero_offsets2, View.ld_unit_zero (S := S64x2176) zero_offsets2, View.ld_unit_zero (S := S2176x128) zero_offsets2, View.ld_unit_zero (S := S64x1) zero_offsets2, View.ld_unit_zero (S := S128x1) zero_offsets2, View.ld_unit_zero (S := S1x1) zero_offsets2]
  iexists _; isplitr
  swap; · iexact HS
  ipureintro
  sl_unfold_words
  rw [View.read_writes_eq_canon _ _ _ (fun y => ⟨_, List.mem_singleton_self _, View.mem_set_unit_zero zero_offsets2 inb_S64x128_S64x128_0_0 y⟩)]
  rw [View.canon_unit_zero zero_offsets2]
  simp only [View.readAt_eq_ld, harg1.read_unread, harg2.read_unread, harg3.read_unread, harg4.read_unread, harg5.read_unread, harg7.read_unread, View.readCov_unit_zero (S := S64x128) _ zero_offsets2, View.ld_unit_zero (S := S64x128) zero_offsets2, View.ld_unit_zero (S := S64x2176) zero_offsets2, View.ld_unit_zero (S := S2176x128) zero_offsets2, View.ld_unit_zero (S := S64x1) zero_offsets2, View.ld_unit_zero (S := S128x1) zero_offsets2, View.ld_unit_zero (S := S1x1) zero_offsets2]

set_option maxHeartbeats 4800000 in
/-- The body at any point: the inputs' buffers hold their blocks; by the point's position it is the first, a middle or
    the last one, and that case's run applies with the scratch at what the invariant names (anything before the first
    point); the invariant takes the scratch back at this point's accumulator; where the output is not stored it is idle
    and handed back untouched, at the last point it is left at the last formula; the core owes nothing throughout. -/
theorem sound_body2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare ((dat2 V c).before 3 t d))
      ∗ (∃ d, owns (c : Thread nD τ) (win2_4.stage (cfg2.slots t 4)) fullShare ((dat2 V c).before 4 t d))
      ∗ (∃ d, owns (c : Thread nD τ) (win2_5.stage (cfg2.slots t 5)) fullShare ((dat2 V c).before 5 t d)))
    ⊢ wp frame (wpE (defs₀ (F := F)) Variants.none c none) Set.univ (bodyAt2 t) (fun _ =>
        iprop((dat2 V c).Φ t.succ ∗ (dat2 V c).owesAt () t.succ
          ∗ (dat2 V c).leavesExact 0 t ∗ (dat2 V c).leavesExact 1 t ∗ (dat2 V c).leavesExact 2 t
          ∗ (dat2 V c).leavesExact 3 t ∗ (dat2 V c).leavesExact 4 t ∗ (dat2 V c).leavesExact 5 t)) := by
  unfold bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (win2_0.stage (cfg2.slots t 0)) fullShare ((dat2 V c).after 0 t) from by
    unfold Dat.leavesExact; rw [liveAt2_0 t], after2_0]
  rw [show (dat2 V c).leavesExact 1 t = owns (c : Thread nD τ) (win2_1.stage (cfg2.slots t 1)) fullShare ((dat2 V c).after 1 t) from by
    unfold Dat.leavesExact; rw [liveAt2_1 t], after2_1]
  rw [show (dat2 V c).leavesExact 2 t = owns (c : Thread nD τ) (win2_2.stage (cfg2.slots t 2)) fullShare ((dat2 V c).after 2 t) from by
    unfold Dat.leavesExact; rw [liveAt2_2 t], after2_2]
  rw [show (dat2 V c).leavesExact 3 t = owns (c : Thread nD τ) (win2_3.stage (cfg2.slots t 3)) fullShare ((dat2 V c).after 3 t) from by
    unfold Dat.leavesExact; rw [liveAt2_3 t], after2_3]
  rw [show (dat2 V c).leavesExact 4 t = owns (c : Thread nD τ) (win2_4.stage (cfg2.slots t 4)) fullShare ((dat2 V c).after 4 t) from by
    unfold Dat.leavesExact; rw [liveAt2_4 t], after2_4]
  have hN : t.val < 23 := lt_of_lt_of_eq t.isLt (show cfg2.N = 23 from N_2)
  rw [PhiS2_castSucc V c t]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1)]
    rw [PhiS2_of_zero V c _ _ h0, PhiA2_eq, accAt2_first V c t h0]
    iintro ⟨⟨⟨Hoth, HS⟩, Hg⟩, Ho, ⟨%d0, H0⟩, ⟨%d1, H1⟩, ⟨%d2, H2⟩, ⟨%d3, H3⟩, ⟨%d4, H4⟩, ⟨%d5, H5⟩⟩
    iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hoth HS Hg]
    · isplitr [Hg]
      · isplitl [Hoth]; · iexact Hoth
        iexact HS
      · iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond2_0 (grid2.coords t) := fun h => h0 ((hcond2_0 t).mp h)
    rw [PhiS2_of_pos V c _ _ h0, accAt2_later V c t h0]
    by_cases h1 : t.val = 22
    · have hc1 : cond2_1 (grid2.coords t) := (hcond2_1 t).mpr h1
      rw [show (dat2 V c).leavesExact 5 t = owns (c : Thread nD τ) (win2_5.stage (cfg2.slots t 5)) fullShare ((dat2 V c).after 5 t) from by
        unfold Dat.leavesExact; rw [liveAt2_5 t hc1], after2_5, accAt2_later V c t h0]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ hc0 hc1 (iblk2 V c 0 t) (iblk2 V c 1 t) (iblk2 V c 2 t) (iblk2 V c 3 t) (iblk2 V c 4 t) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hoth HS Hg]
      · isplitr [Hg]
        · isplitl [Hoth]; · iexact Hoth
          iexact HS
        · iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 5 t (idleAt2_5 t hc1) (noFlush2_5 t hc1)]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply (run2_B c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hoth HS Hg]
      · isplitr [Hg]
        · isplitl [Hoth]; · iexact Hoth
          iexact HS
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the region, at every point. -/
theorem body_obligation2 (c : Dev nD) :
    BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_of_zero V c 0 _ rfl]
  try exact BI.Entails.refl _

/-- After the last point the invariant gives the scoped rest and the generator register back, the accumulator's
    name forgotten. -/
theorem hout2 (c : Dev nD) : (dat2 (F := F) V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_of_pos V c _ _ (by rw [Fin.val_last]; have : cfg2.N = 23 := N_2; omega), PhiA2_eq]
  iintro ⟨⟨Hoth, HS⟩, Hg⟩
  isplitr [Hg]
  · isplitl [Hoth]; · iexact Hoth
    iexists _; iexact HS
  · iexact Hg

end Region2

end Cert.Kernel.Hand

end
-- ==== Proof.K.Fold.lean ====
/- The contents of the core's buffers at each boundary between two items of the program, as a fold from the launch
   memory: after a stretch of host operations, what the operations compute from the contents before; after a kernel
   region, the region's arrays at what its write-backs leave and every other buffer as the region found it.
   The three regions' proof data are taken at the contents each region is entered from. -/
import proofs.«429642_j9543417332444_1_alg».proof.Proof.Gen.Kernel.Launch
import proofs.«429642_j9543417332444_1_alg».proof.Proof.Gen.Kernel.Skeleton
import proofs.«429642_j9543417332444_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429642_j9543417332444_1_alg».proof.Proof.K.Reg0
import proofs.«429642_j9543417332444_1_alg».proof.Proof.K.Reg1
import proofs.«429642_j9543417332444_1_alg».proof.Proof.K.Reg2
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the first three stretches of host operations: what region 0 is entered from. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references. -/
abbrev VR0 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (VR0 m) c).arrAt w cfg0.N
/-- After the next two stretches: what region 1 is entered from. -/
abbrev W5 : Dev nD → Valuation τ sig (Elt F) := fun c => StableHlo.after hostOps1 (W4 m c)
abbrev W6 : Dev nD → Valuation τ sig (Elt F) := fun c => StableHlo.after hostOps1_1 (W5 m c)
abbrev VR1 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (VR1 m) c).arrAt w cfg1.N
/-- After the next four stretches: what region 2 is entered from. -/
abbrev W8 : Dev nD → Valuation τ sig (Elt F) := fun c => StableHlo.after hostOps2 (W7 m c)
abbrev W9 : Dev nD → Valuation τ sig (Elt F) := fun c => StableHlo.after hostOps2_1 (W8 m c)
abbrev W10 : Dev nD → Valuation τ sig (Elt F) := fun c => StableHlo.after hostOps2_2 (W9 m c)
abbrev W11 : Dev nD → Valuation τ sig (Elt F) := fun c => StableHlo.after hostOps2_3 (W10 m c)
abbrev VR2 : (c : Dev nD) → (b : Ref sig .tc) → Buf (Elt F) ((c : Thread nD τ).loc b) := fun c b => W11 m c b
/-- At region 2's exit: the end of the program. -/
def W12 (c : Dev nD) : Valuation τ sig (Elt F) :=
  Pipeline.withArrays spec2 c (W11 m c) fun w => (dat2 (VR2 m) c).arrAt w cfg2.N

theorem W4_arr (c : Dev nD) (w : Fin cfg0.W) :
    W4 m c (Proc.devRef .tc (Pipeline.arrRef spec0 w)) = (dat0 (VR0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W7_arr (c : Dev nD) (w : Fin cfg1.W) :
    W7 m c (Proc.devRef .tc (Pipeline.arrRef spec1 w)) = (dat1 (VR1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W12_arr (c : Dev nD) (w : Fin cfg2.W) :
    W12 m c (Proc.devRef .tc (Pipeline.arrRef spec2 w)) = (dat2 (VR2 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb

/-- The prefetched tables' admissible contents: no region has a table. -/
abbrev adm : (p : Fin 3) → (pcfgs (F := F) p).Adm := fun p => (cfgs p).toPCfg_adm

/-- Every region's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
  | ⟨2, _⟩ => fun c => dat2 (VR2 m) c

end Cert.Kernel.Hand

end
-- ==== Proof.K.Run.lean ====
/- The run of the whole program. The program is twelve items in a row: nine stretches of host operations and three
   kernel regions. Between two items a core holds every unscoped buffer whole, at the contents the fold of the boundaries
   names, beside its generator register at some state and the record that it owes nothing. A stretch of host operations
   takes the buffers from one boundary's contents to the next by what its operations compute; a kernel region splits
   its arrays out of the buffers, runs its pipeline over them, and puts them back at what the write-backs leave, every
   other buffer untouched. Chained from the launch memory to the last boundary, this says that every execution of the
   program terminates and that every final memory holds, at every unscoped buffer of every core, the last boundary's
   contents. Two readings of that: no item writes an argument, so each argument ends as launched; and the result is
   the last region's output array after its last write-back. -/
import proofs.«429642_j9543417332444_1_alg».proof.Proof.Gen.Kernel.Launch
import proofs.«429642_j9543417332444_1_alg».proof.Proof.Gen.Kernel.Skeleton
import proofs.«429642_j9543417332444_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429642_j9543417332444_1_alg».proof.Proof.K.Fold
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stretches of host operations write -/

/-- The references the operations of this stretch write, in order. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem hostOps0_wr : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps0_fresh : (hostOps0 : List (HloOp τ sig (Elt F))).Forall fun op => op.fresh = ∅ := by
  simp only [List.Forall]; repeat' constructor
/-- The references the operations of this stretch write, in order. -/
abbrev wr0_1 : List (Ref sig .tc) := [main_call0_v0, main_call0_v1, main_v14]
theorem hostOps0_1_wr : (hostOps0_1 : List (HloOp τ sig (Elt F))).Forall fun op => op.writes ⊆ (wr0_1.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps0_1_fresh : (hostOps0_1 : List (HloOp τ sig (Elt F))).Forall fun op => op.fresh = ∅ := by
  simp only [List.Forall]; repeat' constructor
/-- The references the operations of this stretch write, in order. -/
abbrev wr0_2 : List (Ref sig .tc) := [main_c, main_v15, main_v16, main_c_3, main_v17, main_v18, main_v19, main_v20, main_v21, main_c_4, main_v22, main_v23, main_c_5, main_v24, main_v25, main_v26, main_v27, main_v28, main_v29]
theorem hostOps0_2_wr : (hostOps0_2 : List (HloOp τ sig (Elt F))).Forall fun op => op.writes ⊆ (wr0_2.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps0_2_fresh : (hostOps0_2 : List (HloOp τ sig (Elt F))).Forall fun op => op.fresh = ∅ := by
  simp only [List.Forall]; repeat' constructor
/-- The references the operations of this stretch write, in order. -/
abbrev wr1 : List (Ref sig .tc) := [main_c_6, main_v31, main_v32, main_c_7, main_v33, main_v34, main_v35, main_v36, main_v37, main_v38, main_v39, main_v40, main_cst_8, main_v41, main_v42, main_v43, main_v44, main_v45, main_v46]
theorem hostOps1_wr : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps1_fresh : (hostOps1 : List (HloOp τ sig (Elt F))).Forall fun op => op.fresh = ∅ := by
  simp only [List.Forall]; repeat' constructor
/-- The references the operations of this stretch write, in order. -/
abbrev wr1_1 : List (Ref sig .tc) := [main_call1_cst, main_call1_v0, main_v47]
theorem hostOps1_1_wr : (hostOps1_1 : List (HloOp τ sig (Elt F))).Forall fun op => op.writes ⊆ (wr1_1.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps1_1_fresh : (hostOps1_1 : List (HloOp τ sig (Elt F))).Forall fun op => op.fresh = ∅ := by
  simp only [List.Forall]; repeat' constructor
/-- The references the operations of this stretch write, in order. -/
abbrev wr2 : List (Ref sig .tc) := [main_c_9, main_v49, main_v50, main_c_10, main_v51, main_v52, main_v53, main_v54, main_v55, main_v56, main_v57, main_v58, main_cst_11, main_v59, main_v60, main_v61, main_v62, main_v63, main_v64, main_v65, main_v66, main_v67, main_v68, main_v69, main_v70, main_v71, main_cst_12, main_v72, main_v73, main_cst_13, main_v74, main_v75, main_cst_14, main_v76, main_v77, main_v78, main_c_15]
theorem hostOps2_wr : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps2_fresh : (hostOps2 : List (HloOp τ sig (Elt F))).Forall fun op => op.fresh = ∅ := by
  simp only [List.Forall]; repeat' constructor
/-- The references the operations of this stretch write, in order. -/
abbrev wr2_1 : List (Ref sig .tc) := [main_call2_v0, main_v79]
theorem hostOps2_1_wr : (hostOps2_1 : List (HloOp τ sig (Elt F))).Forall fun op => op.writes ⊆ (wr2_1.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps2_1_fresh : (hostOps2_1 : List (HloOp τ sig (Elt F))).Forall fun op => op.fresh = ∅ := by
  simp only [List.Forall]; repeat' constructor
/-- The references the operations of this stretch write, in order. -/
abbrev wr2_2 : List (Ref sig .tc) := [main_c_16]
theorem hostOps2_2_wr : (hostOps2_2 : List (HloOp τ sig (Elt F))).Forall fun op => op.writes ⊆ (wr2_2.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps2_2_fresh : (hostOps2_2 : List (HloOp τ sig (Elt F))).Forall fun op => op.fresh = ∅ := by
  simp only [List.Forall]; repeat' constructor
/-- The references the operations of this stretch write, in order. -/
abbrev wr2_3 : List (Ref sig .tc) := [main_call3_v0, main_v80]
theorem hostOps2_3_wr : (hostOps2_3 : List (HloOp τ sig (Elt F))).Forall fun op => op.writes ⊆ (wr2_3.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps2_3_fresh : (hostOps2_3 : List (HloOp τ sig (Elt F))).Forall fun op => op.fresh = ∅ := by
  simp only [List.Forall]; repeat' constructor

/-! ## What each item leaves unchanged

A stretch of host operations leaves every reference it does not write; a kernel region leaves every buffer that is
none of its arrays. -/

theorem W1_of (c : Dev nD) (r : Ref sig .tc) (h : r ∉ wr0) : W1 m c (Proc.devRef .tc r) = W0 m c (Proc.devRef .tc r) :=
  StableHlo.after_of_writes_sub hostOps0 _ hostOps0_wr h
theorem W2_of (c : Dev nD) (r : Ref sig .tc) (h : r ∉ wr0_1) : W2 m c (Proc.devRef .tc r) = W1 m c (Proc.devRef .tc r) :=
  StableHlo.after_of_writes_sub hostOps0_1 _ hostOps0_1_wr h
theorem W3_of (c : Dev nD) (r : Ref sig .tc) (h : r ∉ wr0_2) : W3 m c (Proc.devRef .tc r) = W2 m c (Proc.devRef .tc r) :=
  StableHlo.after_of_writes_sub hostOps0_2 _ hostOps0_2_wr h
theorem W5_of (c : Dev nD) (r : Ref sig .tc) (h : r ∉ wr1) : W5 m c (Proc.devRef .tc r) = W4 m c (Proc.devRef .tc r) :=
  StableHlo.after_of_writes_sub hostOps1 _ hostOps1_wr h
theorem W6_of (c : Dev nD) (r : Ref sig .tc) (h : r ∉ wr1_1) : W6 m c (Proc.devRef .tc r) = W5 m c (Proc.devRef .tc r) :=
  StableHlo.after_of_writes_sub hostOps1_1 _ hostOps1_1_wr h
theorem W8_of (c : Dev nD) (r : Ref sig .tc) (h : r ∉ wr2) : W8 m c (Proc.devRef .tc r) = W7 m c (Proc.devRef .tc r) :=
  StableHlo.after_of_writes_sub hostOps2 _ hostOps2_wr h
theorem W9_of (c : Dev nD) (r : Ref sig .tc) (h : r ∉ wr2_1) : W9 m c (Proc.devRef .tc r) = W8 m c (Proc.devRef .tc r) :=
  StableHlo.after_of_writes_sub hostOps2_1 _ hostOps2_1_wr h
theorem W10_of (c : Dev nD) (r : Ref sig .tc) (h : r ∉ wr2_2) : W10 m c (Proc.devRef .tc r) = W9 m c (Proc.devRef .tc r) :=
  StableHlo.after_of_writes_sub hostOps2_2 _ hostOps2_2_wr h
theorem W11_of (c : Dev nD) (r : Ref sig .tc) (h : r ∉ wr2_3) : W11 m c (Proc.devRef .tc r) = W10 m c (Proc.devRef .tc r) :=
  StableHlo.after_of_writes_sub hostOps2_3 _ hostOps2_3_wr h

/-! ## The arguments end as launched

No host operation writes an argument, and a region that has one among its arrays has it as an input window's array,
which is never written back; so the fold at an argument's buffer walks back to the launch memory. -/

theorem W12_main_arg0 (c : Dev nD) : W12 m c (Proc.devRef .tc main_arg0) = m ((c : Thread nD τ).loc main_arg0) :=
  calc W12 m c (Proc.devRef .tc main_arg0)
    _ = W11 m c (Proc.devRef .tc main_arg0) := W12_of_ne m c main_arg0 (by decide)
    _ = W10 m c (Proc.devRef .tc main_arg0) := W11_of m c main_arg0 (by decide)
    _ = W9 m c (Proc.devRef .tc main_arg0) := W10_of m c main_arg0 (by decide)
    _ = W8 m c (Proc.devRef .tc main_arg0) := W9_of m c main_arg0 (by decide)
    _ = W7 m c (Proc.devRef .tc main_arg0) := W8_of m c main_arg0 (by decide)
    _ = W6 m c (Proc.devRef .tc main_arg0) := W7_of_ne m c main_arg0 (by decide)
    _ = W5 m c (Proc.devRef .tc main_arg0) := W6_of m c main_arg0 (by decide)
    _ = W4 m c (Proc.devRef .tc main_arg0) := W5_of m c main_arg0 (by decide)
    _ = W3 m c (Proc.devRef .tc main_arg0) := (W4_arr m c 0).trans (((dat0 (VR0 m) c).arrAt_in 0 rfl _).trans (A_eq0 (VR0 m) c 0))
    _ = W2 m c (Proc.devRef .tc main_arg0) := W3_of m c main_arg0 (by decide)
    _ = W1 m c (Proc.devRef .tc main_arg0) := W2_of m c main_arg0 (by decide)
    _ = W0 m c (Proc.devRef .tc main_arg0) := W1_of m c main_arg0 (by decide)
    _ = m ((c : Thread nD τ).loc main_arg0) := rfl
theorem W12_main_arg1 (c : Dev nD) : W12 m c (Proc.devRef .tc main_arg1) = m ((c : Thread nD τ).loc main_arg1) :=
  calc W12 m c (Proc.devRef .tc main_arg1)
    _ = W11 m c (Proc.devRef .tc main_arg1) := W12_of_ne m c main_arg1 (by decide)
    _ = W10 m c (Proc.devRef .tc main_arg1) := W11_of m c main_arg1 (by decide)
    _ = W9 m c (Proc.devRef .tc main_arg1) := W10_of m c main_arg1 (by decide)
    _ = W8 m c (Proc.devRef .tc main_arg1) := W9_of m c main_arg1 (by decide)
    _ = W7 m c (Proc.devRef .tc main_arg1) := W8_of m c main_arg1 (by decide)
    _ = W6 m c (Proc.devRef .tc main_arg1) := W7_of_ne m c main_arg1 (by decide)
    _ = W5 m c (Proc.devRef .tc main_arg1) := W6_of m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) := W1_of m c main_arg1 (by decide)
    _ = m ((c : Thread nD τ).loc main_arg1) := rfl
theorem W12_main_arg2 (c : Dev nD) : W12 m c (Proc.devRef .tc main_arg2) = m ((c : Thread nD τ).loc main_arg2) :=
  calc W12 m c (Proc.devRef .tc main_arg2)
    _ = W11 m c (Proc.devRef .tc main_arg2) := W12_of_ne m c main_arg2 (by decide)
    _ = W10 m c (Proc.devRef .tc main_arg2) := W11_of m c main_arg2 (by decide)
    _ = W9 m c (Proc.devRef .tc main_arg2) := W10_of m c main_arg2 (by decide)
    _ = W8 m c (Proc.devRef .tc main_arg2) := W9_of m c main_arg2 (by decide)
    _ = W7 m c (Proc.devRef .tc main_arg2) := W8_of m c main_arg2 (by decide)
    _ = W6 m c (Proc.devRef .tc main_arg2) := W7_of_ne m c main_arg2 (by decide)
    _ = W5 m c (Proc.devRef .tc main_arg2) := W6_of m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of m c main_arg2 (by decide)
    _ = W0 m c (Proc.devRef .tc main_arg2) := W1_of m c main_arg2 (by decide)
    _ = m ((c : Thread nD τ).loc main_arg2) := rfl
theorem W12_main_arg3 (c : Dev nD) : W12 m c (Proc.devRef .tc main_arg3) = m ((c : Thread nD τ).loc main_arg3) :=
  calc W12 m c (Proc.devRef .tc main_arg3)
    _ = W11 m c (Proc.devRef .tc main_arg3) := W12_of_ne m c main_arg3 (by decide)
    _ = W10 m c (Proc.devRef .tc main_arg3) := W11_of m c main_arg3 (by decide)
    _ = W9 m c (Proc.devRef .tc main_arg3) := W10_of m c main_arg3 (by decide)
    _ = W8 m c (Proc.devRef .tc main_arg3) := W9_of m c main_arg3 (by decide)
    _ = W7 m c (Proc.devRef .tc main_arg3) := W8_of m c main_arg3 (by decide)
    _ = W6 m c (Proc.devRef .tc main_arg3) := W7_of_ne m c main_arg3 (by decide)
    _ = W5 m c (Proc.devRef .tc main_arg3) := W6_of m c main_arg3 (by decide)
    _ = W4 m c (Proc.devRef .tc main_arg3) := W5_of m c main_arg3 (by decide)
    _ = W3 m c (Proc.devRef .tc main_arg3) := (W4_arr m c 1).trans (((dat0 (VR0 m) c).arrAt_in 1 rfl _).trans (A_eq0 (VR0 m) c 1))
    _ = W2 m c (Proc.devRef .tc main_arg3) := W3_of m c main_arg3 (by decide)
    _ = W1 m c (Proc.devRef .tc main_arg3) := W2_of m c main_arg3 (by decide)
    _ = W0 m c (Proc.devRef .tc main_arg3) := W1_of m c main_arg3 (by decide)
    _ = m ((c : Thread nD τ).loc main_arg3) := rfl
theorem W12_main_arg4 (c : Dev nD) : W12 m c (Proc.devRef .tc main_arg4) = m ((c : Thread nD τ).loc main_arg4) :=
  calc W12 m c (Proc.devRef .tc main_arg4)
    _ = W11 m c (Proc.devRef .tc main_arg4) := W12_of_ne m c main_arg4 (by decide)
    _ = W10 m c (Proc.devRef .tc main_arg4) := W11_of m c main_arg4 (by decide)
    _ = W9 m c (Proc.devRef .tc main_arg4) := W10_of m c main_arg4 (by decide)
    _ = W8 m c (Proc.devRef .tc main_arg4) := W9_of m c main_arg4 (by decide)
    _ = W7 m c (Proc.devRef .tc main_arg4) := W8_of m c main_arg4 (by decide)
    _ = W6 m c (Proc.devRef .tc main_arg4) := W7_of_ne m c main_arg4 (by decide)
    _ = W5 m c (Proc.devRef .tc main_arg4) := W6_of m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of m c main_arg4 (by decide)
    _ = W0 m c (Proc.devRef .tc main_arg4) := W1_of m c main_arg4 (by decide)
    _ = m ((c : Thread nD τ).loc main_arg4) := rfl
theorem W12_main_arg5 (c : Dev nD) : W12 m c (Proc.devRef .tc main_arg5) = m ((c : Thread nD τ).loc main_arg5) :=
  calc W12 m c (Proc.devRef .tc main_arg5)
    _ = W11 m c (Proc.devRef .tc main_arg5) := W12_of_ne m c main_arg5 (by decide)
    _ = W10 m c (Proc.devRef .tc main_arg5) := W11_of m c main_arg5 (by decide)
    _ = W9 m c (Proc.devRef .tc main_arg5) := W10_of m c main_arg5 (by decide)
    _ = W8 m c (Proc.devRef .tc main_arg5) := W9_of m c main_arg5 (by decide)
    _ = W7 m c (Proc.devRef .tc main_arg5) := W8_of m c main_arg5 (by decide)
    _ = W6 m c (Proc.devRef .tc main_arg5) := (W7_arr m c 1).trans (((dat1 (VR1 m) c).arrAt_in 1 rfl _).trans (A_eq1 (VR1 m) c 1))
    _ = W5 m c (Proc.devRef .tc main_arg5) := W6_of m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of m c main_arg5 (by decide)
    _ = W0 m c (Proc.devRef .tc main_arg5) := W1_of m c main_arg5 (by decide)
    _ = m ((c : Thread nD τ).loc main_arg5) := rfl
theorem W12_main_arg6 (c : Dev nD) : W12 m c (Proc.devRef .tc main_arg6) = m ((c : Thread nD τ).loc main_arg6) :=
  calc W12 m c (Proc.devRef .tc main_arg6)
    _ = W11 m c (Proc.devRef .tc main_arg6) := W12_of_ne m c main_arg6 (by decide)
    _ = W10 m c (Proc.devRef .tc main_arg6) := W11_of m c main_arg6 (by decide)
    _ = W9 m c (Proc.devRef .tc main_arg6) := W10_of m c main_arg6 (by decide)
    _ = W8 m c (Proc.devRef .tc main_arg6) := W9_of m c main_arg6 (by decide)
    _ = W7 m c (Proc.devRef .tc main_arg6) := W8_of m c main_arg6 (by decide)
    _ = W6 m c (Proc.devRef .tc main_arg6) := W7_of_ne m c main_arg6 (by decide)
    _ = W5 m c (Proc.devRef .tc main_arg6) := W6_of m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of m c main_arg6 (by decide)
    _ = W0 m c (Proc.devRef .tc main_arg6) := W1_of m c main_arg6 (by decide)
    _ = m ((c : Thread nD τ).loc main_arg6) := rfl
theorem W12_main_arg7 (c : Dev nD) : W12 m c (Proc.devRef .tc main_arg7) = m ((c : Thread nD τ).loc main_arg7) :=
  calc W12 m c (Proc.devRef .tc main_arg7)
    _ = W11 m c (Proc.devRef .tc main_arg7) := (W12_arr m c 3).trans (((dat2 (VR2 m) c).arrAt_in 3 rfl _).trans (A_eq2 (VR2 m) c 3))
    _ = W10 m c (Proc.devRef .tc main_arg7) := W11_of m c main_arg7 (by decide)
    _ = W9 m c (Proc.devRef .tc main_arg7) := W10_of m c main_arg7 (by decide)
    _ = W8 m c (Proc.devRef .tc main_arg7) := W9_of m c main_arg7 (by decide)
    _ = W7 m c (Proc.devRef .tc main_arg7) := W8_of m c main_arg7 (by decide)
    _ = W6 m c (Proc.devRef .tc main_arg7) := W7_of_ne m c main_arg7 (by decide)
    _ = W5 m c (Proc.devRef .tc main_arg7) := W6_of m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of m c main_arg7 (by decide)
    _ = W0 m c (Proc.devRef .tc main_arg7) := W1_of m c main_arg7 (by decide)
    _ = m ((c : Thread nD τ).loc main_arg7) := rfl
theorem W12_main_arg8 (c : Dev nD) : W12 m c (Proc.devRef .tc main_arg8) = m ((c : Thread nD τ).loc main_arg8) :=
  calc W12 m c (Proc.devRef .tc main_arg8)
    _ = W11 m c (Proc.devRef .tc main_arg8) := W12_of_ne m c main_arg8 (by decide)
    _ = W10 m c (Proc.devRef .tc main_arg8) := W11_of m c main_arg8 (by decide)
    _ = W9 m c (Proc.devRef .tc main_arg8) := W10_of m c main_arg8 (by decide)
    _ = W8 m c (Proc.devRef .tc main_arg8) := W9_of m c main_arg8 (by decide)
    _ = W7 m c (Proc.devRef .tc main_arg8) := W8_of m c main_arg8 (by decide)
    _ = W6 m c (Proc.devRef .tc main_arg8) := W7_of_ne m c main_arg8 (by decide)
    _ = W5 m c (Proc.devRef .tc main_arg8) := W6_of m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of m c main_arg8 (by decide)
    _ = W0 m c (Proc.devRef .tc main_arg8) := W1_of m c main_arg8 (by decide)
    _ = m ((c : Thread nD τ).loc main_arg8) := rfl

/-! ## The thread state between two items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record that the core owes nothing. -/
abbrev R (c : Dev nD) : sProp 𝕄 := iprop((∃ r, prngReg c r) ∗ ∃ W, owes (c : Thread nD τ) (0 : CellTallies nD τ sig Unit) W)
/-- A stretch of host operations as a segment: over the unscoped references, from the contents W to what the
    operations compute from W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing: every unscoped buffer at the last boundary's contents, the
    generator register at some state. -/
abbrev Tₙ (c : Dev nD) : sProp 𝕄 := iprop(StableHlo.held (c : Thread nD τ) (Pipeline.ucRefs τ sig) (W12 m c) ∗ ∃ r, prngReg c r)

/-! ## A region's exit contents against its entry contents

At a region's exit each of its arrays holds what the write-backs leave, and every other buffer what it held at entry. -/

/-- The contents at region 0's exit, read at the TensorCore's references. -/
abbrev VX0 : (c : Dev nD) → (b : Ref sig .tc) → Buf (Elt F) ((c : Thread nD τ).loc b) := fun c b => W4 m c b
/-- At region 1's exit. -/
abbrev VX1 : (c : Dev nD) → (b : Ref sig .tc) → Buf (Elt F) ((c : Thread nD τ).loc b) := fun c b => W7 m c b
/-- At region 2's exit. -/
abbrev VX2 : (c : Dev nD) → (b : Ref sig .tc) → Buf (Elt F) ((c : Thread nD τ).loc b) := fun c b => W12 m c b
theorem hF0 (c : Dev nD) (w : Fin cfg0.W) : (dat0 (VR0 m) c).arrAt w cfg0.N = VX0 m c (Pipeline.arrRef spec0 w) :=
  (W4_arr m c w).symm
theorem hrest0 (c : Dev nD) : ∀ b, b ∉ Finset.univ.image (Pipeline.arrRef spec0) → VX0 m c b = VR0 m c b :=
  fun b hb => W4_of_ne m c b fun w e => hb (Finset.mem_image.mpr ⟨w, Finset.mem_univ _, e⟩)
theorem hF1 (c : Dev nD) (w : Fin cfg1.W) : (dat1 (VR1 m) c).arrAt w cfg1.N = VX1 m c (Pipeline.arrRef spec1 w) :=
  (W7_arr m c w).symm
theorem hrest1 (c : Dev nD) : ∀ b, b ∉ Finset.univ.image (Pipeline.arrRef spec1) → VX1 m c b = VR1 m c b :=
  fun b hb => W7_of_ne m c b fun w e => hb (Finset.mem_image.mpr ⟨w, Finset.mem_univ _, e⟩)
theorem hF2 (c : Dev nD) (w : Fin cfg2.W) : (dat2 (VR2 m) c).arrAt w cfg2.N = VX2 m c (Pipeline.arrRef spec2 w) :=
  (W12_arr m c w).symm
theorem hrest2 (c : Dev nD) : ∀ b, b ∉ Finset.univ.image (Pipeline.arrRef spec2) → VX2 m c b = VR2 m c b :=
  fun b hb => W12_of_ne m c b fun w e => hb (Finset.mem_image.mpr ⟨w, Finset.mem_univ _, e⟩)

/-! ## The regions as segments

Each region is entered from every unscoped buffer at its entry contents and left at its exit contents. At entry its
arrays are split out of the unscoped buffers, at exit put back at what the write-backs leave; the generator register
goes into the region's invariant and comes back; nothing is owed; the kernels have no semaphore of their own. -/

set_option backward.isDefEq.respectTransparency.types false in
/-- Region 0: from the contents after the first three stretches. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: from the contents after the next two stretches. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: from the contents after the last four stretches; its invariant names the accumulator the kernel keeps across
    the points, so the invariant before the first point is made from the launch's form of it and the one after the last
    point is turned back into that form. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR2 m) c).loose
  hwaits := Pipeline.hwaits_of_owed_zero _ _ _ _ L lv 2 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VR2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m 2 c).Φ 0 from hin2 (VR2 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (VR2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VR2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's twelve segments in order: a host segment per stretch from its boundary's contents, a region per
    kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)),
    .host (hseg hostOps2_3 hostOps2_3_sub hostOps2_3_fresh (W10 m)),
    .region (reg2 m) ]
/-- The program is the run of the segments: it is the chain of its twelve items, and the segments' run is the chain
    of the same items. -/
theorem main_run (c : Dev nD) : main (F := F) c = Pipeline.Seg.run (segs m) := (main_chain c).trans (by chain_rfl)

set_option backward.isDefEq.respectTransparency.types false in
/-- From any memory with every counter at zero, every weakly fair execution of the program on the TensorCores
    terminates, nothing faulting, and every final memory holds at every unscoped buffer of every core the last
    boundary's contents: the segments chained from the launch, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- Every argument array ends holding its launch contents. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c)⟩) (run_all m ρ)

/-- The result array ends holding the last region's output array after its last write-back, and every argument
    array its launch contents. -/
theorem run_value : θ_run defs (onTc (τ := τ) (main (F := F))) ⟨m, fun _ => 0, ρ⟩ (fun r => ∀ c : Dev nD,
      r.2.mem ((c.tc : Thread nD τ).loc main_v81) = (dat2 (VR2 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v81 (by decide))).trans (W12_arr m c 5),
     (h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c)⟩) (run_all m ρ)

end Cert.Kernel.Hand

end
-- ==== Proof.KI.Reg0.lean ====
/- Region 0 of the program: one block of 5000 rows of the left matrix times the whole 128 × 128 right matrix at each of
   the ten grid points. What the staging buffers hold after the body at a point, and that the body, run on them, leaves
   exactly that: the proof data of the region and its obligation, at any contents V of the core's buffers on entry. -/
import proofs.«429642_j9543417332444_1_alg».proof.Proof.Gen.KernelIdeal.Launch
import proofs.«429642_j9543417332444_1_alg».proof.Proof.Gen.KernelIdeal.Skeleton
import proofs.«429642_j9543417332444_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 128 block and the whole 128 × 128 block, as rectangles. -/
abbrev rA0 : Rect S5000x128 := Rect.unit (s := S5000x128) ![0, 0] S5000x128.size inb_S5000x128_S5000x128_0_0
abbrev rB0 : Rect S128x128 := Rect.unit (s := S128x128) ![0, 0] S128x128.size inb_S128x128_S128x128_0_0

/-- What the body's one store leaves in the output block: the product of the two input blocks. -/
def out0_2 (x0 : Vec F S5000x128 .f32) (x1 : Vec F S128x128 .f32) : Vec F S5000x128 .f32 :=
  View.canon [⟨rA0, k0_pay1 (View.ld x0 rA0) (View.ld x1 rB0)⟩]

/-- Input window 0's current staging buffer holds its block at every point, fetched there or not: unfetched,
    the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1, the right matrix, fetched at the first point only: its block index never moves,
    so at every later point the buffer still holds the one block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one store is over the whole output block, so it covers it. -/
theorem cover0_2 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

set_option maxHeartbeats 1000000 in
/-- The kernel body on whole staging memrefs, the inputs' at contents x0 and x1 and the output's at anything, runs to
    the continuation holding the inputs' as they were and the output's at the product of the two. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core c: the arrays as found; after the body at point t the inputs' buffers at their
    blocks and the output's at the product; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) :
    BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
/- Region 1 of the program: one block of 5000 rows of the left matrix times the whole 128 × 128 right matrix at each of
   the ten grid points. What the staging buffers hold after the body at a point, and that the body, run on them, leaves
   exactly that: the proof data of the region and its obligation, at any contents V of the core's buffers on entry. -/
import proofs.«429642_j9543417332444_1_alg».proof.Proof.Gen.KernelIdeal.Launch
import proofs.«429642_j9543417332444_1_alg».proof.Proof.Gen.KernelIdeal.Skeleton
import proofs.«429642_j9543417332444_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000 × 128 block and the whole 128 × 128 block, as rectangles. -/
abbrev rA1 : Rect S5000x128 := Rect.unit (s := S5000x128) ![0, 0] S5000x128.size inb_S5000x128_S5000x128_0_0
abbrev rB1 : Rect S128x128 := Rect.unit (s := S128x128) ![0, 0] S128x128.size inb_S128x128_S128x128_0_0

/-- What the body's one store leaves in the output block: the product of the two input blocks. -/
def out1_2 (x0 : Vec F S5000x128 .f32) (x1 : Vec F S128x128 .f32) : Vec F S5000x128 .f32 :=
  View.canon [⟨rA1, k1_pay1 (View.ld x0 rA1) (View.ld x1 rB1)⟩]

/-- Input window 0's current staging buffer holds its block at every point, fetched there or not: unfetched,
    the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1, the right matrix, fetched at the first point only: its block index never moves,
    so at every later point the buffer still holds the one block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one store is over the whole output block, so it covers it. -/
theorem cover1_2 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

set_option maxHeartbeats 1000000 in
/-- The kernel body on whole staging memrefs, the inputs' at contents x0 and x1 and the output's at anything, runs to
    the continuation holding the inputs' as they were and the output's at the product of the two. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The region's proof data on core c: the arrays as found; after the body at point t the inputs' buffers at their
    blocks and the output's at the product; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the kernel's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation1 (c : Dev nD) :
    BodyObligation (dat1 (F := F) V c) (defs₀ (F := F)) Variants.none () Set.univ := fun t => by
  rw [bigSep_W1, bigSep_W1]
  exact sound_body1 V c t

end Region1

end Cert.KernelIdeal.Hand

end
-- ==== Proof.KI.Reg2.lean ====
/- Region 2 of the program: the pooling kernel over 23 grid points. At each point a 64 × 2176 block of the one-hot
   matrix times a 2176 × 128 block of the node features is added into a 64 × 128 accumulator the kernel keeps in a
   scratch buffer across the points (reset at the first point); at the last point the accumulator is scaled row by row,
   multiplied by the 128 × 1 classifier column, shifted by the bias and passed through the logistic function into the
   64 × 1 output block, which is written back at that point only.
   Here: the accumulator after each point as a recursion on the point, the region's proof data with the accumulator
   named in the invariant, and the body obligation. -/
import proofs.«429642_j9543417332444_1_alg».proof.Proof.Gen.KernelIdeal.Launch
import proofs.«429642_j9543417332444_1_alg».proof.Proof.Gen.KernelIdeal.Skeleton
import proofs.«429642_j9543417332444_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point n: at the first point the product of that point's blocks added to the
    zero the kernel has just stored; afterwards the product added to what the point before left. -/
def accAt2 (c : Dev nD) : (n : ℕ) → n < cfg2.N → Vec F S64x128 .f32
  | 0, hn => k2_pay2 (k2_pay1 (F := F)) (iblk2 V c 0 ⟨0, hn⟩) (iblk2 V c 1 ⟨0, hn⟩)
  | n + 1, hn => k2_pay2 (accAt2 c n (Nat.lt_of_succ_lt hn)) (iblk2 V c 0 ⟨n + 1, hn⟩) (iblk2 V c 1 ⟨n + 1, hn⟩)

theorem accAt2_zero (c : Dev nD) (hn : 0 < cfg2.N) :
    accAt2 V c 0 hn = k2_pay2 (k2_pay1 (F := F)) (iblk2 V c 0 ⟨0, hn⟩) (iblk2 V c 1 ⟨0, hn⟩) := rfl
theorem accAt2_succ (c : Dev nD) (n : ℕ) (hn : n + 1 < cfg2.N) :
    accAt2 V c (n + 1) hn = k2_pay2 (accAt2 V c n (Nat.lt_of_succ_lt hn)) (iblk2 V c 0 ⟨n + 1, hn⟩) (iblk2 V c 1 ⟨n + 1, hn⟩) := rfl

/-- The scratch buffer the kernel keeps the accumulator in. -/
abbrev scM2 : Memref sig .tc .vmem S64x128 .f32 := Memref.whole cc2_scratch0

/-- The scoped buffers of the core that are neither staging buffers of this region nor its scratch: the other two
    regions' staging buffers, each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The invariant before point n: before the first point the scoped rest at anything and the generator register;
    afterwards the same with the scratch at the accumulator the point before left. -/
def PhiS2 (c : Dev nD) : (n : ℕ) → n ≤ cfg2.N → sProp 𝕄
  | 0, _ => Pipeline.ΦA spec2 c
  | n + 1, hn => iprop((others2 (F := F) c ∗ owns (c : Thread nD τ) scM2 fullShare (accAt2 V c n hn)) ∗ (∃ r, prngReg c r))

theorem PhiS2_zero (c : Dev nD) (h : 0 ≤ cfg2.N) : PhiS2 V c 0 h = Pipeline.ΦA spec2 c := rfl
theorem PhiS2_succ (c : Dev nD) (n : ℕ) (hn : n < cfg2.N) :
    PhiS2 V c (n + 1) hn = iprop((others2 (F := F) c ∗ owns (c : Thread nD τ) scM2 fullShare (accAt2 V c n hn)) ∗ (∃ r, prngReg c r)) := rfl

/-- The region's proof data on core c. The output window's buffer is named at every point by the last point's
    formula over that point's accumulator; at the points where the kernel stores nothing into it the window is idle
    and not written back, and the name is not consulted there. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (accAt2 V c t.val t.isLt) (iblk2 V c 2 t) (iblk2 V c 3 t) (iblk2 V c 4 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = k2_pay3 (accAt2 V c t.val t.isLt) (iblk2 V c 2 t) (iblk2 V c 3 t) (iblk2 V c 4 t) := by
  dsimp only [dat2]

/-- The first condition of the body, from the grid coordinates. -/
abbrev cond2_0 (i : grid2.Coords) : Prop := (Scalar.cmpi .ne (Scalar.extui (Scalar.cmpi .eq (BitVec.ofNat 32 (i 0).val) 0#32)) 0#32) = 1#1
/-- The second condition of the body. -/
abbrev cond2_1 (i : grid2.Coords) : Prop := k2_cond2 i = 1#1

/-- The offsets of the whole-buffer rectangle are zero. -/
theorem zero_offsets2 : (![0, 0] : Fin 2 → Nat) = fun _ => 0 := funext fun a => by fin_cases a <;> rfl

/-- The first condition holds at the first point only, -/
theorem hcond2_0 : ∀ t : Fin cfg2.N, cond2_0 (grid2.coords t) ↔ t.val = 0 :=
  (by decide +kernel : ∀ t : Fin grid2.N, cond2_0 (grid2.coords t) ↔ t.val = 0)
/-- the second at the last point only. -/
theorem hcond2_1 : ∀ t : Fin cfg2.N, cond2_1 (grid2.coords t) ↔ t.val = 22 :=
  (by decide +kernel : ∀ t : Fin grid2.N, cond2_1 (grid2.coords t) ↔ t.val = 22)

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Where the second condition fails the output window is idle -/
theorem idleAt2_5 : ∀ t : Fin cfg2.N, ¬cond2_1 (grid2.coords t) → cfg2.idle 5 (grid2.coords t) = true := by decide +kernel
/-- and its block is not written back; -/
theorem noFlush2_5 : ∀ t : Fin cfg2.N, ¬cond2_1 (grid2.coords t) → (cfg2.win 5).flush t = false := by decide +kernel
/-- where it holds the window is live. -/
theorem liveAt2_5 : ∀ t : Fin cfg2.N, cond2_1 (grid2.coords t) → cfg2.idle 5 (grid2.coords t) = false := by decide +kernel

/-- Each input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- What the launch hands the region, with the scratch as a memref owned at some contents: one way, -/
theorem PhiA2_split (c : Dev nD) :
    (Pipeline.ΦA spec2 c : sProp 𝕄)
      ⊢ iprop((others2 (F := F) c ∗ (∃ d, owns (c : Thread nD τ) scM2 fullShare d)) ∗ (∃ r, prngReg c r)) := by
  unfold Pipeline.ΦA others2; rw [scopedRest2_eq]; simp only [scM2, owns_whole]
  iintro ⟨⟨H0, H1, H2, H3, H4, H5, H6, H7, H8, H9, HS⟩, Hg⟩
  isplitr [Hg]
  · isplitr [HS]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iexact HS
  · iexact Hg
/-- the other way, -/
theorem PhiA2_join (c : Dev nD) :
    iprop((others2 (F := F) c ∗ (∃ d, owns (c : Thread nD τ) scM2 fullShare d)) ∗ (∃ r, prngReg c r))
      ⊢ (Pipeline.ΦA spec2 c : sProp 𝕄) := by
  unfold Pipeline.ΦA others2; rw [scopedRest2_eq]; simp only [scM2, owns_whole]
  iintro ⟨⟨⟨H0, H1, H2, H3, H4, H5, H6, H7, H8, H9⟩, HS⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  · iexact Hg
/-- and so as an equation. -/
theorem PhiA2_eq (c : Dev nD) :
    (Pipeline.ΦA spec2 c : sProp 𝕄)
      = iprop((others2 (F := F) c ∗ (∃ d, owns (c : Thread nD τ) scM2 fullShare d)) ∗ (∃ r, prngReg c r)) :=
  BI.equiv_iff.mp ⟨PhiA2_split c, PhiA2_join c⟩

/-- The invariant before the first point, -/
theorem PhiS2_of_zero (c : Dev nD) (n : ℕ) (h : n ≤ cfg2.N) (hz : n = 0) : PhiS2 V c n h = Pipeline.ΦA spec2 c := by
  subst hz; rfl
/-- and before any later point: the scratch at what the point before left. -/
theorem PhiS2_of_pos (c : Dev nD) (n : ℕ) (h : n ≤ cfg2.N) (hz : n ≠ 0) :
    PhiS2 V c n h = iprop((others2 (F := F) c ∗ owns (c : Thread nD τ) scM2 fullShare (accAt2 V c (n - 1) (by omega))) ∗ (∃ r, prngReg c r)) := by
  cases n with
  | zero => exact absurd rfl hz
  | succ n => rfl
/-- The invariant at a point's start, restated at the point's position. -/
theorem PhiS2_castSucc (c : Dev nD) (t : Fin cfg2.N) :
    (dat2 V c).Φ t.castSucc = PhiS2 V c t.val (Nat.le_of_lt t.isLt) := rfl

/-- The accumulator after the first point, -/
theorem accAt2_first (c : Dev nD) (t : Fin cfg2.N) (h : t.val = 0) :
    accAt2 V c t.val t.isLt = k2_pay2 (k2_pay1 (F := F)) (iblk2 V c 0 t) (iblk2 V c 1 t) := by
  obtain ⟨n, hn⟩ := t
  cases n with
  | zero => rfl
  | succ n => exact absurd h (Nat.succ_ne_zero n)
/-- and after a later one, over what the point before left. -/
theorem accAt2_later (c : Dev nD) (t : Fin cfg2.N) (h : t.val ≠ 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd rfl h
  | succ n => rfl

set_option maxHeartbeats 1000000 in
/-- At the first point the body stores zero over the accumulator, whatever it held, and adds the product of the two
    fetched blocks to it; it touches nothing else. -/
theorem run2_A (c : Dev nD) (i : grid2.Coords) (arg1 : Memref sig .tc .vmem S64x2176 .f32) (harg1 : arg1.IsWhole) (arg2 : Memref sig .tc .vmem S2176x128 .f32) (harg2 : arg2.IsWhole) (arg3 : Memref sig .tc .vmem S64x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S64x128 .f32) (harg7 : arg7.IsWhole) (hc0 : cond2_0 i) (hc1 : ¬cond2_1 i)
    (x0 : Vec F S64x2176 .f32) (x1 : Vec F S2176x128 .f32) (x2 : Vec F S64x1 .f32) (x3 : Vec F S128x1 .f32) (x4 : Vec F S1x1 .f32)
    (xi : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi ∗ owns (c : Thread nD τ) arg7 fullShare (k2_pay2 (k2_pay1 (F := F)) x0 x1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  sl_unfold_words
  rw [View.read_writes_eq_canon _ _ _ (fun y => ⟨_, List.mem_cons.mpr (Or.inl rfl), View.mem_set_unit_zero zero_offsets2 inb_S64x128_S64x128_0_0 y⟩)]
  rw [View.canon_cons_unit_zero (S := S64x128) zero_offsets2]
  simp only [View.readAt_eq_ld, harg1.read_unread, harg2.read_unread, View.readCov_unit_zero (S := S64x128) _ zero_offsets2, View.ld_unit_zero (S := S64x2176) zero_offsets2, View.ld_unit_zero (S := S2176x128) zero_offsets2]

set_option maxHeartbeats 1000000 in
/-- At a point that is neither the first nor the last the body adds the product of the two fetched blocks to the
    accumulator and touches nothing else. -/
theorem run2_B (c : Dev nD) (i : grid2.Coords) (arg1 : Memref sig .tc .vmem S64x2176 .f32) (harg1 : arg1.IsWhole) (arg2 : Memref sig .tc .vmem S2176x128 .f32) (harg2 : arg2.IsWhole) (arg3 : Memref sig .tc .vmem S64x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S64x128 .f32) (harg7 : arg7.IsWhole) (hc0 : ¬cond2_0 i) (hc1 : ¬cond2_1 i)
    (x0 : Vec F S64x2176 .f32) (x1 : Vec F S2176x128 .f32) (x2 : Vec F S64x1 .f32) (x3 : Vec F S128x1 .f32) (x4 : Vec F S1x1 .f32)
    (xi : Vec F S64x1 .f32) (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi ∗ owns (c : Thread nD τ) arg7 fullShare (k2_pay2 xs x0 x1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  rw [View.read_writes_eq_canon _ _ _ (fun y => ⟨_, List.mem_singleton_self _, View.mem_set_unit_zero zero_offsets2 inb_S64x128_S64x128_0_0 y⟩)]
  rw [View.canon_unit_zero zero_offsets2]
  simp only [View.readAt_eq_ld, harg7.read_unread, harg1.read_unread, harg2.read_unread, View.ld_unit_zero (S := S64x128) zero_offsets2, View.ld_unit_zero (S := S64x2176) zero_offsets2, View.ld_unit_zero (S := S2176x128) zero_offsets2]

set_option maxHeartbeats 1000000 in
/-- At the last point the body adds the product of the two fetched blocks to the accumulator and then stores, over the
    whole output block whatever it held, the last formula of the updated accumulator and the three small inputs. -/
theorem run2_C (c : Dev nD) (i : grid2.Coords) (arg1 : Memref sig .tc .vmem S64x2176 .f32) (harg1 : arg1.IsWhole) (arg2 : Memref sig .tc .vmem S2176x128 .f32) (harg2 : arg2.IsWhole) (arg3 : Memref sig .tc .vmem S64x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S64x1 .f32) (harg6 : arg6.IsWhole) (arg7 : Memref sig .tc .vmem S64x128 .f32) (harg7 : arg7.IsWhole) (hc0 : ¬cond2_0 i) (hc1 : cond2_1 i)
    (x0 : Vec F S64x2176 .f32) (x1 : Vec F S2176x128 .f32) (x2 : Vec F S64x1 .f32) (x3 : Vec F S128x1 .f32) (x4 : Vec F S1x1 .f32)
    (xs : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay3 (k2_pay2 xs x0 x1) x2 x3 x4) ∗ owns (c : Thread nD τ) arg7 fullShare (k2_pay2 xs x0 x1)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_words
    rw [View.read_writes_eq_canon _ _ _ (fun y => ⟨_, List.mem_singleton_self _, View.mem_set_unit_zero zero_offsets2 inb_S64x1_S64x1_0_0 y⟩)]
    rw [View.canon_unit_zero zero_offsets2]
    simp only [View.readAt_eq_ld, harg1.read_unread, harg2.read_unread, harg3.read_unread, harg4.read_unread, harg5.read_unread, harg7.read_unread, View.readCov_unit_zero (S := S64x128) _ zero_offsets2, View.ld_unit_zero (S := S64x128) zero_offsets2, View.ld_unit_zero (S := S64x2176) zero_offsets2, View.ld_unit_zero (S := S2176x128) zero_offsets2, View.ld_unit_zero (S := S64x1) zero_offsets2, View.ld_unit_zero (S := S128x1) zero_offsets2, View.ld_unit_zero (S := S1x1) zero_offsets2]
  iexists _; isplitr
  swap; · iexact HS
  ipureintro
  sl_unfold_words
  rw [View.read_writes_eq_canon _ _ _ (fun y => ⟨_, List.mem_singleton_self _, View.mem_set_unit_zero zero_offsets2 inb_S64x128_S64x128_0_0 y⟩)]
  rw [View.canon_unit_zero zero_offsets2]
  simp only [View.readAt_eq_ld, harg1.read_unread, harg2.read_unread, harg3.read_unread, harg4.read_unread, harg5.read_unread, harg7.read_unread, View.readCov_unit_zero (S := S64x128) _ zero_offsets2, View.ld_unit_zero (S := S64x128) zero_offsets2, View.ld_unit_zero (S := S64x2176) zero_offsets2, View.ld_unit_zero (S := S2176x128) zero_offsets2, View.ld_unit_zero (S := S64x1) zero_offsets2, View.ld_unit_zero (S := S128x1) zero_offsets2, View.ld_unit_zero (S := S1x1) zero_offsets2]

set_option maxHeartbeats 4800000 in
/-- The body at any point: the inputs' buffers hold their blocks; by the point's position it is the first, a middle or
    the last one, and that case's run applies with the scratch at what the invariant names (anything before the first
    point); the invariant takes the scratch back at this point's accumulator; where the output is not stored it is idle
    and handed back untouched, at the last point it is left at the last formula; the core owes nothing throughout. -/
theorem sound_body2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare ((dat2 V c).before 3 t d))
      ∗ (∃ d, owns (c : Thread nD τ) (win2_4.stage (cfg2.slots t 4)) fullShare ((dat2 V c).before 4 t d))
      ∗ (∃ d, owns (c : Thread nD τ) (win2_5.stage (cfg2.slots t 5)) fullShare ((dat2 V c).before 5 t d)))
    ⊢ wp frame (wpE (defs₀ (F := F)) Variants.none c none) Set.univ (bodyAt2 t) (fun _ =>
        iprop((dat2 V c).Φ t.succ ∗ (dat2 V c).owesAt () t.succ
          ∗ (dat2 V c).leavesExact 0 t ∗ (dat2 V c).leavesExact 1 t ∗ (dat2 V c).leavesExact 2 t
          ∗ (dat2 V c).leavesExact 3 t ∗ (dat2 V c).leavesExact 4 t ∗ (dat2 V c).leavesExact 5 t)) := by
  unfold bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (win2_0.stage (cfg2.slots t 0)) fullShare ((dat2 V c).after 0 t) from by
    unfold Dat.leavesExact; rw [liveAt2_0 t], after2_0]
  rw [show (dat2 V c).leavesExact 1 t = owns (c : Thread nD τ) (win2_1.stage (cfg2.slots t 1)) fullShare ((dat2 V c).after 1 t) from by
    unfold Dat.leavesExact; rw [liveAt2_1 t], after2_1]
  rw [show (dat2 V c).leavesExact 2 t = owns (c : Thread nD τ) (win2_2.stage (cfg2.slots t 2)) fullShare ((dat2 V c).after 2 t) from by
    unfold Dat.leavesExact; rw [liveAt2_2 t], after2_2]
  rw [show (dat2 V c).leavesExact 3 t = owns (c : Thread nD τ) (win2_3.stage (cfg2.slots t 3)) fullShare ((dat2 V c).after 3 t) from by
    unfold Dat.leavesExact; rw [liveAt2_3 t], after2_3]
  rw [show (dat2 V c).leavesExact 4 t = owns (c : Thread nD τ) (win2_4.stage (cfg2.slots t 4)) fullShare ((dat2 V c).after 4 t) from by
    unfold Dat.leavesExact; rw [liveAt2_4 t], after2_4]
  have hN : t.val < 23 := lt_of_lt_of_eq t.isLt (show cfg2.N = 23 from N_2)
  rw [PhiS2_castSucc V c t]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1)]
    rw [PhiS2_of_zero V c _ _ h0, PhiA2_eq, accAt2_first V c t h0]
    iintro ⟨⟨⟨Hoth, HS⟩, Hg⟩, Ho, ⟨%d0, H0⟩, ⟨%d1, H1⟩, ⟨%d2, H2⟩, ⟨%d3, H3⟩, ⟨%d4, H4⟩, ⟨%d5, H5⟩⟩
    iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hoth HS Hg]
    · isplitr [Hg]
      · isplitl [Hoth]; · iexact Hoth
        iexact HS
      · iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond2_0 (grid2.coords t) := fun h => h0 ((hcond2_0 t).mp h)
    rw [PhiS2_of_pos V c _ _ h0, accAt2_later V c t h0]
    by_cases h1 : t.val = 22
    · have hc1 : cond2_1 (grid2.coords t) := (hcond2_1 t).mpr h1
      rw [show (dat2 V c).leavesExact 5 t = owns (c : Thread nD τ) (win2_5.stage (cfg2.slots t 5)) fullShare ((dat2 V c).after 5 t) from by
        unfold Dat.leavesExact; rw [liveAt2_5 t hc1], after2_5, accAt2_later V c t h0]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ hc0 hc1 (iblk2 V c 0 t) (iblk2 V c 1 t) (iblk2 V c 2 t) (iblk2 V c 3 t) (iblk2 V c 4 t) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hoth HS Hg]
      · isplitr [Hg]
        · isplitl [Hoth]; · iexact Hoth
          iexact HS
        · iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 5 t (idleAt2_5 t hc1) (noFlush2_5 t hc1)]
      iintro ⟨⟨⟨Hoth, HS⟩, Hg⟩, Ho, ⟨%d0, H0⟩, ⟨%d1, H1⟩, ⟨%d2, H2⟩, ⟨%d3, H3⟩, ⟨%d4, H4⟩, ⟨%d5, H5⟩⟩
      iapply (run2_B c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hoth HS Hg]
      · isplitr [Hg]
        · isplitl [Hoth]; · iexact Hoth
          iexact HS
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the region, at every point. -/
theorem body_obligation2 (c : Dev nD) :
    BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_of_zero V c 0 _ rfl]
  try exact BI.Entails.refl _

/-- After the last point the invariant gives the scoped rest and the generator register back, the accumulator's
    name forgotten. -/
theorem hout2 (c : Dev nD) : (dat2 (F := F) V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_of_pos V c _ _ (by rw [Fin.val_last]; have : cfg2.N = 23 := N_2; omega), PhiA2_eq]
  iintro ⟨⟨Hoth, HS⟩, Hg⟩
  isplitr [Hg]
  · isplitl [Hoth]; · iexact Hoth
    iexists _; iexact HS
  · iexact Hg

end Region2

end Cert.KernelIdeal.Hand

end
-- ==== Proof.KI.Fold.lean ====
/- The contents of the core's buffers at each boundary between two items of the program, as a fold from the launch
   memory: after a stretch of host operations, what the operations compute from the contents before; after a kernel
   region, the region's arrays at what its write-backs leave and every other buffer as the region found it.
   The three regions' proof data are taken at the contents each region is entered from. -/
import proofs.«429642_j9543417332444_1_alg».proof.Proof.Gen.KernelIdeal.Launch
import proofs.«429642_j9543417332444_1_alg».proof.Proof.Gen.KernelIdeal.Skeleton
import proofs.«429642_j9543417332444_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429642_j9543417332444_1_alg».proof.Proof.KI.Reg0
import proofs.«429642_j9543417332444_1_alg».proof.Proof.KI.Reg1
import proofs.«429642_j9543417332444_1_alg».proof.Proof.KI.Reg2
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the first three stretches of host operations: what region 0 is entered from. -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The same read at the TensorCore's references. -/
abbrev VR0 : (c : Dev nD) → (b : Ref sig .tc) → Buf (Elt F) ((c : Thread nD τ).loc b) := fun c b => W3 m c b
/-- At region 0's exit. -/
def W4 (c : Dev nD) : Valuation τ sig (Elt F) :=
  Pipeline.withArrays spec0 c (W3 m c) fun w => (dat0 (VR0 m) c).arrAt w cfg0.N
/-- After the next two stretches: what region 1 is entered from. -/
abbrev W5 : Dev nD → Valuation τ sig (Elt F) := fun c => StableHlo.after hostOps1 (W4 m c)
abbrev W6 : Dev nD → Valuation τ sig (Elt F) := fun c => StableHlo.after hostOps1_1 (W5 m c)
abbrev VR1 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (VR1 m) c).arrAt w cfg1.N
/-- After the next four stretches: what region 2 is entered from. -/
abbrev W8 : Dev nD → Valuation τ sig (Elt F) := fun c => StableHlo.after hostOps2 (W7 m c)
abbrev W9 : Dev nD → Valuation τ sig (Elt F) := fun c => StableHlo.after hostOps2_1 (W8 m c)
abbrev W10 : Dev nD → Valuation τ sig (Elt F) := fun c => StableHlo.after hostOps2_2 (W9 m c)
abbrev W11 : Dev nD → Valuation τ sig (Elt F) := fun c => StableHlo.after hostOps2_3 (W10 m c)
abbrev VR2 : (c : Dev nD) → (b : Ref sig .tc) → Buf (Elt F) ((c : Thread nD τ).loc b) := fun c b => W11 m c b
/-- At region 2's exit: the end of the program. -/
def W12 (c : Dev nD) : Valuation τ sig (Elt F) :=
  Pipeline.withArrays spec2 c (W11 m c) fun w => (dat2 (VR2 m) c).arrAt w cfg2.N

theorem W4_arr (c : Dev nD) (w : Fin cfg0.W) :
    W4 m c (Proc.devRef .tc (Pipeline.arrRef spec0 w)) = (dat0 (VR0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W7_arr (c : Dev nD) (w : Fin cfg1.W) :
    W7 m c (Proc.devRef .tc (Pipeline.arrRef spec1 w)) = (dat1 (VR1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
theorem W12_arr (c : Dev nD) (w : Fin cfg2.W) :
    W12 m c (Proc.devRef .tc (Pipeline.arrRef spec2 w)) = (dat2 (VR2 m) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m c (Proc.devRef .tc b) = W11 m c (Proc.devRef .tc b) := by
  unfold W12; exact Pipeline.withArrays_of_ne spec2 c _ _ b hb

/-- The prefetched tables' admissible contents: no region has a table. -/
abbrev adm : (p : Fin 3) → (pcfgs (F := F) p).Adm := fun p => (cfgs p).toPCfg_adm

/-- Every region's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
  | ⟨2, _⟩ => fun c => dat2 (VR2 m) c

end Cert.KernelIdeal.Hand

end
-- ==== Proof.KI.Run.lean ====
/- The run of the whole program. The program is twelve items in a row: nine stretches of host operations and three
   kernel regions. Between two items a core holds every unscoped buffer whole, at the contents the fold of the boundaries
   names, beside its generator register at some state and the record that it owes nothing. A stretch of host operations
   takes the buffers from one boundary's contents to the next by what its operations compute; a kernel region splits
   its arrays out of the buffers, runs its pipeline over them, and puts them back at what the write-backs leave, every
   other buffer untouched. Chained from the launch memory to the last boundary, this says that every execution of the
   program terminates and that every final memory holds, at every unscoped buffer of every core, the last boundary's
   contents. Two readings of that: no item writes an argument, so each argument ends as launched; and the result is
   the last region's output array after its last write-back. -/
import proofs.«429642_j9543417332444_1_alg».proof.Proof.Gen.KernelIdeal.Launch
import proofs.«429642_j9543417332444_1_alg».proof.Proof.Gen.KernelIdeal.Skeleton
import proofs.«429642_j9543417332444_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«429642_j9543417332444_1_alg».proof.Proof.KI.Fold
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stretches of host operations write -/

/-- The references the operations of this stretch write, in order. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem hostOps0_wr : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps0_fresh : (hostOps0 : List (HloOp τ sig (Elt F))).Forall fun op => op.fresh = ∅ := by
  simp only [List.Forall]; repeat' constructor
/-- The references the operations of this stretch write, in order. -/
abbrev wr0_1 : List (Ref sig .tc) := [main_call0_v0, main_call0_v1, main_v14]
theorem hostOps0_1_wr : (hostOps0_1 : List (HloOp τ sig (Elt F))).Forall fun op => op.writes ⊆ (wr0_1.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps0_1_fresh : (hostOps0_1 : List (HloOp τ sig (Elt F))).Forall fun op => op.fresh = ∅ := by
  simp only [List.Forall]; repeat' constructor
/-- The references the operations of this stretch write, in order. -/
abbrev wr0_2 : List (Ref sig .tc) := [main_c, main_v15, main_v16, main_c_3, main_v17, main_v18, main_v19, main_v20, main_v21, main_c_4, main_v22, main_v23, main_c_5, main_v24, main_v25, main_v26, main_v27, main_v28, main_v29]
theorem hostOps0_2_wr : (hostOps0_2 : List (HloOp τ sig (Elt F))).Forall fun op => op.writes ⊆ (wr0_2.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps0_2_fresh : (hostOps0_2 : List (HloOp τ sig (Elt F))).Forall fun op => op.fresh = ∅ := by
  simp only [List.Forall]; repeat' constructor
/-- The references the operations of this stretch write, in order. -/
abbrev wr1 : List (Ref sig .tc) := [main_c_6, main_v31, main_v32, main_c_7, main_v33, main_v34, main_v35, main_v36, main_v37, main_v38, main_v39, main_v40, main_cst_8, main_v41, main_v42, main_v43, main_v44, main_v45, main_v46]
theorem hostOps1_wr : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps1_fresh : (hostOps1 : List (HloOp τ sig (Elt F))).Forall fun op => op.fresh = ∅ := by
  simp only [List.Forall]; repeat' constructor
/-- The references the operations of this stretch write, in order. -/
abbrev wr1_1 : List (Ref sig .tc) := [main_call1_cst, main_call1_v0, main_v47]
theorem hostOps1_1_wr : (hostOps1_1 : List (HloOp τ sig (Elt F))).Forall fun op => op.writes ⊆ (wr1_1.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps1_1_fresh : (hostOps1_1 : List (HloOp τ sig (Elt F))).Forall fun op => op.fresh = ∅ := by
  simp only [List.Forall]; repeat' constructor
/-- The references the operations of this stretch write, in order. -/
abbrev wr2 : List (Ref sig .tc) := [main_c_9, main_v49, main_v50, main_c_10, main_v51, main_v52, main_v53, main_v54, main_v55, main_v56, main_v57, main_v58, main_cst_11, main_v59, main_v60, main_v61, main_v62, main_v63, main_v64, main_v65, main_v66, main_v67, main_v68, main_v69, main_v70, main_v71, main_cst_12, main_v72, main_v73, main_cst_13, main_v74, main_v75, main_cst_14, main_v76, main_v77, main_v78, main_c_15]
theorem hostOps2_wr : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps2_fresh : (hostOps2 : List (HloOp τ sig (Elt F))).Forall fun op => op.fresh = ∅ := by
  simp only [List.Forall]; repeat' constructor
/-- The references the operations of this stretch write, in order. -/
abbrev wr2_1 : List (Ref sig .tc) := [main_call2_v0, main_v79]
theorem hostOps2_1_wr : (hostOps2_1 : List (HloOp τ sig (Elt F))).Forall fun op => op.writes ⊆ (wr2_1.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps2_1_fresh : (hostOps2_1 : List (HloOp τ sig (Elt F))).Forall fun op => op.fresh = ∅ := by
  simp only [List.Forall]; repeat' constructor
/-- The references the operations of this stretch write, in order. -/
abbrev wr2_2 : List (Ref sig .tc) := [main_c_16]
theorem hostOps2_2_wr : (hostOps2_2 : List (HloOp τ sig (Elt F))).Forall fun op => op.writes ⊆ (wr2_2.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps2_2_fresh : (hostOps2_2 : List (HloOp τ sig (Elt F))).Forall fun op => op.fresh = ∅ := by
  simp only [List.Forall]; repeat' constructor
/-- The references the operations of this stretch write, in order. -/
abbrev wr2_3 : List (Ref sig .tc) := [main_call3_v0, main_v80]
theorem hostOps2_3_wr : (hostOps2_3 : List (HloOp τ sig (Elt F))).Forall fun op => op.writes ⊆ (wr2_3.map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)
/-- No operation of this stretch allocates a buffer. -/
theorem hostOps2_3_fresh : (hostOps2_3 : List (HloOp τ sig (Elt F))).Forall fun op => op.fresh = ∅ := by
  simp only [List.Forall]; repeat' constructor

/-! ## What each item leaves unchanged

A stretch of host operations leaves every reference it does not write; a kernel region leaves every buffer that is
none of its arrays. -/

theorem W1_of (c : Dev nD) (r : Ref sig .tc) (h : r ∉ wr0) : W1 m c (Proc.devRef .tc r) = W0 m c (Proc.devRef .tc r) :=
  StableHlo.after_of_writes_sub hostOps0 _ hostOps0_wr h
theorem W2_of (c : Dev nD) (r : Ref sig .tc) (h : r ∉ wr0_1) : W2 m c (Proc.devRef .tc r) = W1 m c (Proc.devRef .tc r) :=
  StableHlo.after_of_writes_sub hostOps0_1 _ hostOps0_1_wr h
theorem W3_of (c : Dev nD) (r : Ref sig .tc) (h : r ∉ wr0_2) : W3 m c (Proc.devRef .tc r) = W2 m c (Proc.devRef .tc r) :=
  StableHlo.after_of_writes_sub hostOps0_2 _ hostOps0_2_wr h
theorem W5_of (c : Dev nD) (r : Ref sig .tc) (h : r ∉ wr1) : W5 m c (Proc.devRef .tc r) = W4 m c (Proc.devRef .tc r) :=
  StableHlo.after_of_writes_sub hostOps1 _ hostOps1_wr h
theorem W6_of (c : Dev nD) (r : Ref sig .tc) (h : r ∉ wr1_1) : W6 m c (Proc.devRef .tc r) = W5 m c (Proc.devRef .tc r) :=
  StableHlo.after_of_writes_sub hostOps1_1 _ hostOps1_1_wr h
theorem W8_of (c : Dev nD) (r : Ref sig .tc) (h : r ∉ wr2) : W8 m c (Proc.devRef .tc r) = W7 m c (Proc.devRef .tc r) :=
  StableHlo.after_of_writes_sub hostOps2 _ hostOps2_wr h
theorem W9_of (c : Dev nD) (r : Ref sig .tc) (h : r ∉ wr2_1) : W9 m c (Proc.devRef .tc r) = W8 m c (Proc.devRef .tc r) :=
  StableHlo.after_of_writes_sub hostOps2_1 _ hostOps2_1_wr h
theorem W10_of (c : Dev nD) (r : Ref sig .tc) (h : r ∉ wr2_2) : W10 m c (Proc.devRef .tc r) = W9 m c (Proc.devRef .tc r) :=
  StableHlo.after_of_writes_sub hostOps2_2 _ hostOps2_2_wr h
theorem W11_of (c : Dev nD) (r : Ref sig .tc) (h : r ∉ wr2_3) : W11 m c (Proc.devRef .tc r) = W10 m c (Proc.devRef .tc r) :=
  StableHlo.after_of_writes_sub hostOps2_3 _ hostOps2_3_wr h

/-! ## The arguments end as launched

No host operation writes an argument, and a region that has one among its arrays has it as an input window's array,
which is never written back; so the fold at an argument's buffer walks back to the launch memory. -/

theorem W12_main_arg0 (c : Dev nD) : W12 m c (Proc.devRef .tc main_arg0) = m ((c : Thread nD τ).loc main_arg0) :=
  calc W12 m c (Proc.devRef .tc main_arg0)
    _ = W11 m c (Proc.devRef .tc main_arg0) := W12_of_ne m c main_arg0 (by decide)
    _ = W10 m c (Proc.devRef .tc main_arg0) := W11_of m c main_arg0 (by decide)
    _ = W9 m c (Proc.devRef .tc main_arg0) := W10_of m c main_arg0 (by decide)
    _ = W8 m c (Proc.devRef .tc main_arg0) := W9_of m c main_arg0 (by decide)
    _ = W7 m c (Proc.devRef .tc main_arg0) := W8_of m c main_arg0 (by decide)
    _ = W6 m c (Proc.devRef .tc main_arg0) := W7_of_ne m c main_arg0 (by decide)
    _ = W5 m c (Proc.devRef .tc main_arg0) := W6_of m c main_arg0 (by decide)
    _ = W4 m c (Proc.devRef .tc main_arg0) := W5_of m c main_arg0 (by decide)
    _ = W3 m c (Proc.devRef .tc main_arg0) := (W4_arr m c 0).trans (((dat0 (VR0 m) c).arrAt_in 0 rfl _).trans (A_eq0 (VR0 m) c 0))
    _ = W2 m c (Proc.devRef .tc main_arg0) := W3_of m c main_arg0 (by decide)
    _ = W1 m c (Proc.devRef .tc main_arg0) := W2_of m c main_arg0 (by decide)
    _ = W0 m c (Proc.devRef .tc main_arg0) := W1_of m c main_arg0 (by decide)
    _ = m ((c : Thread nD τ).loc main_arg0) := rfl
theorem W12_main_arg1 (c : Dev nD) : W12 m c (Proc.devRef .tc main_arg1) = m ((c : Thread nD τ).loc main_arg1) :=
  calc W12 m c (Proc.devRef .tc main_arg1)
    _ = W11 m c (Proc.devRef .tc main_arg1) := W12_of_ne m c main_arg1 (by decide)
    _ = W10 m c (Proc.devRef .tc main_arg1) := W11_of m c main_arg1 (by decide)
    _ = W9 m c (Proc.devRef .tc main_arg1) := W10_of m c main_arg1 (by decide)
    _ = W8 m c (Proc.devRef .tc main_arg1) := W9_of m c main_arg1 (by decide)
    _ = W7 m c (Proc.devRef .tc main_arg1) := W8_of m c main_arg1 (by decide)
    _ = W6 m c (Proc.devRef .tc main_arg1) := W7_of_ne m c main_arg1 (by decide)
    _ = W5 m c (Proc.devRef .tc main_arg1) := W6_of m c main_arg1 (by decide)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) := W1_of m c main_arg1 (by decide)
    _ = m ((c : Thread nD τ).loc main_arg1) := rfl
theorem W12_main_arg2 (c : Dev nD) : W12 m c (Proc.devRef .tc main_arg2) = m ((c : Thread nD τ).loc main_arg2) :=
  calc W12 m c (Proc.devRef .tc main_arg2)
    _ = W11 m c (Proc.devRef .tc main_arg2) := W12_of_ne m c main_arg2 (by decide)
    _ = W10 m c (Proc.devRef .tc main_arg2) := W11_of m c main_arg2 (by decide)
    _ = W9 m c (Proc.devRef .tc main_arg2) := W10_of m c main_arg2 (by decide)
    _ = W8 m c (Proc.devRef .tc main_arg2) := W9_of m c main_arg2 (by decide)
    _ = W7 m c (Proc.devRef .tc main_arg2) := W8_of m c main_arg2 (by decide)
    _ = W6 m c (Proc.devRef .tc main_arg2) := W7_of_ne m c main_arg2 (by decide)
    _ = W5 m c (Proc.devRef .tc main_arg2) := W6_of m c main_arg2 (by decide)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of m c main_arg2 (by decide)
    _ = W0 m c (Proc.devRef .tc main_arg2) := W1_of m c main_arg2 (by decide)
    _ = m ((c : Thread nD τ).loc main_arg2) := rfl
theorem W12_main_arg3 (c : Dev nD) : W12 m c (Proc.devRef .tc main_arg3) = m ((c : Thread nD τ).loc main_arg3) :=
  calc W12 m c (Proc.devRef .tc main_arg3)
    _ = W11 m c (Proc.devRef .tc main_arg3) := W12_of_ne m c main_arg3 (by decide)
    _ = W10 m c (Proc.devRef .tc main_arg3) := W11_of m c main_arg3 (by decide)
    _ = W9 m c (Proc.devRef .tc main_arg3) := W10_of m c main_arg3 (by decide)
    _ = W8 m c (Proc.devRef .tc main_arg3) := W9_of m c main_arg3 (by decide)
    _ = W7 m c (Proc.devRef .tc main_arg3) := W8_of m c main_arg3 (by decide)
    _ = W6 m c (Proc.devRef .tc main_arg3) := W7_of_ne m c main_arg3 (by decide)
    _ = W5 m c (Proc.devRef .tc main_arg3) := W6_of m c main_arg3 (by decide)
    _ = W4 m c (Proc.devRef .tc main_arg3) := W5_of m c main_arg3 (by decide)
    _ = W3 m c (Proc.devRef .tc main_arg3) := (W4_arr m c 1).trans (((dat0 (VR0 m) c).arrAt_in 1 rfl _).trans (A_eq0 (VR0 m) c 1))
    _ = W2 m c (Proc.devRef .tc main_arg3) := W3_of m c main_arg3 (by decide)
    _ = W1 m c (Proc.devRef .tc main_arg3) := W2_of m c main_arg3 (by decide)
    _ = W0 m c (Proc.devRef .tc main_arg3) := W1_of m c main_arg3 (by decide)
    _ = m ((c : Thread nD τ).loc main_arg3) := rfl
theorem W12_main_arg4 (c : Dev nD) : W12 m c (Proc.devRef .tc main_arg4) = m ((c : Thread nD τ).loc main_arg4) :=
  calc W12 m c (Proc.devRef .tc main_arg4)
    _ = W11 m c (Proc.devRef .tc main_arg4) := W12_of_ne m c main_arg4 (by decide)
    _ = W10 m c (Proc.devRef .tc main_arg4) := W11_of m c main_arg4 (by decide)
    _ = W9 m c (Proc.devRef .tc main_arg4) := W10_of m c main_arg4 (by decide)
    _ = W8 m c (Proc.devRef .tc main_arg4) := W9_of m c main_arg4 (by decide)
    _ = W7 m c (Proc.devRef .tc main_arg4) := W8_of m c main_arg4 (by decide)
    _ = W6 m c (Proc.devRef .tc main_arg4) := W7_of_ne m c main_arg4 (by decide)
    _ = W5 m c (Proc.devRef .tc main_arg4) := W6_of m c main_arg4 (by decide)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of m c main_arg4 (by decide)
    _ = W0 m c (Proc.devRef .tc main_arg4) := W1_of m c main_arg4 (by decide)
    _ = m ((c : Thread nD τ).loc main_arg4) := rfl
theorem W12_main_arg5 (c : Dev nD) : W12 m c (Proc.devRef .tc main_arg5) = m ((c : Thread nD τ).loc main_arg5) :=
  calc W12 m c (Proc.devRef .tc main_arg5)
    _ = W11 m c (Proc.devRef .tc main_arg5) := W12_of_ne m c main_arg5 (by decide)
    _ = W10 m c (Proc.devRef .tc main_arg5) := W11_of m c main_arg5 (by decide)
    _ = W9 m c (Proc.devRef .tc main_arg5) := W10_of m c main_arg5 (by decide)
    _ = W8 m c (Proc.devRef .tc main_arg5) := W9_of m c main_arg5 (by decide)
    _ = W7 m c (Proc.devRef .tc main_arg5) := W8_of m c main_arg5 (by decide)
    _ = W6 m c (Proc.devRef .tc main_arg5) := (W7_arr m c 1).trans (((dat1 (VR1 m) c).arrAt_in 1 rfl _).trans (A_eq1 (VR1 m) c 1))
    _ = W5 m c (Proc.devRef .tc main_arg5) := W6_of m c main_arg5 (by decide)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of m c main_arg5 (by decide)
    _ = W0 m c (Proc.devRef .tc main_arg5) := W1_of m c main_arg5 (by decide)
    _ = m ((c : Thread nD τ).loc main_arg5) := rfl
theorem W12_main_arg6 (c : Dev nD) : W12 m c (Proc.devRef .tc main_arg6) = m ((c : Thread nD τ).loc main_arg6) :=
  calc W12 m c (Proc.devRef .tc main_arg6)
    _ = W11 m c (Proc.devRef .tc main_arg6) := W12_of_ne m c main_arg6 (by decide)
    _ = W10 m c (Proc.devRef .tc main_arg6) := W11_of m c main_arg6 (by decide)
    _ = W9 m c (Proc.devRef .tc main_arg6) := W10_of m c main_arg6 (by decide)
    _ = W8 m c (Proc.devRef .tc main_arg6) := W9_of m c main_arg6 (by decide)
    _ = W7 m c (Proc.devRef .tc main_arg6) := W8_of m c main_arg6 (by decide)
    _ = W6 m c (Proc.devRef .tc main_arg6) := W7_of_ne m c main_arg6 (by decide)
    _ = W5 m c (Proc.devRef .tc main_arg6) := W6_of m c main_arg6 (by decide)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of m c main_arg6 (by decide)
    _ = W0 m c (Proc.devRef .tc main_arg6) := W1_of m c main_arg6 (by decide)
    _ = m ((c : Thread nD τ).loc main_arg6) := rfl
theorem W12_main_arg7 (c : Dev nD) : W12 m c (Proc.devRef .tc main_arg7) = m ((c : Thread nD τ).loc main_arg7) :=
  calc W12 m c (Proc.devRef .tc main_arg7)
    _ = W11 m c (Proc.devRef .tc main_arg7) := (W12_arr m c 3).trans (((dat2 (VR2 m) c).arrAt_in 3 rfl _).trans (A_eq2 (VR2 m) c 3))
    _ = W10 m c (Proc.devRef .tc main_arg7) := W11_of m c main_arg7 (by decide)
    _ = W9 m c (Proc.devRef .tc main_arg7) := W10_of m c main_arg7 (by decide)
    _ = W8 m c (Proc.devRef .tc main_arg7) := W9_of m c main_arg7 (by decide)
    _ = W7 m c (Proc.devRef .tc main_arg7) := W8_of m c main_arg7 (by decide)
    _ = W6 m c (Proc.devRef .tc main_arg7) := W7_of_ne m c main_arg7 (by decide)
    _ = W5 m c (Proc.devRef .tc main_arg7) := W6_of m c main_arg7 (by decide)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of m c main_arg7 (by decide)
    _ = W0 m c (Proc.devRef .tc main_arg7) := W1_of m c main_arg7 (by decide)
    _ = m ((c : Thread nD τ).loc main_arg7) := rfl
theorem W12_main_arg8 (c : Dev nD) : W12 m c (Proc.devRef .tc main_arg8) = m ((c : Thread nD τ).loc main_arg8) :=
  calc W12 m c (Proc.devRef .tc main_arg8)
    _ = W11 m c (Proc.devRef .tc main_arg8) := W12_of_ne m c main_arg8 (by decide)
    _ = W10 m c (Proc.devRef .tc main_arg8) := W11_of m c main_arg8 (by decide)
    _ = W9 m c (Proc.devRef .tc main_arg8) := W10_of m c main_arg8 (by decide)
    _ = W8 m c (Proc.devRef .tc main_arg8) := W9_of m c main_arg8 (by decide)
    _ = W7 m c (Proc.devRef .tc main_arg8) := W8_of m c main_arg8 (by decide)
    _ = W6 m c (Proc.devRef .tc main_arg8) := W7_of_ne m c main_arg8 (by decide)
    _ = W5 m c (Proc.devRef .tc main_arg8) := W6_of m c main_arg8 (by decide)
    _ = W4 m c (Proc.devRef .tc main_arg8) := W5_of m c main_arg8 (by decide)
    _ = W3 m c (Proc.devRef .tc main_arg8) := W4_of_ne m c main_arg8 (by decide)
    _ = W2 m c (Proc.devRef .tc main_arg8) := W3_of m c main_arg8 (by decide)
    _ = W1 m c (Proc.devRef .tc main_arg8) := W2_of m c main_arg8 (by decide)
    _ = W0 m c (Proc.devRef .tc main_arg8) := W1_of m c main_arg8 (by decide)
    _ = m ((c : Thread nD τ).loc main_arg8) := rfl

/-! ## The thread state between two items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record that the core owes nothing. -/
abbrev R (c : Dev nD) : sProp 𝕄 := iprop((∃ r, prngReg c r) ∗ ∃ W, owes (c : Thread nD τ) (0 : CellTallies nD τ sig Unit) W)
/-- A stretch of host operations as a segment: over the unscoped references, from the contents W to what the
    operations compute from W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing: every unscoped buffer at the last boundary's contents, the
    generator register at some state. -/
abbrev Tₙ (c : Dev nD) : sProp 𝕄 := iprop(StableHlo.held (c : Thread nD τ) (Pipeline.ucRefs τ sig) (W12 m c) ∗ ∃ r, prngReg c r)

/-! ## A region's exit contents against its entry contents

At a region's exit each of its arrays holds what the write-backs leave, and every other buffer what it held at entry. -/

/-- The contents at region 0's exit, read at the TensorCore's references. -/
abbrev VX0 : (c : Dev nD) → (b : Ref sig .tc) → Buf (Elt F) ((c : Thread nD τ).loc b) := fun c b => W4 m c b
/-- At region 1's exit. -/
abbrev VX1 : (c : Dev nD) → (b : Ref sig .tc) → Buf (Elt F) ((c : Thread nD τ).loc b) := fun c b => W7 m c b
/-- At region 2's exit. -/
abbrev VX2 : (c : Dev nD) → (b : Ref sig .tc) → Buf (Elt F) ((c : Thread nD τ).loc b) := fun c b => W12 m c b
theorem hF0 (c : Dev nD) (w : Fin cfg0.W) : (dat0 (VR0 m) c).arrAt w cfg0.N = VX0 m c (Pipeline.arrRef spec0 w) :=
  (W4_arr m c w).symm
theorem hrest0 (c : Dev nD) : ∀ b, b ∉ Finset.univ.image (Pipeline.arrRef spec0) → VX0 m c b = VR0 m c b :=
  fun b hb => W4_of_ne m c b fun w e => hb (Finset.mem_image.mpr ⟨w, Finset.mem_univ _, e⟩)
theorem hF1 (c : Dev nD) (w : Fin cfg1.W) : (dat1 (VR1 m) c).arrAt w cfg1.N = VX1 m c (Pipeline.arrRef spec1 w) :=
  (W7_arr m c w).symm
theorem hrest1 (c : Dev nD) : ∀ b, b ∉ Finset.univ.image (Pipeline.arrRef spec1) → VX1 m c b = VR1 m c b :=
  fun b hb => W7_of_ne m c b fun w e => hb (Finset.mem_image.mpr ⟨w, Finset.mem_univ _, e⟩)
theorem hF2 (c : Dev nD) (w : Fin cfg2.W) : (dat2 (VR2 m) c).arrAt w cfg2.N = VX2 m c (Pipeline.arrRef spec2 w) :=
  (W12_arr m c w).symm
theorem hrest2 (c : Dev nD) : ∀ b, b ∉ Finset.univ.image (Pipeline.arrRef spec2) → VX2 m c b = VR2 m c b :=
  fun b hb => W12_of_ne m c b fun w e => hb (Finset.mem_image.mpr ⟨w, Finset.mem_univ _, e⟩)

/-! ## The regions as segments

Each region is entered from every unscoped buffer at its entry contents and left at its exit contents. At entry its
arrays are split out of the unscoped buffers, at exit put back at what the write-backs leave; the generator register
goes into the region's invariant and comes back; nothing is owed; the kernels have no semaphore of their own. -/

set_option backward.isDefEq.respectTransparency.types false in
/-- Region 0: from the contents after the first three stretches. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: from the contents after the next two stretches. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: from the contents after the last four stretches; its invariant names the accumulator the kernel keeps across
    the points, so the invariant before the first point is made from the launch's form of it and the one after the last
    point is turned back into that form. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR2 m) c).loose
  hwaits := Pipeline.hwaits_of_owed_zero _ _ _ _ L lv 2 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VR2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VR2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec2 c ⊢ (pdats m 2 c).Φ 0 from hin2 (VR2 m) c)
    unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (VR2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VR2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's twelve segments in order: a host segment per stretch from its boundary's contents, a region per
    kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)),
    .host (hseg hostOps2_3 hostOps2_3_sub hostOps2_3_fresh (W10 m)),
    .region (reg2 m) ]
/-- The program is the run of the segments: it is the chain of its twelve items, and the segments' run is the chain
    of the same items. -/
theorem main_run (c : Dev nD) : main (F := F) c = Pipeline.Seg.run (segs m) := (main_chain c).trans (by chain_rfl)

set_option backward.isDefEq.respectTransparency.types false in
/-- From any memory with every counter at zero, every weakly fair execution of the program on the TensorCores
    terminates, nothing faulting, and every final memory holds at every unscoped buffer of every core the last
    boundary's contents: the segments chained from the launch, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- Every argument array ends holding its launch contents. -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c)⟩) (run_all m ρ)

/-- The result array ends holding the last region's output array after its last write-back, and every argument
    array its launch contents. -/
theorem run_value : θ_run defs (onTc (τ := τ) (main (F := F))) ⟨m, fun _ => 0, ρ⟩ (fun r => ∀ c : Dev nD,
      r.2.mem ((c.tc : Thread nD τ).loc main_v81) = (dat2 (VR2 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v81 (by decide))).trans (W12_arr m c 5),
     (h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c)⟩) (run_all m ρ)

end Cert.KernelIdeal.Hand

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.Val.ValMat.lean ====
/- The two block matrix products of the program, read as whole arrays at the exact-real instance: after the ten
   write-backs of a region its output array holds, block of 5000 rows by block, what each grid point stored, and that is
   the product of the whole 50000 × 128 left matrix with the 128 × 128 right matrix, entry (p, q) being the sum over k
   of left (p, k) · right (k, q): the value the reference's one product has. -/
import proofs.«429642_j9543417332444_1_alg».proof.Proof.KI.Reg0
import proofs.«429642_j9543417332444_1_alg».proof.Proof.KI.Reg1
import proofs.«429642_j9543417332444_1_alg».proof.Proof.RefRead
import proofs.«429642_j9543417332444_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx
open scoped BigOperators

/-- The offsets of a whole-block rectangle are all zero. -/
theorem hz : (![0, 0] : Fin 2 → Nat) = fun _ => 0 := funext fun a => by fin_cases a <;> rfl

/-- The product of a 50000 × 128 matrix with a 128 × 128 matrix, entry by entry. -/
def prodArr (A : S50000x128.Idx → EReal) (B : S128x128.Idx → EReal) : S50000x128.Idx → EReal :=
  fun i => ∑ k : Fin 128, A (ix2 (i 0) k) * B (ix2 k (i 1))

/-- The product is the reference's: its one matrix product reads the same two entries under the same sum. -/
theorem prodArr_eq_ref (A : S50000x128.Idx → EReal) (B : S128x128.Idx → EReal) :
    prodArr A B = Cert.ReferenceIdeal.PRead.val_main_v30 (F := Ideal) A B := by
  funext i
  rw [Cert.ReferenceIdeal.PRead.val_main_v30_apply]
  unfold prodArr
  refine Finset.sum_congr rfl fun k _ => ?_
  have el : (ix2 (i 0) k : S50000x128.Idx) = Cert.ReferenceIdeal.PRead.lidx_main_v30 i k :=
    funext fun a => by match a with | ⟨0, _⟩ => rfl | ⟨1, _⟩ => rfl
  have er : (ix2 k (i 1) : S128x128.Idx) = Cert.ReferenceIdeal.PRead.ridx_main_v30 i k :=
    funext fun a => by match a with | ⟨0, _⟩ => rfl | ⟨1, _⟩ => rfl
  rw [el, er]

/-- A block product into the zero accumulator, at (p, q): the sum over k of left (p, k) · right (k, q). -/
theorem blockprod0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) :=
  Cert.LibPlainDot.matmul_zero_apply dot_S5000x128_S128x128_S5000x128_1_0_0_1_n_n rfl rfl rfl rfl rfl rfl none x0 x1 p q

/-- The same at any index of the block. -/
theorem blockprod0_at (x0 : Vec Ideal S5000x128 .f32) (x1 : Vec Ideal S128x128 .f32) (j : S5000x128.Idx) :
    k0_pay1 (F := Ideal) x0 x1 j = ∑ k : Fin 128, x0 (ix2 (j 0) k) * x1 (ix2 k (j 1)) :=
  (congrArg (k0_pay1 (F := Ideal) x0 x1) (eq_ix2 j)).trans (blockprod0_apply x0 x1 (j 0) (j 1))

/-- Region 1's block product recasts its left block to its own shape first, which changes nothing. -/
theorem blockprod1_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 k q) := by
  unfold k1_pay1
  simp only [shapeCast_self]
  exact Cert.LibPlainDot.matmul_zero_apply dot_S5000x128_S128x128_S5000x128_1_0_0_1_n_n rfl rfl rfl rfl rfl rfl none x0 x1 p q

/-- The same at any index of the block. -/
theorem blockprod1_at (x0 : Vec Ideal S5000x128 .f32) (x1 : Vec Ideal S128x128 .f32) (j : S5000x128.Idx) :
    k1_pay1 (F := Ideal) x0 x1 j = ∑ k : Fin 128, x0 (ix2 (j 0) k) * x1 (ix2 k (j 1)) :=
  (congrArg (k1_pay1 (F := Ideal) x0 x1) (eq_ix2 j)).trans (blockprod1_apply x0 x1 (j 0) (j 1))

section Region0
variable (V : (c : Dev nD) → (b : Ref sig .tc) → Buf (Elt Ideal) ((c : Thread nD τ).loc b)) (c : Dev nD)

/-- The printed index maps, decided over the grid: the left matrix and the output move one block of rows per point,
    the right matrix stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two input blocks at a point, at their literal types. -/
abbrev xblk0 (t : Fin cfg0.N) : Vec Ideal S5000x128 .f32 := iblk0 V c 0 t
abbrev wblk0 (t : Fin cfg0.N) : Vec Ideal S128x128 .f32 := iblk0 V c 1 t
/-- The two input arrays, at their literal types. -/
abbrev xarr0 : S50000x128.Idx → EReal := V c main_arg0
abbrev warr0 : S128x128.Idx → EReal := V c main_arg3

/-- Row p of the left block at point t is row 5000 · t + p of the left matrix. -/
theorem xblk0_apply (t : Fin cfg0.N) (y : S5000x128.Idx) (i : S50000x128.Idx)
    (h0 : (i 0).val = t.val * 5000 + (y 0).val) (h1 : (i 1).val = (y 1).val) : xblk0 V c t y = xarr0 V c i := by
  obtain ⟨a0, a1, -, -, -, -⟩ := idx_facts0 t
  show V c main_arg0 (((cfg0.win 0).blk t).view.emb y) = V c main_arg0 i
  refine congrArg (V c main_arg0) ?_
  funext a; apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The right block at every point is the whole right matrix. -/
theorem wblk0_apply (t : Fin cfg0.N) (y : S128x128.Idx) : wblk0 V c t y = warr0 V c y := by
  obtain ⟨-, -, b0, b1, -, -⟩ := idx_facts0 t
  show V c main_arg3 (((cfg0.win 1).blk t).view.emb y) = V c main_arg3 y
  refine congrArg (V c main_arg3) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What point t writes back is block t of the product of the two arrays as the region finds them. -/
theorem flushed0_eq (t : Fin cfg0.N) :
    (dat0 (F := Ideal) V c).flushed 2 t = ((cfg0.win 2).blk t).view.read (Elt Ideal) (prodArr (xarr0 V c) (warr0 V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, c0, c1⟩ := idx_facts0 t
  funext j
  show k0_pay1 (F := Ideal) (xblk0 V c t) (wblk0 V c t) j = prodArr (xarr0 V c) (warr0 V c) (((cfg0.win 2).blk t).view.emb j)
  rw [blockprod0_at]
  unfold prodArr
  refine Finset.sum_congr rfl fun k _ => ?_
  rw [wblk0_apply]
  have e1 : (((cfg0.win 2).blk t).view.emb j (1 : Fin 2)).val = (j 1).val := by
    show win0_2.index t (1 : Fin 2) * 128 + 1 * (j 1).val = (j 1).val; omega
  have e0 : (((cfg0.win 2).blk t).view.emb j (0 : Fin 2)).val = t.val * 5000 + (j 0).val := by
    show win0_2.index t (0 : Fin 2) * 5000 + 1 * (j 0).val = t.val * 5000 + (j 0).val; omega
  rw [xblk0_apply V c t (ix2 (j 0) k) (ix2 (((cfg0.win 2).blk t).view.emb j 0) k) e0 rfl]
  refine congrArg (fun z => xarr0 V c (ix2 (((cfg0.win 2).blk t).view.emb j 0) k) * warr0 V c z) ?_
  funext a; apply Fin.ext
  match a with
  | ⟨0, _⟩ => rfl
  | ⟨1, _⟩ => exact e1.symm

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some point's block: row r in that of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, c0, c1⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array of region 0 after its run: the reference's product of the two arrays the region found. -/
theorem arr0_eq_ref : (dat0 (F := Ideal) V c).arrAt 2 cfg0.N = Cert.ReferenceIdeal.PRead.val_main_v30 (F := Ideal) (V c main_arg0) (V c main_arg3) :=
  ((dat0 (F := Ideal) V c).arrAt_eq_of_cover 2 (prodArr (xarr0 V c) (warr0 V c)) (fun t _ => flushed0_eq V c t) cover0).trans
    (prodArr_eq_ref (xarr0 V c) (warr0 V c))

end Region0

section Region1
variable (V : (c : Dev nD) → (b : Ref sig .tc) → Buf (Elt Ideal) ((c : Thread nD τ).loc b)) (c : Dev nD)

/-- The printed index maps, decided over the grid: the left matrix and the output move one block of rows per point,
    the right matrix stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The two input blocks at a point, at their literal types. -/
abbrev xblk1 (t : Fin cfg1.N) : Vec Ideal S5000x128 .f32 := iblk1 V c 0 t
abbrev wblk1 (t : Fin cfg1.N) : Vec Ideal S128x128 .f32 := iblk1 V c 1 t
/-- The two input arrays, at their literal types. -/
abbrev xarr1 : S50000x128.Idx → EReal := V c main_v47
abbrev warr1 : S128x128.Idx → EReal := V c main_arg5

/-- Row p of the left block at point t is row 5000 · t + p of the left matrix. -/
theorem xblk1_apply (t : Fin cfg1.N) (y : S5000x128.Idx) (i : S50000x128.Idx)
    (h0 : (i 0).val = t.val * 5000 + (y 0).val) (h1 : (i 1).val = (y 1).val) : xblk1 V c t y = xarr1 V c i := by
  obtain ⟨a0, a1, -, -, -, -⟩ := idx_facts1 t
  show V c main_v47 (((cfg1.win 0).blk t).view.emb y) = V c main_v47 i
  refine congrArg (V c main_v47) ?_
  funext a; apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The right block at every point is the whole right matrix. -/
theorem wblk1_apply (t : Fin cfg1.N) (y : S128x128.Idx) : wblk1 V c t y = warr1 V c y := by
  obtain ⟨-, -, b0, b1, -, -⟩ := idx_facts1 t
  show V c main_arg5 (((cfg1.win 1).blk t).view.emb y) = V c main_arg5 y
  refine congrArg (V c main_arg5) ?_
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- What point t writes back is block t of the product of the two arrays as the region finds them. -/
theorem flushed1_eq (t : Fin cfg1.N) :
    (dat1 (F := Ideal) V c).flushed 2 t = ((cfg1.win 2).blk t).view.read (Elt Ideal) (prodArr (xarr1 V c) (warr1 V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, c0, c1⟩ := idx_facts1 t
  funext j
  show k1_pay1 (F := Ideal) (xblk1 V c t) (wblk1 V c t) j = prodArr (xarr1 V c) (warr1 V c) (((cfg1.win 2).blk t).view.emb j)
  rw [blockprod1_at]
  unfold prodArr
  refine Finset.sum_congr rfl fun k _ => ?_
  rw [wblk1_apply]
  have e1 : (((cfg1.win 2).blk t).view.emb j (1 : Fin 2)).val = (j 1).val := by
    show win1_2.index t (1 : Fin 2) * 128 + 1 * (j 1).val = (j 1).val; omega
  have e0 : (((cfg1.win 2).blk t).view.emb j (0 : Fin 2)).val = t.val * 5000 + (j 0).val := by
    show win1_2.index t (0 : Fin 2) * 5000 + 1 * (j 0).val = t.val * 5000 + (j 0).val; omega
  rw [xblk1_apply V c t (ix2 (j 0) k) (ix2 (((cfg1.win 2).blk t).view.emb j 0) k) e0 rfl]
  refine congrArg (fun z => xarr1 V c (ix2 (((cfg1.win 2).blk t).view.emb j 0) k) * warr1 V c z) ?_
  funext a; apply Fin.ext
  match a with
  | ⟨0, _⟩ => rfl
  | ⟨1, _⟩ => exact e1.symm

/-- An index of the array is in point t's block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every index of the output array is in some point's block: row r in that of point r / 5000. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, c0, c1⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array of region 1 after its run: the reference's product of the two arrays the region found. -/
theorem arr1_eq_ref : (dat1 (F := Ideal) V c).arrAt 2 cfg1.N = Cert.ReferenceIdeal.PRead.val_main_v30 (F := Ideal) (V c main_v47) (V c main_arg5) :=
  ((dat1 (F := Ideal) V c).arrAt_eq_of_cover 2 (prodArr (xarr1 V c) (warr1 V c)) (fun t _ => flushed1_eq V c t) cover1).trans
    (prodArr_eq_ref (xarr1 V c) (warr1 V c))

end Region1

end Cert.KernelIdeal.Val

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Val.ValPool.lean ====
/- What the pooling region leaves in its output array, read at an index, at the exact reals.

   The output array after all write-backs is what the last grid point wrote: its one block covers the whole 64 × 1
   array and is written back at the last point only, where the blocks of the three small operands are their whole
   arrays. The last point's formula, read at a row, is the logistic function of the row's scaled accumulator times
   the classifier column plus the bias. -/
import proofs.«429642_j9543417332444_1_alg».proof.Proof.KI.Reg2
import proofs.«429642_j9543417332444_1_alg».proof.Proof.LibPlainDot
import proofs.«429642_j9543417332444_1_alg».proof.Proof.LibBlockSum
import proofs.«429642_j9543417332444_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx
open scoped BigOperators

variable (V : (c : Dev nD) → (b : Ref sig .tc) → Buf (Elt Ideal) ((c : Thread nD τ).loc b))

/-- The last of the 23 grid points. -/
theorem h22 : 22 < cfg2.N := by rw [show cfg2.N = 23 from N_2]; decide

/-- The last point, as a point of the grid. -/
abbrev tLast : Fin cfg2.N := ⟨22, h22⟩

/-- What the region's output array ends holding. -/
abbrev result2 (c : Dev nD) : Vec Ideal S64x1 .f32 :=
  k2_pay3 (F := Ideal) (accAt2 V c 22 h22) (V c main_v77) (V c main_arg7) (V c main_v78)

/-- At the last point the block of the row scales is the whole 64 × 1 array: block (0, 0) read through zero offsets. -/
theorem iblk2_2_last (c : Dev nD) : iblk2 V c 2 tLast = V c main_v77 := by
  have hz' : (fun a => win2_2.index tLast a * main_v77.ty.shape.size a) = fun _ => 0 := funext fun a => by fin_cases a <;> decide +kernel
  exact Memref.read_access_unit_zero (Elt Ideal) main_v77 hz' (fun a => by rw [congrFun hz' a]; simp) (V c main_v77)

theorem iblk2_3_last (c : Dev nD) : iblk2 V c 3 tLast = V c main_arg7 := by
  have hz' : (fun a => win2_3.index tLast a * main_arg7.ty.shape.size a) = fun _ => 0 := funext fun a => by fin_cases a <;> decide +kernel
  exact Memref.read_access_unit_zero (Elt Ideal) main_arg7 hz' (fun a => by rw [congrFun hz' a]; simp) (V c main_arg7)

theorem iblk2_4_last (c : Dev nD) : iblk2 V c 4 tLast = V c main_v78 := by
  have hz' : (fun a => win2_4.index tLast a * main_v78.ty.shape.size a) = fun _ => 0 := funext fun a => by fin_cases a <;> decide +kernel
  exact Memref.read_access_unit_zero (Elt Ideal) main_v78 hz' (fun a => by rw [congrFun hz' a]; simp) (V c main_v78)

theorem flushed2_eq (c : Dev nD) (t : Fin cfg2.N) (hf : (cfg2.win 5).flush t = true) :
    (dat2 (F := Ideal) V c).flushed 5 t = ((cfg2.win 5).blk t).view.read (Elt Ideal) (result2 V c) := by
  have h3 : t.val = 22 := by have := (flush2_5 t).mp hf; have := t.isLt; have hN : cfg2.N = 23 := N_2; omega
  obtain rfl : t = tLast := Fin.ext h3
  show (cfg2.win 5).cut (grid2.coords tLast) ((dat2 (F := Ideal) V c).after 5 tLast) = _
  rw [after2_5, iblk2_2_last, iblk2_3_last, iblk2_4_last]
  have hz' : (fun a => win2_5.index tLast a * main_v81.ty.shape.size a) = fun _ => 0 := funext fun a => by fin_cases a <;> decide +kernel
  exact (Memref.read_access_unit_zero (Elt Ideal) main_v81 hz' (fun a => by rw [congrFun hz' a]; simp) (result2 V c)).symm

/-- The output array after all write-backs is what the last point wrote: its block covers the whole array. -/
theorem arr2_eq (c : Dev nD) :
    (dat2 (F := Ideal) V c).arrAt 5 cfg2.N = k2_pay3 (F := Ideal) (accAt2 V c 22 h22) (V c main_v77) (V c main_arg7) (V c main_v78) :=
  (dat2 (F := Ideal) V c).arrAt_eq_of_cover 5 (result2 V c) (flushed2_eq V c) fun i =>
    ⟨tLast, (flush2_5 tLast).mpr rfl, by
      show i ∈ ((View.whole main_v81).slice (win2_5.rect tLast)).set
      rw [View.set_slice_whole, Rect.mem_set_unit]
      intro a
      have h0 : (i 0 : Nat) < 64 := (i 0).isLt
      have h1 : (i 1 : Nat) < 1 := (i 1).isLt
      match a with
      | ⟨0, _⟩ => show win2_5.index tLast 0 * win2_5.size 0 ≤ (i 0 : Nat) ∧ (i 0 : Nat) < win2_5.index tLast 0 * win2_5.size 0 + win2_5.xsize (grid2.coords tLast) 0
                  rw [show win2_5.index tLast 0 * win2_5.size 0 = 0 from by decide +kernel, show win2_5.xsize (grid2.coords tLast) 0 = 64 from by decide +kernel]; omega
      | ⟨1, _⟩ => show win2_5.index tLast 1 * win2_5.size 1 ≤ (i 1 : Nat) ∧ (i 1 : Nat) < win2_5.index tLast 1 * win2_5.size 1 + win2_5.xsize (grid2.coords tLast) 1
                  rw [show win2_5.index tLast 1 * win2_5.size 1 = 0 from by decide +kernel, show win2_5.xsize (grid2.coords tLast) 1 = 1 from by decide +kernel]; omega⟩

/-- A 1 × 1 array spread along its first axis reads, at (i, 0), its one entry. -/
theorem broadcastTo_11_a1_apply {α : Type} {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ => rfl
  | ⟨1, _⟩ => rfl

/-- The last point's formula at a row: the logistic function of the row's scaled accumulator times the classifier
    column, plus the bias. -/
theorem pay3_apply (acc : Vec Ideal S64x128 .f32) (inv : Vec Ideal S64x1 .f32) (wc : Vec Ideal S128x1 .f32)
    (bc : Vec Ideal S1x1 .f32) (g : Fin 64) :
    k2_pay3 (F := Ideal) acc inv wc bc (ix2 g (0 : Fin 1))
      = Ideal.logistic ((∑ j : Fin 128, (acc (ix2 g j) * inv (ix2 g (0 : Fin 1))) * wc (ix2 j (0 : Fin 1))) + bc (ix2 (0 : Fin 1) (0 : Fin 1))) := by
  unfold k2_pay3
  rw [shapeCast_self, shapeCast_self]
  show Ideal.logistic (_ + _) = _
  refine congrArg Ideal.logistic (congrArg₂ (· + ·) ?_ ?_)
  · refine (Cert.LibPlainDot.matmul_zero_apply dot_S64x128_S128x1_S64x1_1_0_0_1_n_n rfl rfl rfl rfl rfl rfl none
      (mulf acc (broadcastTo S64x128 inv broadcasts_S64x1_S64x128)) wc g (0 : Fin 1)).trans ?_
    refine Finset.sum_congr rfl fun j _ => ?_
    refine congrArg (fun z => z * wc (ix2 j (0 : Fin 1))) ?_
    refine (mulf_apply _ _ _).trans ?_
    exact congrArg (fun z => acc (ix2 g j) * z) (Cert.LibColumn.broadcastTo_a1_ab_apply inv broadcasts_S64x1_S64x128 g j)
  · exact broadcastTo_11_a1_apply bc broadcasts_S1x1_S64x1 g (0 : Fin 1)

end Cert.KernelIdeal.Val

end
-- ==== Proof.Val.ValPoolAcc.lean ====
/- The pooling region's accumulator after the last grid point, read at an entry, at the exact reals.

   Each of the 23 points adds to entry (g, j) the plain sum, over its own 2176 columns, of the one-hot matrix's row g
   times the node features' column j; the first point starts from the zero it has just stored. Addition of extended
   reals is commutative and associative, so the 23 shares add up, and 23 blocks of 2176 consecutive columns are the
   50048 columns: the entry is the plain sum over all of them. -/
import proofs.«429642_j9543417332444_1_alg».proof.Proof.KI.Reg2
import proofs.«429642_j9543417332444_1_alg».proof.Proof.LibPlainDot
import proofs.«429642_j9543417332444_1_alg».proof.Proof.LibBlockSum
import proofs.«429642_j9543417332444_1_alg».proof.Proof.LibColumn
import proofs.«429642_j9543417332444_1_alg».proof.Proof.Val.ValPool
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx
open scoped BigOperators

variable (V : (c : Dev nD) → (b : Ref sig .tc) → Buf (Elt Ideal) ((c : Thread nD τ).loc b))

/-- The zero the kernel stores into the accumulator at the first point is zero at every entry. -/
theorem pay1_apply (g : Fin 64) (j : Fin 128) : k2_pay1 (F := Ideal) (ix2 g j) = 0 := by
  unfold k2_pay1
  rw [shapeCast_self]
  exact Ideal.ofBits_zero_f32

/-- One point's step at an entry: the accumulator gains the plain sum over the block's 2176 columns. -/
theorem pay2_apply (acc : Vec Ideal S64x128 .f32) (x : Vec Ideal S64x2176 .f32) (y : Vec Ideal S2176x128 .f32)
    (g : Fin 64) (j : Fin 128) :
    k2_pay2 (F := Ideal) acc x y (ix2 g j) = acc (ix2 g j) + ∑ k : Fin 2176, x (ix2 g k) * y (ix2 k j) := by
  unfold k2_pay2
  rw [shapeCast_self, shapeCast_self, shapeCast_self]
  refine (addf_apply _ _ _).trans ?_
  exact congrArg (fun z => acc (ix2 g j) + z)
    (Cert.LibPlainDot.matmul_zero_apply dot_S64x2176_S2176x128_S64x128_1_0_0_1_n_n rfl rfl rfl rfl rfl rfl none x y g j)

/-- The one-hot matrix and the node features as the region finds them, and their blocks at a point, at their
    literal types. -/
abbrev Pm (c : Dev nD) : Vec Ideal S64x50048 .f32 := V c main_v79
abbrev Hm (c : Dev nD) : Vec Ideal S50048x128 .f32 := V c main_v80
abbrev Pblk (c : Dev nD) (t : Fin cfg2.N) : Vec Ideal S64x2176 .f32 := iblk2 V c 0 t
abbrev Hblk (c : Dev nD) (t : Fin cfg2.N) : Vec Ideal S2176x128 .f32 := iblk2 V c 1 t

/-- The printed index maps of the two streamed operands, decided over the grid: point t reads column block t of the
    one-hot matrix and row block t of the node features. -/
theorem idx_facts01 : ∀ t : Fin cfg2.N, win2_0.index t (0 : Fin 2) = 0 ∧ win2_0.index t (1 : Fin 2) = t.val
    ∧ win2_1.index t (0 : Fin 2) = t.val ∧ win2_1.index t (1 : Fin 2) = 0 :=
  (by decide +kernel : ∀ t : Fin grid2.N, _)

/-- Entry (g, k) of point t's block of the one-hot matrix is the matrix's entry (g, 2176 t + k). -/
theorem blk0_apply (c : Dev nD) (t : Fin cfg2.N) (g : Fin 64) (k : Fin 2176) (hk : 2176 * t.val + k.val < 50048) :
    Pblk V c t (ix2 g k) = Pm V c (ix2 g ⟨2176 * t.val + k.val, hk⟩) := by
  obtain ⟨e0, e1, -, -⟩ := idx_facts01 t
  unfold Pblk iblk2
  rw [View.read_apply]
  show V c main_v79 _ = V c main_v79 _
  congr 1
  funext a
  apply Fin.ext
  match a with
  | ⟨0, _⟩ => show win2_0.index t 0 * 64 + 1 * g.val = g.val; rw [e0]; omega
  | ⟨1, _⟩ => show win2_0.index t 1 * 2176 + 1 * k.val = 2176 * t.val + k.val; rw [e1]; omega

/-- Entry (k, j) of point t's block of the node features is the features' entry (2176 t + k, j). -/
theorem blk1_apply (c : Dev nD) (t : Fin cfg2.N) (k : Fin 2176) (j : Fin 128) (hk : 2176 * t.val + k.val < 50048) :
    Hblk V c t (ix2 k j) = Hm V c (ix2 ⟨2176 * t.val + k.val, hk⟩ j) := by
  obtain ⟨-, -, e0, e1⟩ := idx_facts01 t
  unfold Hblk iblk2
  rw [View.read_apply]
  show V c main_v80 _ = V c main_v80 _
  congr 1
  funext a
  apply Fin.ext
  match a with
  | ⟨0, _⟩ => show win2_1.index t 0 * 2176 + 1 * k.val = 2176 * t.val + k.val; rw [e0]; omega
  | ⟨1, _⟩ => show win2_1.index t 1 * 128 + 1 * j.val = j.val; rw [e1]; omega

/-- What point n adds to entry (g, j) of the accumulator: the plain sum over the point's 2176 columns. -/
def colBlock (c : Dev nD) (g : Fin 64) (j : Fin 128) (n : ℕ) : EReal :=
  if h : n < 23 then
    ∑ k : Fin 2176, Pm V c (ix2 g ⟨2176 * n + k.val, Cert.BlockSum.block_lt (B := 23) ⟨n, h⟩ k⟩)
      * Hm V c (ix2 ⟨2176 * n + k.val, Cert.BlockSum.block_lt (B := 23) ⟨n, h⟩ k⟩ j)
  else 0

/-- One point's product of blocks at an entry is that point's share of the sum. -/
theorem step_eq (c : Dev nD) (g : Fin 64) (j : Fin 128) (n : ℕ) (hn : n < cfg2.N) :
    ∑ k : Fin 2176, Pblk V c ⟨n, hn⟩ (ix2 g k) * Hblk V c ⟨n, hn⟩ (ix2 k j) = colBlock V c g j n := by
  have h23 : n < 23 := by have hN : cfg2.N = 23 := N_2; omega
  unfold colBlock
  rw [dif_pos h23]
  refine Finset.sum_congr rfl fun k _ => ?_
  rw [blk0_apply V c ⟨n, hn⟩ g k (Cert.BlockSum.block_lt (B := 23) ⟨n, h23⟩ k),
    blk1_apply V c ⟨n, hn⟩ k j (Cert.BlockSum.block_lt (B := 23) ⟨n, h23⟩ k)]

/-- The accumulator after point n, at an entry: the shares of the points up to n. -/
theorem acc_partial (c : Dev nD) (g : Fin 64) (j : Fin 128) : ∀ (n : ℕ) (hn : n < cfg2.N),
    accAt2 (F := Ideal) V c n hn (ix2 g j) = ∑ i ∈ Finset.range (n + 1), colBlock V c g j i
  | 0, hn => by
    rw [accAt2_zero]
    refine (pay2_apply (k2_pay1 (F := Ideal)) (Pblk V c ⟨0, hn⟩) (Hblk V c ⟨0, hn⟩) g j).trans ?_
    rw [pay1_apply, zero_add, Finset.sum_range_one]
    exact step_eq V c g j 0 hn
  | n + 1, hn => by
    rw [accAt2_succ]
    refine (pay2_apply (accAt2 (F := Ideal) V c n (Nat.lt_of_succ_lt hn)) (Pblk V c ⟨n + 1, hn⟩) (Hblk V c ⟨n + 1, hn⟩) g j).trans ?_
    rw [acc_partial c g j n (Nat.lt_of_succ_lt hn), Finset.sum_range_succ _ (n + 1)]
    exact congrArg (fun z => (∑ i ∈ Finset.range (n + 1), colBlock V c g j i) + z) (step_eq V c g j (n + 1) hn)

/-- The accumulator after the last point, at an entry: the plain sum over all 50048 columns, 23 blocks of 2176. -/
theorem acc_apply (c : Dev nD) (g : Fin 64) (j : Fin 128) :
    accAt2 (F := Ideal) V c 22 h22 (ix2 g j) = ∑ n : Fin 50048, Pm V c (ix2 g n) * Hm V c (ix2 n j) := by
  rw [acc_partial V c g j 22 h22, Finset.sum_range (fun i => colBlock V c g j i)]
  refine Eq.trans ?_ (Cert.BlockSum.sum_blocks (M := EReal) 23 2176 fun n : Fin (23 * 2176) => Pm V c (ix2 g n) * Hm V c (ix2 n j))
  refine Finset.sum_congr rfl fun b _ => ?_
  unfold colBlock
  rw [dif_pos b.isLt]

end Cert.KernelIdeal.Val

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.LibCells.lean ====
/-
  Host scatters and gathers whose every update (or result) element is ONE scalar placed by index words, read at an
  index; and two columns of words joined side by side, read at an index.

    • A table of `N` entries and an `M × 1` column of index words, one scalar update per word: the accumulating scatter
      leaves at entry `u` its old value plus the sum of the updates whose word, read signed, is `u` (an update whose
      word names no entry is dropped).
    • A table of `N` rows and `C` columns and an `M × 2` array of index words (row word, column word), one scalar update
      per pair: the accumulating scatter leaves at cell `(u, v)` its old value plus the sum of the updates whose two
      words, read signed, are `u` and `v`.
    • The gather by such an `M × 2` array reads, at `e`, the table at the two words of `e`, each read signed and clamped
      into the table.
    • Two `M × 1` columns joined along the second axis: entry `(e, 0)` is the first column's, `(e, 1)` the second's.
  Nothing here depends on the sizes.
-/
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

/-! ## Where an update lands, for any dimension numbers -/

/-- An update index lands on element `i` exactly when, on every operand axis, its start plus its window coordinate is
    `i`'s coordinate: the sum is then inside the operand because `i` is, and the landing index is read off it. -/
theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

/-- A sum over the rank-one indices below `M` that satisfy `p` is the sum over the positions `e < M` whose index
    `ix1 e` satisfies it: an index of rank one is its one coordinate. -/
theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  -- an index satisfies `p` exactly when its coordinate satisfies `q`
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

/-! ## One word per update: a table of entries -/

section Scatter1

variable {N M w : Nat}

/-- With the table's one axis inserted and named by the one word of a row: the start of update `jj` is the word of row
    `jj`, read signed, and its window coordinate is zero. -/
theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

/-- Update `jj` lands on entry `i` exactly when its word, read signed, is `i`'s position. -/
theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

/-- The accumulating scatter of scalars into a table of `N` entries by an `M × 1` column of words. -/
theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

/-! ## Two words per update: a table of cells -/

section Scatter2

variable {N C M w : Nat}

/-- With both of the table's axes inserted, the row axis named by a pair's first word and the column axis by its
    second: the starts of update `jj` are the two words of row `jj`, read signed, and both window coordinates are
    zero. -/
theorem start_window2 (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) :
    d.start jj idx 0 = (idx (ix2 (n0 := M) (n1 := 2) (jj 0) 0)).toInt
      ∧ d.start jj idx 1 = (idx (ix2 (n0 := M) (n1 := 2) (jj 0) 1)).toInt
      ∧ d.window jj 0 = 0 ∧ d.window jj 1 = 0 := by
  cases d with
  | mk uw iw sd iv wf =>
    obtain rfl : uw = [] := huw
    obtain rfl : iw = [0, 1] := hiw
    obtain rfl : sd = [0, 1] := hsd
    obtain rfl : iv = 1 := hivd
    refine ⟨?_, ?_, ?_, ?_⟩
    · unfold ScatterDims.start
      rw [dif_pos (by decide : (0 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.start
      rw [dif_pos (by decide : (1 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 2) ∉ (List.finRange 2).filter (· ∉ [(0 : Fin 2), 1]))
    · unfold ScatterDims.window
      exact dif_neg (by decide : (1 : Fin 2) ∉ (List.finRange 2).filter (· ∉ [(0 : Fin 2), 1]))

/-- Update `jj` lands on cell `i` exactly when its two words, read signed, are `i`'s row and column. -/
theorem lands2_iff (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) (i : (⟨2, ![N, C]⟩ : Shape).Idx) :
    d.resultIdx? jj idx = some i
      ↔ (idx (ix2 (n0 := M) (n1 := 2) (jj 0) 0)).toInt = ((i 0).val : ℤ)
        ∧ (idx (ix2 (n0 := M) (n1 := 2) (jj 0) 1)).toInt = ((i 1).val : ℤ) := by
  obtain ⟨hs0, hs1, hw0, hw1⟩ := start_window2 d huw hiw hsd hivd idx jj
  rw [resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

end Scatter2

/-- The accumulating scatter of scalars into a table of `N × C` cells by an `M × 2` array of (row, column) words. -/
theorem scatterAdd2_apply {N C M w : Nat} {φ : FTy} (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![N, C]⟩ φ) (idx : IVec ⟨2, ![M, 2]⟩ w) (upd : FVec Ideal ⟨1, ![M]⟩ φ) (u : Fin N) (v : Fin C) :
    Host.scatterAdd (F := Ideal) d x idx upd (ix2 u v)
      = x (ix2 u v) + ∑ e ∈ Finset.univ.filter (fun e : Fin M =>
            (idx (ix2 e (0 : Fin 2))).toInt = (u.val : ℤ) ∧ (idx (ix2 e (1 : Fin 2))).toInt = (v.val : ℤ)),
          upd (ix1 e) := by
  show Ideal.hostScatterAdd d x idx upd (ix2 u v) = _
  unfold Ideal.hostScatterAdd
  refine congrArg (x (ix2 u v) + ·) ?_
  exact sum_filter_ix1 _ _ (fun e => lands2_iff d huw hiw hsd hivd idx (ix1 e) (ix2 u v)) upd

/-! ## The gather by two words -/

/-- The gather of scalars from a table of `N × C` cells by an `M × 2` array of (row, column) words: each word read
    signed and clamped into the table. -/
theorem gather2_apply {α : Type} {N C M w : Nat} (d : GatherDims ⟨2, ![N, C]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N, C]⟩ : Shape).Idx → α) (idx : IVec ⟨2, ![M, 2]⟩ w) (e : Fin M) (hN : 0 < N) (hC : 0 < C) :
    Host.gather d x idx (ix1 e)
      = x (ix2 ⟨min (idx (ix2 e (0 : Fin 2))).toInt.toNat (N - 1), by omega⟩
               ⟨min (idx (ix2 e (1 : Fin 2))).toInt.toNat (C - 1), by omega⟩) := by
  -- both axes are collapsed, so the slice taken along each is one element
  have hsl0 : d.sliceSizes 0 = 1 := d.slice_collapsed 0 (by rw [hcoll]; exact List.mem_cons.mpr (Or.inl rfl))
  have hsl1 : d.sliceSizes 1 = 1 :=
    d.slice_collapsed 1 (by rw [hcoll]; exact List.mem_cons.mpr (Or.inr (List.mem_singleton.mpr rfl)))
  unfold Host.gather
  refine congrArg x ?_
  cases d with
  | mk od cd ob sb sm iv ss wf =>
    obtain rfl : od = [] := hoff
    obtain rfl : cd = [0, 1] := hcoll
    obtain rfl : ob = [] := hob
    obtain rfl : sm = [0, 1] := hsim
    obtain rfl : iv = 1 := hivd
    replace hsl0 : ss 0 = 1 := hsl0
    replace hsl1 : ss 1 = 1 := hsl1
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 2))).toInt.toNat (N - 1)
      rw [GatherDims.batchCoord_eq_zero _ _ _ List.not_mem_nil,
        GatherDims.offCoord_eq_zero _ _ _
          (by decide : (0 : Fin 2) ∉ (List.finRange 2).filter (· ∉ [(0 : Fin 2), 1] ++ []))]
      simp only [Nat.add_zero]
      unfold GatherDims.start
      rw [dif_pos (by decide : (0 : Fin 2) ∈ [(0 : Fin 2), 1])]
      show min (idx _).toInt.toNat (N - ss 0) = _
      rw [hsl0]
      refine congrArg (fun k => min (idx k).toInt.toNat (N - 1)) (funext fun b => ?_)
      match b with
      | ⟨0, _⟩ => exact Fin.ext rfl
      | ⟨1, _⟩ => exact Fin.ext rfl
    | ⟨1, _⟩ =>
      apply Fin.ext
      show GatherDims.start _ (ix1 e) idx 1 + GatherDims.batchCoord _ (ix1 e) 1 + GatherDims.offCoord _ (ix1 e) 1
        = min (idx (ix2 e (1 : Fin 2))).toInt.toNat (C - 1)
      rw [GatherDims.batchCoord_eq_zero _ _ _ List.not_mem_nil,
        GatherDims.offCoord_eq_zero _ _ _
          (by decide : (1 : Fin 2) ∉ (List.finRange 2).filter (· ∉ [(0 : Fin 2), 1] ++ []))]
      simp only [Nat.add_zero]
      unfold GatherDims.start
      rw [dif_pos (by decide : (1 : Fin 2) ∈ [(0 : Fin 2), 1])]
      show min (idx _).toInt.toNat (C - ss 1) = _
      rw [hsl1]
      refine congrArg (fun k => min (idx k).toInt.toNat (C - 1)) (funext fun b => ?_)
      match b with
      | ⟨0, _⟩ => exact Fin.ext rfl
      | ⟨1, _⟩ => exact Fin.ext rfl

/-! ## Two columns side by side -/

/-- Two `M × 1` columns joined along the second axis, at the first column. -/
theorem concat_cols_apply0 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) := by
  -- position 0 along the joined axis is below the first column's extent 1: the first column, same coordinates
  refine concatenate_pair_apply_left 1 a b h (ix2 e (0 : Fin 2)) rfl (ix2 e (0 : Fin 1)) ?_
  intro c
  match c with
  | ⟨0, _⟩ => rfl
  | ⟨1, _⟩ => rfl

/-- Two `M × 1` columns joined along the second axis, at the second column. -/
theorem concat_cols_apply1 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) := by
  -- position 1 along the joined axis is past the first column's extent 1: the second column at 1 − 1 = 0
  refine concatenate_pair_apply_right 1 a b h (ix2 e (1 : Fin 2)) rfl rfl (ix2 e (0 : Fin 1)) ?_ ?_
  · intro c hc
    match c with
    | ⟨0, _⟩ => rfl
    | ⟨1, _⟩ => exact absurd rfl hc
  · rfl

end Cert.LibCells

end
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.Val.RefTail.lean ====
/- The end of the reference program, read at an index, at the exact-real values.

   From the node features H (50000 rows of 128 columns) and the graph word of each node the reference forms, for each
   of the 64 graphs g: the sum of the rows of H whose node's word, read as a signed integer, is g (a scatter that adds
   into a table of zeros); the number of those nodes (the same scatter with every update equal to one); the mean row, the
   sum divided column by column by the larger of that number and one; the inner product of the mean row with the weight
   column, plus the bias; and the logistic function of that, written 1 / (1 + exp (-z)). Every step reads one element
   of each operand (the two scatters: the zero it starts from plus a sum over the nodes whose word is g; the inner product: a
   sum over the 128 columns), so the result at graph g is a closed expression in H, the words, the weight column and
   the bias. -/
import proofs.«429642_j9543417332444_1_alg».proof.Proof.RefRead
import proofs.«429642_j9543417332444_1_alg».proof.Proof.LibScatterGather2
import proofs.«429642_j9543417332444_1_alg».proof.Proof.LibCells
import proofs.«429642_j9543417332444_1_alg».proof.Proof.LibIdealReal
import Idealize.ShloMosaic.Lib.Pipeline.Value
import Idealize.ShloMosaic.Lib.ValueIdx
import Idealize.ShloMosaic.PureOps.Ideal.Laws
import Mathlib.Data.EReal.Basic
import Mathlib.Algebra.BigOperators.Group.Finset.Basic

noncomputable section

namespace Cert.ReferenceIdeal.RefVal

open Cert.ReferenceIdeal Cert.ReferenceIdeal.Gen Cert.ReferenceIdeal.PRead Idealize.ShloMosaic Idealize.ShloMosaic.ValueIdx
open scoped BigOperators

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x1, .f32⟩ : BufTy).Contents (Elt Ideal))
  (x8 : (⟨S1, .f32⟩ : BufTy).Contents (Elt Ideal))

/-! ## The column of graph words -/

/-- The words as a 50000 × 1 column (the one the sums are scattered by): row e holds node e's word. -/
theorem col96_apply (e : Fin 50000) : val_main_v96 (F := Ideal) x2 (ix2 e (0 : Fin 1)) = x2 (ix1 e) := by
  rw [val_main_v96_apply]
  refine congrArg x2 (funext fun a => ?_)
  match a with
  | ⟨0, _⟩ => exact Fin.ext rfl

/-- The same column built a second time (the one the counts are scattered by). -/
theorem col100_apply (e : Fin 50000) : val_main_v100 (F := Ideal) x2 (ix2 e (0 : Fin 1)) = x2 (ix1 e) := by
  rw [val_main_v100_apply]
  refine congrArg x2 (funext fun a => ?_)
  match a with
  | ⟨0, _⟩ => exact Fin.ext rfl

/-! ## The two scatters -/

/-- The per-graph sums: entry (g, j) is the sum of column j of the feature rows whose node's word is g. The table the
    scatter adds into is zero everywhere. -/
theorem sums_apply (g : Fin 64) (j : Fin 128) :
    val_main_v97 (F := Ideal) x0 x1 x2 x3 x4 x5 x6 (ix2 g j)
      = ∑ n ∈ Finset.univ.filter (fun n : Fin 50000 => (x2 (ix1 n)).toInt = (g.val : ℤ)),
          val_main_v94 (F := Ideal) x0 x1 x3 x4 x5 x6 (ix2 n j) := by
  unfold val_main_v97
  generalize val_main_v94 (F := Ideal) x0 x1 x3 x4 x5 x6 = H
  rw [Cert.LibScatterGather2.scatterAdd_apply (N := 64) (C := 128) (M := 50000) (w := 32) (φ := .f32)
    scatter_S64x128_S50000x1_S50000x128_1_0_0_1 rfl rfl rfl rfl]
  rw [val_main_v95_apply, val_main_cst_20_apply]
  simp only [col96_apply]
  show Ideal.ofBits .f32 0x00000000#32 + _ = _
  rw [Cert.LibIdealReal.ofBits_zero, zero_add]

/-- The per-graph counts: entry g is one added up over the nodes whose word is g. -/
theorem counts_apply (g : Fin 64) :
    val_main_v101 (F := Ideal) x2 (ix1 g)
      = ∑ n ∈ Finset.univ.filter (fun n : Fin 50000 => (x2 (ix1 n)).toInt = (g.val : ℤ)), (1 : EReal) := by
  unfold val_main_v101
  rw [Cert.LibCells.scatterAdd1_apply (N := 64) (M := 50000) (w := 32) (φ := .f32)
    scatter_S64_S50000x1_S50000_n_0_0_1 rfl rfl rfl rfl]
  rw [val_main_v99_apply, val_main_cst_22_apply]
  simp only [col100_apply, val_main_v98_apply, val_main_cst_21_apply]
  show Ideal.ofBits .f32 0x00000000#32 + ∑ n ∈ _, Ideal.ofBits .f32 0x3F800000#32 = _
  rw [Cert.LibIdealReal.ofBits_zero, zero_add, Cert.LibIdealReal.ofBits_one]

/-! ## The mean row -/

/-- The divisor, spread over the 64 × 128 table: at (g, j) the larger of graph g's count and one. -/
theorem den_apply (g : Fin 64) (j : Fin 128) :
    val_main_v105 (F := Ideal) x2 (ix2 g j)
      = max (∑ n ∈ Finset.univ.filter (fun n : Fin 50000 => (x2 (ix1 n)).toInt = (g.val : ℤ)), (1 : EReal)) 1 := by
  rw [val_main_v105_apply, val_main_v104_apply, val_main_v103_apply]
  have e1 : idx_main_v104 (idx_main_v105 (ix2 g j)) = ix1 g := funext fun a => by
    match a with
    | ⟨0, _⟩ => exact Fin.ext rfl
  rw [e1, counts_apply, val_main_v102_apply, val_main_cst_23_apply]
  show max _ (Ideal.ofBits .f32 0x3F800000#32) = _
  rw [Cert.LibIdealReal.ofBits_one]

/-- The mean row of graph g at column j: the sum over the count, the count taken as at least one. -/
theorem mean_apply (g : Fin 64) (j : Fin 128) :
    val_main_v106 (F := Ideal) x0 x1 x2 x3 x4 x5 x6 (ix2 g j)
      = Ideal.div (∑ n ∈ Finset.univ.filter (fun n : Fin 50000 => (x2 (ix1 n)).toInt = (g.val : ℤ)),
            val_main_v94 (F := Ideal) x0 x1 x3 x4 x5 x6 (ix2 n j))
          (max (∑ n ∈ Finset.univ.filter (fun n : Fin 50000 => (x2 (ix1 n)).toInt = (g.val : ℤ)), (1 : EReal)) 1) := by
  rw [val_main_v106_apply, sums_apply, den_apply]
  rfl

/-! ## The inner product, the bias and the logistic function -/

/-- The inner product of graph g's mean row with the weight column. -/
theorem lin_apply (g : Fin 64) :
    val_main_v107 (F := Ideal) x0 x1 x2 x3 x4 x5 x6 x7 (ix2 g (0 : Fin 1))
      = ∑ j : Fin 128, val_main_v106 (F := Ideal) x0 x1 x2 x3 x4 x5 x6 (ix2 g j) * x7 (ix2 j (0 : Fin 1)) := by
  rw [val_main_v107_apply]
  refine Finset.sum_congr rfl fun k _ => ?_
  have el : lidx_main_v107 (ix2 g (0 : Fin 1)) k = ix2 g k := funext fun a => by
    match a with
    | ⟨0, _⟩ => exact Fin.ext rfl
    | ⟨1, _⟩ => exact Fin.ext rfl
  have er : ridx_main_v107 (ix2 g (0 : Fin 1)) k = ix2 k (0 : Fin 1) := funext fun a => by
    match a with
    | ⟨0, _⟩ => exact Fin.ext rfl
    | ⟨1, _⟩ => exact Fin.ext rfl
  rw [el, er]

/-- The bias, spread over the 64 × 1 column: the one entry of the bias array at every graph. -/
theorem bias_apply (g : Fin 64) : val_main_v109 (F := Ideal) x8 (ix2 g (0 : Fin 1)) = x8 (ix1 (0 : Fin 1)) := by
  rw [val_main_v109_apply, val_main_v108_apply]
  refine congrArg x8 (funext fun a => ?_)
  match a with
  | ⟨0, _⟩ => exact Fin.ext rfl

/-- The reference's result at graph g: the logistic function, written 1 / (1 + exp (-z)), of the inner product of the
    graph's mean feature row with the weight column plus the bias. -/
theorem ref_apply (g : Fin 64) :
    val_main_v116 (F := Ideal) x0 x1 x2 x3 x4 x5 x6 x7 x8 (ix2 g (0 : Fin 1))
      = Ideal.div 1 (1 + Ideal.exp (-((∑ j : Fin 128,
          Ideal.div (∑ n ∈ Finset.univ.filter (fun n : Fin 50000 => (x2 (ix1 n)).toInt = (g.val : ℤ)),
              val_main_v94 (F := Ideal) x0 x1 x3 x4 x5 x6 (ix2 n j))
            (max (∑ n ∈ Finset.univ.filter (fun n : Fin 50000 => (x2 (ix1 n)).toInt = (g.val : ℤ)), (1 : EReal)) 1)
            * x7 (ix2 j (0 : Fin 1))) + x8 (ix1 (0 : Fin 1))))) := by
  rw [val_main_v116_apply, val_main_v115_apply, val_main_cst_25_apply, val_main_v114_apply, val_main_v113_apply,
    val_main_cst_24_apply, val_main_v112_apply, val_main_v111_apply, val_main_v110_apply, lin_apply, bias_apply]
  simp only [mean_apply]
  generalize val_main_v94 (F := Ideal) x0 x1 x3 x4 x5 x6 = H
  simp only [Ideal.hostDivf_def, Ideal.addf_def, Ideal.hostNegf_def, Ideal.negf_def, Ideal.hostUnary_exp_def,
    Ideal.ofBits_def, Cert.LibIdealReal.ofBits_one]

end Cert.ReferenceIdeal.RefVal

end
-- ==== Proof.Val.PoolAlg.lean ====
/- The algebra that joins the two poolings, over the extended reals.
   A sum weighted by a membership indicator is the sum over the members; the members of graph g are the nodes whose
   32-bit graph word, read as a signed integer, is g (for g below 64 that is the word being g itself); a sum of ones
   over a finite set is its cardinality, a real number; and multiplying by the reciprocal of a real c ≥ 1 is dividing
   by c, for every extended real (no finiteness needed: c is a nonzero real). -/
import Idealize.ShloMosaic.PureOps.Ideal
import proofs.«429642_j9543417332444_1_alg».proof.Proof.LibIdealReal
import Mathlib.Algebra.BigOperators.Group.Finset.Basic
import Mathlib.Data.EReal.Basic
import Mathlib.Data.EReal.Operations

noncomputable section

namespace Cert.PoolAlg

open Idealize.ShloMosaic
open scoped BigOperators

/-- A 32-bit word read signed is the small number g exactly when it is the word g. -/
theorem word_eq_iff (b : BitVec 32) (g : ℕ) (hg : g < 64) : b.toInt = (g : ℤ) ↔ b = BitVec.ofNat 32 g := by
  have hto : (BitVec.ofNat 32 g).toInt = (g : ℤ) := by
    have hn : (BitVec.ofNat 32 g).toNat = g := by rw [BitVec.toNat_ofNat]; omega
    rw [BitVec.toInt_eq_toNat_cond, hn, if_pos (by omega)]
  constructor
  · intro h
    apply BitVec.eq_of_toInt_eq
    rw [h, hto]
  · rintro rfl
    exact hto

/-- A sum weighted by the indicator of "the word is g" is the sum over the nodes whose word, read signed, is g. -/
theorem onehot_sum {N : ℕ} (b : Fin N → BitVec 32) (H : Fin N → EReal) (g : Fin 64) :
    ∑ n : Fin N, (if b n = BitVec.ofNat 32 g.val then (1 : EReal) else 0) * H n
      = ∑ n ∈ Finset.univ.filter (fun n : Fin N => (b n).toInt = (g.val : ℤ)), H n := by
  rw [Finset.sum_filter]
  refine Finset.sum_congr rfl fun n _ => ?_
  by_cases h : b n = BitVec.ofNat 32 g.val
  · rw [if_pos h, if_pos ((word_eq_iff (b n) g.val g.isLt).mpr h), one_mul]
  · rw [if_neg h, if_neg (fun h' => h ((word_eq_iff (b n) g.val g.isLt).mp h')), zero_mul]

/-- The indicator summed is the number of members, as a sum of ones. -/
theorem onehot_count {N : ℕ} (b : Fin N → BitVec 32) (g : Fin 64) :
    ∑ n : Fin N, (if b n = BitVec.ofNat 32 g.val then (1 : EReal) else 0)
      = ∑ n ∈ Finset.univ.filter (fun n : Fin N => (b n).toInt = (g.val : ℤ)), (1 : EReal) := by
  have h := onehot_sum b (fun _ => (1 : EReal)) g
  simpa only [mul_one] using h

/-- A sum of ones over a finite set is its cardinality. -/
theorem sum_ones {ι : Type*} (s : Finset ι) : ∑ _n ∈ s, (1 : EReal) = ((s.card : ℝ) : EReal) := by
  classical
  induction s using Finset.induction_on with
  | empty => simp
  | insert a s ha ih =>
    rw [Finset.sum_insert ha, ih, Finset.card_insert_of_notMem ha]
    rw [show (1 : EReal) = ((1 : ℝ) : EReal) from rfl, ← EReal.coe_add]
    congr 1
    push_cast
    ring

/-- Scaling by one over a count clamped below by one is dividing by it. -/
theorem scale_eq (a : EReal) (k : ℕ) :
    a * Ideal.div 1 (max ((k : ℝ) : EReal) 1) = Ideal.div a (max ((k : ℝ) : EReal) 1) := by
  have hmax : max ((k : ℝ) : EReal) 1 = ((max (k : ℝ) 1 : ℝ) : EReal) := by
    rw [show (1 : EReal) = ((1 : ℝ) : EReal) from rfl]; exact Cert.LibIdealReal.max_coe _ _
  have hne : (max (k : ℝ) 1 : ℝ) ≠ 0 := by
    have : (1 : ℝ) ≤ max (k : ℝ) 1 := le_max_right _ _
    intro h; rw [h] at this; linarith
  rw [hmax, Ideal.div_coe hne, Ideal.div_coe hne, one_mul]

end Cert.PoolAlg

end
-- ==== Proof.Val.OneHot.lean ====
/- The kernel program's own host operations around the pooling region, as functions of what they read: the 64 × 50000
   membership matrix (entry (g, n) is one when node n's graph word is g and zero otherwise), its row sums (the node
   count of each graph), the reciprocal of the count clamped below by one, and the two zero paddings to 50048 nodes. -/
import proofs.«429642_j9543417332444_1_alg».proof.KernelIdeal

noncomputable section

namespace Cert.KernelIdeal.Val

open Cert.KernelIdeal Idealize.ShloMosaic Idealize.SL.Sem
open Facts₀ Facts

variable {F : FTy → Type} [FloatOps F] [Facts]

/-- The membership matrix: node n's graph word compared with each of the 64 graph numbers, as a float. -/
def onehot (x2 : (⟨S50000, .i32⟩ : BufTy).Contents (Elt F)) : (⟨S64x50000, .f32⟩ : BufTy).Contents (Elt F) :=
  uitofp (F := F) .f32
    (cmpi .eq
      (broadcastInDim S64x50000 ![0, 1] bcast_S1x50000_S64x50000_0_1 (broadcastInDim S1x50000 ![1] bcast_S50000_S1x50000_1 x2))
      (broadcastInDim S64x50000 ![0, 1] bcast_S64x1_S64x50000_0_1 (broadcastInDim S64x1 ![0] bcast_S64_S64x1_0 (iotaInDim S64 32 0))))

/-- The node count of each graph: the membership matrix summed along the nodes, from zero. -/
def countK (x2 : (⟨S50000, .i32⟩ : BufTy).Contents (Elt F)) : (⟨S64, .f32⟩ : BufTy).Contents (Elt F) :=
  Host.reduceAdd (onehot (F := F) x2) (constant (F := F) S_ .f32 0x00000000#32) reducesTo_S64x50000_S64_d1 h_S_

/-- One over the count clamped below by one, as a 64 × 1 column. -/
def invK (x2 : (⟨S50000, .i32⟩ : BufTy).Contents (Elt F)) : (⟨S64x1, .f32⟩ : BufTy).Contents (Elt F) :=
  Host.divf (broadcastInDim S64x1 ![] bcast_S_S64x1 (constant (F := F) S_ .f32 0x3F800000#32))
    (maximumf (broadcastInDim S64x1 ![0] bcast_S64_S64x1_0 (countK (F := F) x2))
      (broadcastInDim S64x1 ![] bcast_S_S64x1 (constant (F := F) S_ .f32 0x3F800000#32)))

/-- The membership matrix padded with 48 zero columns. -/
def padP (x2 : (⟨S50000, .i32⟩ : BufTy).Contents (Elt F)) : (⟨S64x50048, .f32⟩ : BufTy).Contents (Elt F) :=
  pad S64x50048 ![0, 0] ![0, 48] ![0, 0] (onehot (F := F) x2) (sitofp (F := F) .f32 (constantI S_ 32 0#32)) pads_S64x50000_S64x50048_000_0480 h_S_

/-- The node features padded with 48 zero rows. -/
def padH (H : (⟨S50000x128, .f32⟩ : BufTy).Contents (Elt F)) : (⟨S50048x128, .f32⟩ : BufTy).Contents (Elt F) :=
  pad S50048x128 ![0, 0] ![48, 0] ![0, 0] H (sitofp (F := F) .f32 (constantI S_ 32 0#32)) pads_S50000x128_S50048x128_0480_000 h_S_

end Cert.KernelIdeal.Val

end
-- ==== Proof.Val.KernelTail.lean ====
/- The kernel program's host operations around its pooling region, read at an index over the exact reals: an entry of
   the membership matrix is one or zero as the node's graph word is the row's number or not; a graph's count is the sum
   of its row; the reciprocal column is one over the count clamped below by one; and the product of the two zero-padded
   operands, summed over the padded node axis, is the sum over the true nodes. -/
import proofs.«429642_j9543417332444_1_alg».proof.Proof.Val.OneHot
import proofs.«429642_j9543417332444_1_alg».proof.Proof.Gen.KernelIdeal
import proofs.«429642_j9543417332444_1_alg».proof.Proof.LibIdealReal
import Idealize.ShloMosaic.Lib.KernelVsHost
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Data.EReal.Basic

noncomputable section

namespace Cert.KernelIdeal.Val

open Cert.KernelIdeal Cert.KernelIdeal.Gen Idealize.ShloMosaic Idealize.ShloMosaic.ValueIdx
open scoped BigOperators

variable (x2 : (⟨S50000, .i32⟩ : BufTy).Contents (Elt Ideal)) (H : (⟨S50000x128, .f32⟩ : BufTy).Contents (Elt Ideal))

/-- The node words laid along the columns of the 64 × 50000 rectangle: entry (g, n) is node n's word. -/
theorem words_apply (h₁ : S1x50000.BroadcastsInDim S64x50000 (![0, 1] : Fin 2 → Fin S64x50000.rank))
    (h₂ : S50000.BroadcastsInDim S1x50000 (![1] : Fin 1 → Fin S1x50000.rank)) (g : Fin 64) (n : Fin 50000) :
    broadcastInDim S64x50000 ![0, 1] h₁ (broadcastInDim S1x50000 ![1] h₂ x2) (ix2 g n) = x2 (ix1 n) := by
  refine (broadcastInDim_apply _ _ _ (ix2 g n) (ix2 (0 : Fin 1) n) (fun a => match a with
    | ⟨0, _⟩ => by show 0 = if (1 : Nat) = 1 then 0 else g.val; rw [if_pos rfl]
    | ⟨1, _⟩ => by show n.val = if (50000 : Nat) = 1 then 0 else n.val; rw [if_neg (by decide)])).trans ?_
  exact broadcastInDim_apply _ _ x2 (ix2 (0 : Fin 1) n) (ix1 n) (fun a => match a with
    | ⟨0, _⟩ => by show n.val = if (50000 : Nat) = 1 then 0 else n.val; rw [if_neg (by decide)])

/-- The graph numbers 0 … 63 laid along the rows: entry (g, n) is the word of g. -/
theorem numbers_apply (h₁ : S64x1.BroadcastsInDim S64x50000 (![0, 1] : Fin 2 → Fin S64x50000.rank))
    (h₂ : S64.BroadcastsInDim S64x1 (![0] : Fin 1 → Fin S64x1.rank)) (g : Fin 64) (n : Fin 50000) :
    broadcastInDim S64x50000 ![0, 1] h₁ (broadcastInDim S64x1 ![0] h₂ (iotaInDim S64 32 0)) (ix2 g n)
      = BitVec.ofNat 32 g.val := by
  refine (broadcastInDim_apply _ _ _ (ix2 g n) (ix2 g (0 : Fin 1)) (fun a => match a with
    | ⟨0, _⟩ => by show g.val = if (64 : Nat) = 1 then 0 else g.val; rw [if_neg (by decide)]
    | ⟨1, _⟩ => by show 0 = if (1 : Nat) = 1 then 0 else n.val; rw [if_pos rfl])).trans ?_
  refine (broadcastInDim_apply _ _ _ (ix2 g (0 : Fin 1)) (ix1 g) (fun a => match a with
    | ⟨0, _⟩ => by show g.val = if (64 : Nat) = 1 then 0 else g.val; rw [if_neg (by decide)])).trans ?_
  rfl

/-- The equality comparison of two words is the bit one exactly when the words are equal. -/
theorem cmpi_eq_one_iff {w : Nat} (a b : BitVec w) : IntOp.cmpi .eq a b = 1#1 ↔ a = b := by
  unfold IntOp.cmpi
  by_cases h : a = b
  · subst h; simp
  · have hb : (a == b) = false := beq_eq_false_iff_ne.mpr h
    simp [hb, h]

/-- An entry of the membership matrix: one when node n's word is the number g, zero otherwise. -/
theorem onehot_apply (g : Fin 64) (n : Fin 50000) :
    onehot (F := Ideal) x2 (ix2 g n) = if x2 (ix1 n) = BitVec.ofNat 32 g.val then (1 : EReal) else 0 := by
  show FloatOps.uitofp (F := Ideal) .f32 (IntOp.cmpi .eq _ _) = _
  rw [words_apply, numbers_apply, Cert.LibIdealReal.uitofp_bit]
  by_cases h : x2 (ix1 n) = BitVec.ofNat 32 g.val
  · rw [if_pos h, if_pos ((cmpi_eq_one_iff _ _).2 h), Cert.LibIdealReal.one_coe]
  · rw [if_neg h, if_neg (fun e => h ((cmpi_eq_one_iff _ _).1 e)), Cert.LibIdealReal.zero_coe]

/-- A graph's count: the sum of its row of the membership matrix. -/
theorem countK_apply (g : Fin 64) :
    countK (F := Ideal) x2 (ix1 g) = ∑ n : Fin 50000, onehot (F := Ideal) x2 (ix2 g n) := by
  have hR : S64x50000.Reduces [1] S64 := by decide
  have e := Ideal.hostReduceAdd_single (a := (1 : Fin 2)) Facts₀.reducesTo_S64x50000_S64_d1 hR
    (onehot (F := Ideal) x2) (Ideal.ofBits .f32 0x00000000#32) (ix1 g)
  show Ideal.hostReduceAdd _ (onehot (F := Ideal) x2) (Ideal.ofBits .f32 0x00000000#32) (ix1 g) = _
  rw [e, Cert.LibIdealReal.ofBits_zero, zero_add]
  refine Finset.sum_congr rfl (fun n _ => congrArg _ ?_)
  funext a
  match a with
  | ⟨0, _⟩ => rfl
  | ⟨1, _⟩ => rfl

/-- The constant one laid over the 64 × 1 column reads one everywhere. -/
theorem ones_apply (h : S_.BroadcastsInDim S64x1 (![] : Fin 0 → Fin S64x1.rank)) (g : Fin 64) :
    broadcastInDim S64x1 ![] h (constant (F := Ideal) S_ .f32 0x3F800000#32) (ix2 g (0 : Fin 1)) = 1 := by
  refine (broadcastInDim_apply _ _ _ (ix2 g (0 : Fin 1)) ix0 (fun a => a.elim0)).trans ?_
  exact Cert.LibIdealReal.ofBits_one

/-- A vector of 64 entries laid as a 64 × 1 column reads, at row g, its entry g. -/
theorem column_apply {α : Type} (h : S64.BroadcastsInDim S64x1 (![0] : Fin 1 → Fin S64x1.rank)) (v : S64.Idx → α) (g : Fin 64) :
    broadcastInDim S64x1 ![0] h v (ix2 g (0 : Fin 1)) = v (ix1 g) :=
  broadcastInDim_apply _ _ v (ix2 g (0 : Fin 1)) (ix1 g) (fun a => match a with
    | ⟨0, _⟩ => by show g.val = if (64 : Nat) = 1 then 0 else g.val; rw [if_neg (by decide)])

/-- The reciprocal column: one over the count clamped below by one. -/
theorem invK_apply (g : Fin 64) :
    invK (F := Ideal) x2 (ix2 g (0 : Fin 1)) = Ideal.div 1 (max (countK (F := Ideal) x2 (ix1 g)) 1) := by
  simp only [invK, Host.divf, maximumf, Ideal.hostDivf_def, Ideal.maximumf_def]
  rw [ones_apply, column_apply]

/-- The padding value of both paddings: the signed conversion of the zero word, which is zero. -/
theorem padValue_eq (hu : 0 < S_.numel) :
    sitofp (F := Ideal) .f32 (constantI S_ 32 0#32) (Shape.Idx.first hu) = 0 := by
  show FloatOps.sitofp (F := Ideal) .f32 (0#32) = 0
  rw [Cert.LibIdealReal.sitofp_of_toInt _ 0 (by decide)]
  simp

/-- An entry of the padded membership matrix: the matrix's entry at a true node, zero at a padding column. -/
theorem padP_apply (g : Fin 64) (n : Fin 50048) :
    padP (F := Ideal) x2 (ix2 g n) = if h : n.val < 50000 then onehot (F := Ideal) x2 (ix2 g ⟨n.val, h⟩) else 0 := by
  unfold padP
  by_cases h : n.val < 50000
  · rw [dif_pos h]
    exact pad_apply_of_inside _ _ _ _ _ _ _ (ix2 g n) (ix2 g (⟨n.val, h⟩ : Fin 50000)) (fun a => match a with
      | ⟨0, _⟩ => by show g.val = 0 + g.val * (0 + 1); omega
      | ⟨1, _⟩ => by show n.val = 0 + n.val * (0 + 1); omega)
  · rw [dif_neg h]
    refine (pad_apply_of_not_inside _ _ _ _ _ _ _ (ix2 g n) (1 : Fin 2) (fun hin => ?_)).trans (padValue_eq _)
    have h3 := hin.2.2
    change (n.val - 0) / (0 + 1) < 50000 at h3
    omega

/-- An entry of the padded node features: the features' entry at a true node, zero at a padding row. -/
theorem padH_apply (n : Fin 50048) (j : Fin 128) :
    padH (F := Ideal) H (ix2 n j) = if h : n.val < 50000 then H (ix2 ⟨n.val, h⟩ j) else 0 := by
  unfold padH
  by_cases h : n.val < 50000
  · rw [dif_pos h]
    exact pad_apply_of_inside _ _ _ _ _ _ _ (ix2 n j) (ix2 (⟨n.val, h⟩ : Fin 50000) j) (fun a => match a with
      | ⟨0, _⟩ => by show n.val = 0 + n.val * (0 + 1); omega
      | ⟨1, _⟩ => by show j.val = 0 + j.val * (0 + 1); omega)
  · rw [dif_neg h]
    refine (pad_apply_of_not_inside _ _ _ _ _ _ _ (ix2 n j) (0 : Fin 2) (fun hin => ?_)).trans (padValue_eq _)
    have h3 := hin.2.2
    change (n.val - 0) / (0 + 1) < 50000 at h3
    omega

/-- A sum over N positions of a family that is F on the first m positions and zero after them is the sum of F. -/
theorem sum_zero_padded {M : Type*} [AddCommMonoid M] {m N : ℕ} (hmN : m ≤ N) (F : Fin m → M) :
    ∑ n : Fin N, (if h : n.val < m then F ⟨n.val, h⟩ else 0) = ∑ n : Fin m, F n := by
  obtain ⟨k, rfl⟩ := Nat.exists_eq_add_of_le hmN
  rw [Fin.sum_univ_add]
  have h1 : ∀ i : Fin m, (if h : (Fin.castAdd k i).val < m then F ⟨(Fin.castAdd k i).val, h⟩ else 0) = F i := fun i => by
    rw [dif_pos (by simp)]; rfl
  have h2 : ∀ i : Fin k, (if h : (Fin.natAdd m i).val < m then F ⟨(Fin.natAdd m i).val, h⟩ else 0) = 0 := fun i => by
    rw [dif_neg (by simp)]
  rw [Finset.sum_congr rfl (fun i _ => h1 i), Finset.sum_congr rfl (fun i _ => h2 i), Finset.sum_const_zero, add_zero]

/-- The pooling contraction over the padded node axis is the contraction over the true nodes: the 48 padding terms
    are products of two zeros. -/
theorem pool_sum (g : Fin 64) (j : Fin 128) :
    ∑ n : Fin 50048, padP (F := Ideal) x2 (ix2 g n) * padH (F := Ideal) H (ix2 n j)
      = ∑ n : Fin 50000, onehot (F := Ideal) x2 (ix2 g n) * H (ix2 n j) := by
  rw [← sum_zero_padded (m := 50000) (N := 50048) (by decide) (fun n => onehot (F := Ideal) x2 (ix2 g n) * H (ix2 n j))]
  refine Finset.sum_congr rfl (fun n _ => ?_)
  rw [padP_apply, padH_apply]
  by_cases h : n.val < 50000
  · rw [dif_pos h, dif_pos h, dif_pos h]
  · rw [dif_neg h, dif_neg h, dif_neg h, mul_zero]

end Cert.KernelIdeal.Val

end
-- ==== Proof.Val.HostChain.lean ====
/- The host operations of the program around its three kernel regions, read as values.
   The program and the reference apply the same host operations around the matrix products: the degree of every
   node by a scatter-add of ones over the edge list with self loops, its inverse square root where positive, the
   two gathers of that normalisation at the edges' ends and their product, then per layer the gather of the
   transformed rows at the edges' sources, the scaling by the edge normalisation, the scatter-add at the edges'
   targets and the bias. The reference computes the edge normalisation once per layer, the program once in all;
   the two copies are the same function of the edge list. Given that each region's product array holds the
   reference's product, the program's layer outputs are the reference's. -/
import proofs.«429642_j9543417332444_1_alg».proof.Proof.KI.Fold
import proofs.«429642_j9543417332444_1_alg».proof.Proof.RefRead
import Idealize.ShloMosaic.Lib.StableHlo.Run
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.StableHlo

variable {F : FTy → Type} [FloatOps F]

/-! The steps towards the statements `arg0_at0`, `arg3_at0`, `arg5_at1`, `v47_eq` and `v64_eq` live in `Chain`. -/
namespace Chain

/-! ## What each stretch of host operations writes -/

/-- One operation's result reference is in the list. -/
local macro "writes_one" : tactic =>
  `(tactic| (simp only [StableHlo.nullary_writes, StableHlo.unary_writes, StableHlo.binary_writes, StableHlo.ternary_writes,
      StableHlo.reshape_writes, Finset.singleton_subset_iff, List.mem_toFinset]; exact List.mem_map_of_mem (by decide)))
/-- Every operation's result reference is in the list. -/
local macro "writes_all" : tactic =>
  `(tactic| (simp only [List.Forall]; (repeat' apply And.intro) <;> writes_one))

abbrev wr0 : List (Ref sig .tc) := [main_v0, main_v1, main_v2, main_v3, main_v4, main_v5, main_v6, main_cst, main_v7, main_cst_0, main_v8, main_v9, main_v10, main_cst_1, main_v11, main_v12, main_v13, main_cst_2]
theorem wr0_sub : (hostOps0 : List (HloOp τ sig (Elt F))).Forall fun op => op.writes ⊆ (wr0.map (Proc.devRef (τ := τ) .tc)).toFinset := by
  writes_all

abbrev wr0_1 : List (Ref sig .tc) := [main_call0_v0, main_call0_v1, main_v14]
abbrev wr0_2 : List (Ref sig .tc) := [main_c, main_v15, main_v16, main_c_3, main_v17, main_v18, main_v19, main_v20, main_v21, main_c_4, main_v22, main_v23, main_c_5, main_v24, main_v25, main_v26, main_v27, main_v28, main_v29]
abbrev wr1 : List (Ref sig .tc) := [main_c_6, main_v31, main_v32, main_c_7, main_v33, main_v34, main_v35, main_v36, main_v37, main_v38, main_v39, main_v40, main_cst_8, main_v41, main_v42, main_v43, main_v44, main_v45, main_v46]
abbrev wr1_1 : List (Ref sig .tc) := [main_call1_cst, main_call1_v0, main_v47]
abbrev wr2 : List (Ref sig .tc) := [main_c_9, main_v49, main_v50, main_c_10, main_v51, main_v52, main_v53, main_v54, main_v55, main_v56, main_v57, main_v58, main_cst_11, main_v59, main_v60, main_v61, main_v62, main_v63, main_v64, main_v65, main_v66, main_v67, main_v68, main_v69, main_v70, main_v71, main_cst_12, main_v72, main_v73, main_cst_13, main_v74, main_v75, main_cst_14, main_v76, main_v77, main_v78, main_c_15]
abbrev wr2_1 : List (Ref sig .tc) := [main_call2_v0, main_v79]
abbrev wr2_2 : List (Ref sig .tc) := [main_c_16]
abbrev wr2_3 : List (Ref sig .tc) := [main_call3_v0, main_v80]

theorem wr0_1_sub : (hostOps0_1 : List (HloOp τ sig (Elt F))).Forall fun op => op.writes ⊆ (wr0_1.map (Proc.devRef (τ := τ) .tc)).toFinset := by
  writes_all
theorem wr0_2_sub : (hostOps0_2 : List (HloOp τ sig (Elt F))).Forall fun op => op.writes ⊆ (wr0_2.map (Proc.devRef (τ := τ) .tc)).toFinset := by
  writes_all
theorem wr1_sub : (hostOps1 : List (HloOp τ sig (Elt F))).Forall fun op => op.writes ⊆ (wr1.map (Proc.devRef (τ := τ) .tc)).toFinset := by
  writes_all
theorem wr1_1_sub : (hostOps1_1 : List (HloOp τ sig (Elt F))).Forall fun op => op.writes ⊆ (wr1_1.map (Proc.devRef (τ := τ) .tc)).toFinset := by
  writes_all
theorem wr2_sub : (hostOps2 : List (HloOp τ sig (Elt F))).Forall fun op => op.writes ⊆ (wr2.map (Proc.devRef (τ := τ) .tc)).toFinset := by
  writes_all
theorem wr2_1_sub : (hostOps2_1 : List (HloOp τ sig (Elt F))).Forall fun op => op.writes ⊆ (wr2_1.map (Proc.devRef (τ := τ) .tc)).toFinset := by
  writes_all
theorem wr2_2_sub : (hostOps2_2 : List (HloOp τ sig (Elt F))).Forall fun op => op.writes ⊆ (wr2_2.map (Proc.devRef (τ := τ) .tc)).toFinset := by
  writes_all
theorem wr2_3_sub : (hostOps2_3 : List (HloOp τ sig (Elt F))).Forall fun op => op.writes ⊆ (wr2_3.map (Proc.devRef (τ := τ) .tc)).toFinset := by
  writes_all

/-! ## What each item leaves as it found it -/

variable (m : (ℓ : Loc nD τ sig) → Buf (Elt F) ℓ) (c : Dev nD)

theorem W1_of (r : Ref sig .tc) (h : r ∉ wr0) : W1 m c (Proc.devRef .tc r) = W0 m c (Proc.devRef .tc r) :=
  StableHlo.after_of_writes_sub hostOps0 _ wr0_sub h
theorem W2_of (r : Ref sig .tc) (h : r ∉ wr0_1) : W2 m c (Proc.devRef .tc r) = W1 m c (Proc.devRef .tc r) :=
  StableHlo.after_of_writes_sub hostOps0_1 _ wr0_1_sub h
theorem W3_of (r : Ref sig .tc) (h : r ∉ wr0_2) : W3 m c (Proc.devRef .tc r) = W2 m c (Proc.devRef .tc r) :=
  StableHlo.after_of_writes_sub hostOps0_2 _ wr0_2_sub h
theorem W5_of (r : Ref sig .tc) (h : r ∉ wr1) : W5 m c (Proc.devRef .tc r) = W4 m c (Proc.devRef .tc r) :=
  StableHlo.after_of_writes_sub hostOps1 _ wr1_sub h
theorem W6_of (r : Ref sig .tc) (h : r ∉ wr1_1) : W6 m c (Proc.devRef .tc r) = W5 m c (Proc.devRef .tc r) :=
  StableHlo.after_of_writes_sub hostOps1_1 _ wr1_1_sub h
theorem W8_of (r : Ref sig .tc) (h : r ∉ wr2) : W8 m c (Proc.devRef .tc r) = W7 m c (Proc.devRef .tc r) :=
  StableHlo.after_of_writes_sub hostOps2 _ wr2_sub h
theorem W9_of (r : Ref sig .tc) (h : r ∉ wr2_1) : W9 m c (Proc.devRef .tc r) = W8 m c (Proc.devRef .tc r) :=
  StableHlo.after_of_writes_sub hostOps2_1 _ wr2_1_sub h
theorem W10_of (r : Ref sig .tc) (h : r ∉ wr2_2) : W10 m c (Proc.devRef .tc r) = W9 m c (Proc.devRef .tc r) :=
  StableHlo.after_of_writes_sub hostOps2_2 _ wr2_2_sub h
theorem W11_of (r : Ref sig .tc) (h : r ∉ wr2_3) : W11 m c (Proc.devRef .tc r) = W10 m c (Proc.devRef .tc r) :=
  StableHlo.after_of_writes_sub hostOps2_3 _ wr2_3_sub h

/-- Through the three stretches before region 0. -/
theorem W3_of0 (r : Ref sig .tc) (h0 : r ∉ wr0) (h1 : r ∉ wr0_1) (h2 : r ∉ wr0_2) :
    W3 m c (Proc.devRef .tc r) = W0 m c (Proc.devRef .tc r) :=
  (W3_of m c r h2).trans <| (W2_of m c r h1).trans (W1_of m c r h0)
/-- Through region 0 and the two stretches before region 1. -/
theorem W6_of3 (r : Ref sig .tc) (h : ∀ w, Pipeline.arrRef spec0 w ≠ r) (h1 : r ∉ wr1) (h2 : r ∉ wr1_1) :
    W6 m c (Proc.devRef .tc r) = W3 m c (Proc.devRef .tc r) :=
  (W6_of m c r h2).trans <| (W5_of m c r h1).trans (W4_of_ne m c r h)
/-- Through region 1 and the four stretches before region 2. -/
theorem W11_of6 (r : Ref sig .tc) (h : ∀ w, Pipeline.arrRef spec1 w ≠ r) (h0 : r ∉ wr2) (h1 : r ∉ wr2_1) (h2 : r ∉ wr2_2) (h3 : r ∉ wr2_3) :
    W11 m c (Proc.devRef .tc r) = W6 m c (Proc.devRef .tc r) :=
  (W11_of m c r h3).trans <| (W10_of m c r h2).trans <| (W9_of m c r h1).trans <| (W8_of m c r h0).trans (W7_of_ne m c r h)

/-! ## No item before a region writes the arguments the region reads -/

theorem _root_.Cert.KernelIdeal.Val.arg0_at0 : VR0 m c main_arg0 = m ((c : Thread nD τ).loc main_arg0) :=
  W3_of0 m c main_arg0 (by decide) (by decide) (by decide)
theorem _root_.Cert.KernelIdeal.Val.arg3_at0 : VR0 m c main_arg3 = m ((c : Thread nD τ).loc main_arg3) :=
  W3_of0 m c main_arg3 (by decide) (by decide) (by decide)
theorem _root_.Cert.KernelIdeal.Val.arg5_at1 : VR1 m c main_arg5 = m ((c : Thread nD τ).loc main_arg5) :=
  (W6_of3 m c main_arg5 (by decide) (by decide) (by decide)).trans (W3_of0 m c main_arg5 (by decide) (by decide) (by decide))

/-! ## The arguments of the program as launched on core c -/

set_option quotPrecheck false
local notation "𝔵0" => (m ((c : Thread nD τ).loc main_arg0) : (⟨S50000x128, .f32⟩ : BufTy).Contents (Elt F))
local notation "𝔵1" => (m ((c : Thread nD τ).loc main_arg1) : (⟨S2x800000, .i32⟩ : BufTy).Contents (Elt F))
local notation "𝔵2" => (m ((c : Thread nD τ).loc main_arg2) : (⟨S50000, .i32⟩ : BufTy).Contents (Elt F))
local notation "𝔵3" => (m ((c : Thread nD τ).loc main_arg3) : (⟨S128x128, .f32⟩ : BufTy).Contents (Elt F))
local notation "𝔵4" => (m ((c : Thread nD τ).loc main_arg4) : (⟨S128, .f32⟩ : BufTy).Contents (Elt F))
local notation "𝔵5" => (m ((c : Thread nD τ).loc main_arg5) : (⟨S128x128, .f32⟩ : BufTy).Contents (Elt F))
local notation "𝔵6" => (m ((c : Thread nD τ).loc main_arg6) : (⟨S128, .f32⟩ : BufTy).Contents (Elt F))
local notation "𝔵8" => (m ((c : Thread nD τ).loc main_arg8) : (⟨S1, .f32⟩ : BufTy).Contents (Elt F))

/-! ## The edge list with self loops, and the normalisation, before region 0 -/

/-- The edges' sources followed by every node. -/
theorem v3_at1 : W1 m c (Proc.devRef .tc main_v3) = Cert.ReferenceIdeal.PRead.val_main_v3 (F := F) 𝔵1 := by
  show StableHlo.after hostOps0 _ (Proc.devRef .tc main_v3) = _
  after_results
  rfl

/-- The edges' targets followed by every node. -/
theorem v6_at1 : W1 m c (Proc.devRef .tc main_v6) = Cert.ReferenceIdeal.PRead.val_main_v6 (F := F) 𝔵1 := by
  show StableHlo.after hostOps0 _ (Proc.devRef .tc main_v6) = _
  after_results
  rfl
/-- The degree of every node: ones added at the targets. -/
theorem v10_at1 : W1 m c (Proc.devRef .tc main_v10) = Cert.ReferenceIdeal.PRead.val_main_v10 (F := F) 𝔵1 := by
  show StableHlo.after hostOps0 _ (Proc.devRef .tc main_v10) = _
  after_results
  rfl
/-- Where the degree is positive. -/
theorem v12_at1 : W1 m c (Proc.devRef .tc main_v12) = Cert.ReferenceIdeal.PRead.val_main_v12 (F := F) 𝔵1 := by
  show StableHlo.after hostOps0 _ (Proc.devRef .tc main_v12) = _
  after_results
  rfl
/-- The degree's inverse square root. -/
theorem v13_at1 : W1 m c (Proc.devRef .tc main_v13) = Cert.ReferenceIdeal.PRead.val_main_v13 (F := F) 𝔵1 := by
  show StableHlo.after hostOps0 _ (Proc.devRef .tc main_v13) = _
  after_results
  rfl
theorem cst2_at1 : W1 m c (Proc.devRef .tc main_cst_2) = Cert.ReferenceIdeal.PRead.val_main_cst_2 (F := F) := by
  show StableHlo.after hostOps0 _ (Proc.devRef .tc main_cst_2) = _
  after_results
  rfl

/-- The normalisation of every node: the inverse square root of its degree where that is positive, else zero. -/
theorem v14_at2 : W2 m c (Proc.devRef .tc main_v14) = Cert.ReferenceIdeal.PRead.val_main_v14 (F := F) 𝔵1 := by
  have e12 := v12_at1 m c
  have e13 := v13_at1 m c
  have ec := cst2_at1 m c
  show StableHlo.after hostOps0_1 (W1 m c) (Proc.devRef .tc main_v14) = _
  generalize W1 m c = V at *
  after_results
  rw [e12, e13, ec]
  rfl
theorem v3_at2 : W2 m c (Proc.devRef .tc main_v3) = Cert.ReferenceIdeal.PRead.val_main_v3 (F := F) 𝔵1 :=
  (W2_of m c main_v3 (by decide)).trans (v3_at1 m c)
theorem v6_at2 : W2 m c (Proc.devRef .tc main_v6) = Cert.ReferenceIdeal.PRead.val_main_v6 (F := F) 𝔵1 :=
  (W2_of m c main_v6 (by decide)).trans (v6_at1 m c)

/-! ### The reference's terms, a few operations at a time -/

section Terms
variable (x1 : (⟨S2x800000, .i32⟩ : BufTy).Contents (Elt F))

/-- An index vector wrapped into range (negative words shifted up by the node count), as a column. -/
theorem src_idx_eq :
    broadcastInDim S850000x1 ![0] bcast_S850000_S850000x1_0
      (select (cmpi CmpIPredicate.slt (Cert.ReferenceIdeal.PRead.val_main_v3 (F := F) x1) (broadcastInDim S850000 ![] bcast_S_S850000 (constantI S_ 32 0#32)))
        (addi (Cert.ReferenceIdeal.PRead.val_main_v3 (F := F) x1) (broadcastInDim S850000 ![] bcast_S_S850000 (constantI S_ 32 50000#32)))
        (Cert.ReferenceIdeal.PRead.val_main_v3 (F := F) x1)) = Cert.ReferenceIdeal.PRead.val_main_v20 (F := F) x1 := rfl
theorem dst_idx_eq :
    broadcastInDim S850000x1 ![0] bcast_S850000_S850000x1_0
      (select (cmpi CmpIPredicate.slt (Cert.ReferenceIdeal.PRead.val_main_v6 (F := F) x1) (broadcastInDim S850000 ![] bcast_S_S850000 (constantI S_ 32 0#32)))
        (addi (Cert.ReferenceIdeal.PRead.val_main_v6 (F := F) x1) (broadcastInDim S850000 ![] bcast_S_S850000 (constantI S_ 32 50000#32)))
        (Cert.ReferenceIdeal.PRead.val_main_v6 (F := F) x1)) = Cert.ReferenceIdeal.PRead.val_main_v27 (F := F) x1 := rfl
theorem g21_eq :
    Host.gather gather_S50000_S850000x1_S850000_n_0_n_n_0_1_1 (Cert.ReferenceIdeal.PRead.val_main_v14 (F := F) x1) (Cert.ReferenceIdeal.PRead.val_main_v20 (F := F) x1)
      = Cert.ReferenceIdeal.PRead.val_main_v21 (F := F) x1 := rfl
theorem g28_eq :
    Host.gather gather_S50000_S850000x1_S850000_n_0_n_n_0_1_1 (Cert.ReferenceIdeal.PRead.val_main_v14 (F := F) x1) (Cert.ReferenceIdeal.PRead.val_main_v27 (F := F) x1)
      = Cert.ReferenceIdeal.PRead.val_main_v28 (F := F) x1 := rfl
theorem m29_eq :
    mulf (Cert.ReferenceIdeal.PRead.val_main_v21 (F := F) x1) (Cert.ReferenceIdeal.PRead.val_main_v28 (F := F) x1) = Cert.ReferenceIdeal.PRead.val_main_v29 (F := F) x1 := rfl
end Terms

/-- The normalisation of every edge: the product of its two ends'. -/
theorem v29_at3 : W3 m c (Proc.devRef .tc main_v29) = Cert.ReferenceIdeal.PRead.val_main_v29 (F := F) 𝔵1 := by
  have e14 := v14_at2 m c
  have e3 := v3_at2 m c
  have e6 := v6_at2 m c
  show StableHlo.after hostOps0_2 (W2 m c) (Proc.devRef .tc main_v29) = _
  generalize W2 m c = V at *
  after_results_simp
  rw [e14, e3, e6, src_idx_eq, dst_idx_eq, g21_eq, g28_eq, m29_eq]
theorem v3_at3 : W3 m c (Proc.devRef .tc main_v3) = Cert.ReferenceIdeal.PRead.val_main_v3 (F := F) 𝔵1 :=
  (W3_of m c main_v3 (by decide)).trans (v3_at2 m c)
theorem v6_at3 : W3 m c (Proc.devRef .tc main_v6) = Cert.ReferenceIdeal.PRead.val_main_v6 (F := F) 𝔵1 :=
  (W3_of m c main_v6 (by decide)).trans (v6_at2 m c)

/-! ## Layer 1: from region 0's product to what region 1 reads -/

theorem v3_at4 : W4 m c (Proc.devRef .tc main_v3) = Cert.ReferenceIdeal.PRead.val_main_v3 (F := F) 𝔵1 :=
  (W4_of_ne m c main_v3 (by decide)).trans (v3_at3 m c)
theorem v6_at4 : W4 m c (Proc.devRef .tc main_v6) = Cert.ReferenceIdeal.PRead.val_main_v6 (F := F) 𝔵1 :=
  (W4_of_ne m c main_v6 (by decide)).trans (v6_at3 m c)
theorem v29_at4 : W4 m c (Proc.devRef .tc main_v29) = Cert.ReferenceIdeal.PRead.val_main_v29 (F := F) 𝔵1 :=
  (W4_of_ne m c main_v29 (by decide)).trans (v29_at3 m c)
theorem arg4_at4 : W4 m c (Proc.devRef .tc main_arg4) = 𝔵4 :=
  (W4_of_ne m c main_arg4 (by decide)).trans (W3_of0 m c main_arg4 (by decide) (by decide) (by decide))

section Terms1
variable (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F))

/-- The sources wrapped into range, as a column. -/
theorem i36_eq :
    broadcastInDim S850000x1 ![0] bcast_S850000_S850000x1_0
      (select (cmpi CmpIPredicate.slt (Cert.ReferenceIdeal.PRead.val_main_v3 (F := F) x1) (broadcastInDim S850000 ![] bcast_S_S850000 (constantI S_ 32 0#32)))
        (addi (Cert.ReferenceIdeal.PRead.val_main_v3 (F := F) x1) (broadcastInDim S850000 ![] bcast_S_S850000 (constantI S_ 32 50000#32)))
        (Cert.ReferenceIdeal.PRead.val_main_v3 (F := F) x1)) = Cert.ReferenceIdeal.PRead.val_main_v36 (F := F) x1 := rfl
/-- The product's rows at the edges' sources. -/
theorem g37_eq :
    Host.gather gather_S50000x128_S850000x1_S850000x128_1_0_n_n_0_1_1128 (Cert.ReferenceIdeal.PRead.val_main_v30 (F := F) x0 x3) (Cert.ReferenceIdeal.PRead.val_main_v36 (F := F) x1)
      = Cert.ReferenceIdeal.PRead.val_main_v37 (F := F) x0 x1 x3 := rfl
/-- The edge normalisation along the 128 features. -/
theorem b39_eq :
    broadcastInDim S850000x128 ![0, 1] bcast_S850000x1_S850000x128_0_1
      (broadcastInDim S850000x1 ![0] bcast_S850000_S850000x1_0 (Cert.ReferenceIdeal.PRead.val_main_v29 (F := F) x1)) = Cert.ReferenceIdeal.PRead.val_main_v39 (F := F) x1 := rfl
theorem m40_eq : mulf (Cert.ReferenceIdeal.PRead.val_main_v37 (F := F) x0 x1 x3) (Cert.ReferenceIdeal.PRead.val_main_v39 (F := F) x1) = Cert.ReferenceIdeal.PRead.val_main_v40 (F := F) x0 x1 x3 := rfl
theorem z41_eq : broadcastInDim S50000x128 ![] bcast_S_S50000x128 (constant (F := F) S_ FTy.f32 0#32) = Cert.ReferenceIdeal.PRead.val_main_v41 (F := F) := rfl
/-- The targets as a column. -/
theorem b42_eq : broadcastInDim S850000x1 ![0] bcast_S850000_S850000x1_0 (Cert.ReferenceIdeal.PRead.val_main_v6 (F := F) x1) = Cert.ReferenceIdeal.PRead.val_main_v42 (F := F) x1 := rfl
/-- The scaled rows added at the edges' targets. -/
theorem s43_eq :
    Host.scatterAdd scatter_S50000x128_S850000x1_S850000x128_1_0_0_1 (Cert.ReferenceIdeal.PRead.val_main_v41 (F := F)) (Cert.ReferenceIdeal.PRead.val_main_v42 (F := F) x1) (Cert.ReferenceIdeal.PRead.val_main_v40 (F := F) x0 x1 x3)
      = Cert.ReferenceIdeal.PRead.val_main_v43 (F := F) x0 x1 x3 := rfl
/-- The bias along the nodes. -/
theorem b45_eq :
    broadcastInDim S50000x128 ![0, 1] bcast_S1x128_S50000x128_0_1 (broadcastInDim S1x128 ![1] bcast_S128_S1x128_1 x4)
      = Cert.ReferenceIdeal.PRead.val_main_v45 (F := F) x4 := rfl
theorem a46_eq : addf (Cert.ReferenceIdeal.PRead.val_main_v43 (F := F) x0 x1 x3) (Cert.ReferenceIdeal.PRead.val_main_v45 (F := F) x4) = Cert.ReferenceIdeal.PRead.val_main_v46 (F := F) x0 x1 x3 x4 := rfl
end Terms1

/-- Layer 1 before the rectifier: the product's rows gathered at the sources, scaled by the edge normalisation,
    added at the targets, plus the bias. -/
theorem v46_at5 (h30 : W4 m c (Proc.devRef .tc main_v30) = Cert.ReferenceIdeal.PRead.val_main_v30 (F := F) 𝔵0 𝔵3) :
    W5 m c (Proc.devRef .tc main_v46) = Cert.ReferenceIdeal.PRead.val_main_v46 (F := F) 𝔵0 𝔵1 𝔵3 𝔵4 := by
  have e3 := v3_at4 m c
  have e6 := v6_at4 m c
  have e29 := v29_at4 m c
  have e4 := arg4_at4 m c
  show StableHlo.after hostOps1 (W4 m c) (Proc.devRef .tc main_v46) = _
  generalize W4 m c = V at *
  after_results_simp
  rw [h30, e3, e6, e29, e4, i36_eq, g37_eq, b39_eq, m40_eq, z41_eq, b42_eq, s43_eq, b45_eq, a46_eq]

/-- Layer 1's output, as region 1 reads it. -/
theorem _root_.Cert.KernelIdeal.Val.v47_eq (h30 : W4 m c (Proc.devRef .tc main_v30) = Cert.ReferenceIdeal.PRead.val_main_v30 (F := F) 𝔵0 𝔵3) :
    VR1 m c main_v47 = Cert.ReferenceIdeal.PRead.val_main_v47 (F := F) 𝔵0 𝔵1 𝔵3 𝔵4 := by
  have e46 := v46_at5 m c h30
  show StableHlo.after hostOps1_1 (W5 m c) (Proc.devRef .tc main_v47) = _
  generalize W5 m c = V at *
  after_results_simp
  rw [e46]
  rfl

/-! ## Layer 2: from region 1's product to the node features that are pooled -/

/-- The reference's second copies of the edge list and of the edge normalisation are the first. -/
theorem v51_eq_v3 (x1 : (⟨S2x800000, .i32⟩ : BufTy).Contents (Elt F)) : Cert.ReferenceIdeal.PRead.val_main_v3 (F := F) x1 = Cert.ReferenceIdeal.PRead.val_main_v51 (F := F) x1 := rfl
theorem v54_eq_v6 (x1 : (⟨S2x800000, .i32⟩ : BufTy).Contents (Elt F)) : Cert.ReferenceIdeal.PRead.val_main_v6 (F := F) x1 = Cert.ReferenceIdeal.PRead.val_main_v54 (F := F) x1 := rfl
theorem v77_eq_v29 (x1 : (⟨S2x800000, .i32⟩ : BufTy).Contents (Elt F)) : Cert.ReferenceIdeal.PRead.val_main_v29 (F := F) x1 = Cert.ReferenceIdeal.PRead.val_main_v77 (F := F) x1 := rfl

theorem v3_at7 : W7 m c (Proc.devRef .tc main_v3) = Cert.ReferenceIdeal.PRead.val_main_v51 (F := F) 𝔵1 :=
  (W7_of_ne m c main_v3 (by decide)).trans <| (W6_of m c main_v3 (by decide)).trans <| (W5_of m c main_v3 (by decide)).trans <|
    (v3_at4 m c).trans (v51_eq_v3 _)
theorem v6_at7 : W7 m c (Proc.devRef .tc main_v6) = Cert.ReferenceIdeal.PRead.val_main_v54 (F := F) 𝔵1 :=
  (W7_of_ne m c main_v6 (by decide)).trans <| (W6_of m c main_v6 (by decide)).trans <| (W5_of m c main_v6 (by decide)).trans <|
    (v6_at4 m c).trans (v54_eq_v6 _)
theorem v29_at7 : W7 m c (Proc.devRef .tc main_v29) = Cert.ReferenceIdeal.PRead.val_main_v77 (F := F) 𝔵1 :=
  (W7_of_ne m c main_v29 (by decide)).trans <| (W6_of m c main_v29 (by decide)).trans <| (W5_of m c main_v29 (by decide)).trans <|
    (v29_at4 m c).trans (v77_eq_v29 _)
theorem arg6_at7 : W7 m c (Proc.devRef .tc main_arg6) = 𝔵6 :=
  (W7_of_ne m c main_arg6 (by decide)).trans <| (W6_of3 m c main_arg6 (by decide) (by decide) (by decide)).trans (W3_of0 m c main_arg6 (by decide) (by decide) (by decide))

section Terms2
variable (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))

theorem i84_eq :
    broadcastInDim S850000x1 ![0] bcast_S850000_S850000x1_0
      (select (cmpi CmpIPredicate.slt (Cert.ReferenceIdeal.PRead.val_main_v51 (F := F) x1) (broadcastInDim S850000 ![] bcast_S_S850000 (constantI S_ 32 0#32)))
        (addi (Cert.ReferenceIdeal.PRead.val_main_v51 (F := F) x1) (broadcastInDim S850000 ![] bcast_S_S850000 (constantI S_ 32 50000#32)))
        (Cert.ReferenceIdeal.PRead.val_main_v51 (F := F) x1)) = Cert.ReferenceIdeal.PRead.val_main_v84 (F := F) x1 := rfl
theorem g85_eq :
    Host.gather gather_S50000x128_S850000x1_S850000x128_1_0_n_n_0_1_1128 (Cert.ReferenceIdeal.PRead.val_main_v78 (F := F) x0 x1 x3 x4 x5) (Cert.ReferenceIdeal.PRead.val_main_v84 (F := F) x1)
      = Cert.ReferenceIdeal.PRead.val_main_v85 (F := F) x0 x1 x3 x4 x5 := rfl
theorem b87_eq :
    broadcastInDim S850000x128 ![0, 1] bcast_S850000x1_S850000x128_0_1
      (broadcastInDim S850000x1 ![0] bcast_S850000_S850000x1_0 (Cert.ReferenceIdeal.PRead.val_main_v77 (F := F) x1)) = Cert.ReferenceIdeal.PRead.val_main_v87 (F := F) x1 := rfl
theorem m88_eq : mulf (Cert.ReferenceIdeal.PRead.val_main_v85 (F := F) x0 x1 x3 x4 x5) (Cert.ReferenceIdeal.PRead.val_main_v87 (F := F) x1) = Cert.ReferenceIdeal.PRead.val_main_v88 (F := F) x0 x1 x3 x4 x5 := rfl
theorem z89_eq : broadcastInDim S50000x128 ![] bcast_S_S50000x128 (constant (F := F) S_ FTy.f32 0#32) = Cert.ReferenceIdeal.PRead.val_main_v89 (F := F) := rfl
theorem b90_eq : broadcastInDim S850000x1 ![0] bcast_S850000_S850000x1_0 (Cert.ReferenceIdeal.PRead.val_main_v54 (F := F) x1) = Cert.ReferenceIdeal.PRead.val_main_v90 (F := F) x1 := rfl
theorem s91_eq :
    Host.scatterAdd scatter_S50000x128_S850000x1_S850000x128_1_0_0_1 (Cert.ReferenceIdeal.PRead.val_main_v89 (F := F)) (Cert.ReferenceIdeal.PRead.val_main_v90 (F := F) x1) (Cert.ReferenceIdeal.PRead.val_main_v88 (F := F) x0 x1 x3 x4 x5)
      = Cert.ReferenceIdeal.PRead.val_main_v91 (F := F) x0 x1 x3 x4 x5 := rfl
theorem b93_eq :
    broadcastInDim S50000x128 ![0, 1] bcast_S1x128_S50000x128_0_1 (broadcastInDim S1x128 ![1] bcast_S128_S1x128_1 x6)
      = Cert.ReferenceIdeal.PRead.val_main_v93 (F := F) x6 := rfl
theorem a94_eq : addf (Cert.ReferenceIdeal.PRead.val_main_v91 (F := F) x0 x1 x3 x4 x5) (Cert.ReferenceIdeal.PRead.val_main_v93 (F := F) x6) = Cert.ReferenceIdeal.PRead.val_main_v94 (F := F) x0 x1 x3 x4 x5 x6 := rfl
end Terms2

/-- Layer 2's output: the second product's rows gathered at the sources, scaled, added at the targets, plus the
    bias. -/
theorem _root_.Cert.KernelIdeal.Val.v64_eq (h30 : W4 m c (Proc.devRef .tc main_v30) = Cert.ReferenceIdeal.PRead.val_main_v30 (F := F) 𝔵0 𝔵3)
    (h48 : W7 m c (Proc.devRef .tc main_v48) = Cert.ReferenceIdeal.PRead.val_main_v78 (F := F) 𝔵0 𝔵1 𝔵3 𝔵4 𝔵5) :
    W8 m c (Proc.devRef .tc main_v64) = Cert.ReferenceIdeal.PRead.val_main_v94 (F := F) 𝔵0 𝔵1 𝔵3 𝔵4 𝔵5 𝔵6 := by
  have e3 := v3_at7 m c
  have e6 := v6_at7 m c
  have e29 := v29_at7 m c
  have e6' := arg6_at7 m c
  show StableHlo.after hostOps2 (W7 m c) (Proc.devRef .tc main_v64) = _
  generalize W7 m c = V at *
  after_results_simp
  rw [h48, e3, e6, e29, e6', i84_eq, g85_eq, b87_eq, m88_eq, z89_eq, b90_eq, s91_eq, b93_eq, a94_eq]

end Chain

end Cert.KernelIdeal.Val

end
-- ==== Proof.Val.HostTail.lean ====
/- What the pooling region is entered from, as explicit terms over the program's arguments.

   Between the second layer's region and the pooling region the program computes, on the host, the 64 × 50000
   membership matrix of the nodes in the graphs, each graph's node count and the reciprocal of the count clamped below
   by one, the last argument as a 1 × 1 array, and the zero paddings of the membership matrix and of the second
   layer's output to 50048 nodes. No item of the program writes an argument, and no later stretch writes what an
   earlier one computed, so each of the pooling region's operand arrays is entered at the term its own operations
   compute. -/
import proofs.«429642_j9543417332444_1_alg».proof.Proof.KI.Fold
import proofs.«429642_j9543417332444_1_alg».proof.Proof.KI.Run
import proofs.«429642_j9543417332444_1_alg».proof.Proof.Val.OneHot
import proofs.«429642_j9543417332444_1_alg».proof.Proof.LibColumn
import Idealize.ShloMosaic.Lib.StableHlo.Run
import Idealize.ShloMosaic.Lib.Pipeline.Value
import Idealize.ShloMosaic.Lib.ValueIdx
set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.StableHlo

variable {F : FTy → Type} [FloatOps F]

variable (m : (ℓ : Loc nD τ sig) → Buf (Elt F) ℓ) (c : Dev nD)

/-! ## What the items before the pooling region leave as they found it -/

/-- Through the three stretches of host operations before the first region. -/
theorem t_W3_of0 (r : Ref sig .tc) (h0 : r ∉ wr0) (h1 : r ∉ wr0_1) (h2 : r ∉ wr0_2) :
    W3 m c (Proc.devRef .tc r) = W0 m c (Proc.devRef .tc r) :=
  (W3_of m c r h2).trans <| (W2_of m c r h1).trans (W1_of m c r h0)
/-- Through the first region and the two stretches before the second. -/
theorem t_W6_of3 (r : Ref sig .tc) (h : ∀ w, Pipeline.arrRef spec0 w ≠ r) (h1 : r ∉ wr1) (h2 : r ∉ wr1_1) :
    W6 m c (Proc.devRef .tc r) = W3 m c (Proc.devRef .tc r) :=
  (W6_of m c r h2).trans <| (W5_of m c r h1).trans (W4_of_ne m c r h)
/-- From the launch to the second region's exit, for a buffer no item up to there writes. -/
theorem t_W7_of0 (r : Ref sig .tc) (h0 : r ∉ wr0) (h1 : r ∉ wr0_1) (h2 : r ∉ wr0_2) (h3 : ∀ w, Pipeline.arrRef spec0 w ≠ r)
    (h4 : r ∉ wr1) (h5 : r ∉ wr1_1) (h6 : ∀ w, Pipeline.arrRef spec1 w ≠ r) :
    W7 m c (Proc.devRef .tc r) = W0 m c (Proc.devRef .tc r) :=
  (W7_of_ne m c r h6).trans <| (t_W6_of3 m c r h3 h4 h5).trans (t_W3_of0 m c r h0 h1 h2)
/-- Through the three stretches that follow the one a buffer was computed in. -/
theorem t_W11_of8 (r : Ref sig .tc) (h1 : r ∉ wr2_1) (h2 : r ∉ wr2_2) (h3 : r ∉ wr2_3) :
    W11 m c (Proc.devRef .tc r) = W8 m c (Proc.devRef .tc r) :=
  (W11_of m c r h3).trans <| (W10_of m c r h2).trans (W9_of m c r h1)

/-! ## The arguments the tail reads, as launched on core c -/

set_option quotPrecheck false
local notation "𝔵2" => (m ((c : Thread nD τ).loc main_arg2) : (⟨S50000, .i32⟩ : BufTy).Contents (Elt F))
local notation "𝔵7" => (m ((c : Thread nD τ).loc main_arg7) : (⟨S128x1, .f32⟩ : BufTy).Contents (Elt F))
local notation "𝔵8" => (m ((c : Thread nD τ).loc main_arg8) : (⟨S1, .f32⟩ : BufTy).Contents (Elt F))

/-- The classifier column is entered as launched. -/
theorem arg7_at2 : VR2 m c main_arg7 = 𝔵7 :=
  (t_W11_of8 m c main_arg7 (by decide) (by decide) (by decide)).trans <| (W8_of m c main_arg7 (by decide)).trans
    (t_W7_of0 m c main_arg7 (by decide) (by decide) (by decide) (by decide) (by decide) (by decide) (by decide))
/-- The graph words at the second region's exit are as launched. -/
theorem arg2_at7 : W7 m c (Proc.devRef .tc main_arg2) = 𝔵2 :=
  t_W7_of0 m c main_arg2 (by decide) (by decide) (by decide) (by decide) (by decide) (by decide) (by decide)
/-- The bias at the second region's exit is as launched. -/
theorem arg8_at7 : W7 m c (Proc.devRef .tc main_arg8) = 𝔵8 :=
  t_W7_of0 m c main_arg8 (by decide) (by decide) (by decide) (by decide) (by decide) (by decide) (by decide)

/-! ## After the second layer: the membership matrix, the counts' reciprocals, the bias as an array -/

/-- The membership matrix of the nodes in the 64 graphs. -/
theorem v71_at8 : W8 m c (Proc.devRef .tc main_v71) = onehot (F := F) 𝔵2 := by
  have e2 := arg2_at7 m c
  show StableHlo.after hostOps2 (W7 m c) (Proc.devRef .tc main_v71) = _
  generalize W7 m c = V at *
  after_results
  rw [e2]
  rfl
/-- The integer zero the first padding converts. -/
theorem c15_at8 : W8 m c (Proc.devRef .tc main_c_15) = (constantI S_ 32 0#32 : (⟨S_, .i32⟩ : BufTy).Contents (Elt F)) := by
  show StableHlo.after hostOps2 (W7 m c) (Proc.devRef .tc main_c_15) = _
  generalize W7 m c = V at *
  after_results
/-- One over each graph's node count clamped below by one. -/
theorem v77_at8 : W8 m c (Proc.devRef .tc main_v77) = invK (F := F) 𝔵2 := by
  have e2 := arg2_at7 m c
  show StableHlo.after hostOps2 (W7 m c) (Proc.devRef .tc main_v77) = _
  generalize W7 m c = V at *
  after_results
  rw [e2]
  rfl
/-- The last argument as a 1 × 1 array. -/
theorem v78_at8 : W8 m c (Proc.devRef .tc main_v78) = (shapeCast S1x1 𝔵8 shapeCasts_S1_S1x1 : (⟨S1x1, .f32⟩ : BufTy).Contents (Elt F)) := by
  have e8 := arg8_at7 m c
  show StableHlo.after hostOps2 (W7 m c) (Proc.devRef .tc main_v78) = _
  generalize W7 m c = V at *
  after_results
  rw [e8]
  rfl

/-! ## The two zero paddings -/

/-- The membership matrix with 48 zero columns appended, after the first padding call. -/
theorem v79_at9 : W9 m c (Proc.devRef .tc main_v79) = padP (F := F) 𝔵2 := by
  have e71 := v71_at8 m c
  have e15 := c15_at8 m c
  show StableHlo.after hostOps2_1 (W8 m c) (Proc.devRef .tc main_v79) = _
  generalize W8 m c = V at *
  after_results
  rw [e71, e15]
  rfl
/-- The integer zero the second padding converts. -/
theorem c16_at10 : W10 m c (Proc.devRef .tc main_c_16) = (constantI S_ 32 0#32 : (⟨S_, .i32⟩ : BufTy).Contents (Elt F)) := by
  show StableHlo.after hostOps2_2 (W9 m c) (Proc.devRef .tc main_c_16) = _
  generalize W9 m c = V at *
  after_results

/-! ## What the pooling region is entered from -/

/-- The one-hot operand: the membership matrix with 48 zero columns appended. -/
theorem v79_eq : VR2 m c main_v79 = padP (F := F) 𝔵2 :=
  (W11_of m c main_v79 (by decide)).trans <| (W10_of m c main_v79 (by decide)).trans (v79_at9 m c)
/-- The second padding call, over whatever the second layer's output is entered at: that array with 48 zero rows
    appended. -/
theorem v80_at11_of (H : (⟨S50000x128, .f32⟩ : BufTy).Contents (Elt F)) (e64 : W10 m c (Proc.devRef .tc main_v64) = H) :
    W11 m c (Proc.devRef .tc main_v80) = padH (F := F) H := by
  have e16 := c16_at10 m c
  show StableHlo.after hostOps2_3 (W10 m c) (Proc.devRef .tc main_v80) = _
  generalize W10 m c = V at *
  after_results
  rw [e64, e16]
  rfl
/-- The feature operand: the second layer's output with 48 zero rows appended. -/
theorem v80_eq : VR2 m c main_v80 = padH (F := F) (W8 m c (Proc.devRef .tc main_v64)) :=
  v80_at11_of m c (W8 m c (Proc.devRef .tc main_v64))
    ((W10_of m c main_v64 (by decide)).trans (W9_of m c main_v64 (by decide)))
/-- The row scales: one over each graph's clamped node count. -/
theorem v77_eq : VR2 m c main_v77 = invK (F := F) 𝔵2 :=
  (t_W11_of8 m c main_v77 (by decide) (by decide) (by decide)).trans (v77_at8 m c)
/-- The bias operand: the last argument as a 1 × 1 array. -/
theorem v78_eq : VR2 m c main_v78 = (shapeCast S1x1 𝔵8 shapeCasts_S1_S1x1 : (⟨S1x1, .f32⟩ : BufTy).Contents (Elt F)) :=
  (t_W11_of8 m c main_v78 (by decide) (by decide) (by decide)).trans (v78_at8 m c)
/-- Its one entry is the last argument's one entry. -/
theorem v78_apply : (VR2 m c main_v78 : (⟨S1x1, .f32⟩ : BufTy).Contents (Elt F)) (ValueIdx.ix2 (0 : Fin 1) (0 : Fin 1)) = 𝔵8 (ValueIdx.ix1 (0 : Fin 1)) := by
  rw [v78_eq]
  exact Cert.LibColumn.shapeCast_a_a1_apply (a := 1) 𝔵8 shapeCasts_S1_S1x1 (0 : Fin 1) (0 : Fin 1)

end Cert.KernelIdeal.Val

end
-- ==== Proof.Val.Bridge.lean ====
/- The kernel program's result, as a function of the arguments, is the reference's. The three regions are chained: the
   first product's output array is the reference's first product; through the host operations between the regions
   (which are the reference's own operations) the second region is entered from the reference's intermediate values
   and its output array is the reference's second product; the host operations before the third region build, from
   the graph word of each node, the 64 × 50000 membership matrix, its row counts and their clamped reciprocals, and pad
   the node axis with zeros to 50048. The third region's accumulator is then the membership matrix times the node
   features, entry (g, j) being the sum of column j over the nodes of graph g; scaled by one over the clamped count
   it is the mean row; its inner product with the classifier column plus the bias, through the logistic function, is
   the reference's closed expression at graph g. -/
import proofs.«429642_j9543417332444_1_alg».proof.Proof.KI.Fold
import proofs.«429642_j9543417332444_1_alg».proof.Proof.Val.ValMat
import proofs.«429642_j9543417332444_1_alg».proof.Proof.Val.ValPool
import proofs.«429642_j9543417332444_1_alg».proof.Proof.Val.ValPoolAcc
import proofs.«429642_j9543417332444_1_alg».proof.Proof.Val.RefTail
import proofs.«429642_j9543417332444_1_alg».proof.Proof.Val.PoolAlg
import proofs.«429642_j9543417332444_1_alg».proof.Proof.Val.OneHot
import proofs.«429642_j9543417332444_1_alg».proof.Proof.Val.KernelTail
import proofs.«429642_j9543417332444_1_alg».proof.Proof.Val.HostChain
import proofs.«429642_j9543417332444_1_alg».proof.Proof.Val.HostTail
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand Idealize.ShloMosaic.ValueIdx
open scoped BigOperators

/-- The pooled result at graph g, for any contents V the third region is entered from whose pooling operands are the
    zero-padded membership matrix of the words x2 and the zero-padded features Hf, whose scale column is one over the
    clamped counts, whose classifier column is x7 and whose bias entry is b: the logistic function of the inner product
    of graph g's mean feature row with x7, plus b. -/
theorem pooled_eq (V : (c : Dev nD) → (b : Ref sig .tc) → Buf (Elt Ideal) ((c : Thread nD τ).loc b)) (c : Dev nD)
    (x2 : (⟨S50000, .i32⟩ : BufTy).Contents (Elt Ideal)) (Hf : (⟨S50000x128, .f32⟩ : BufTy).Contents (Elt Ideal))
    (x7 : Vec Ideal S128x1 .f32) (b : EReal)
    (hP : (V c main_v79 : Vec Ideal S64x50048 .f32) = padP (F := Ideal) x2)
    (hH : (V c main_v80 : Vec Ideal S50048x128 .f32) = padH (F := Ideal) Hf)
    (hinv : (V c main_v77 : Vec Ideal S64x1 .f32) = invK (F := Ideal) x2)
    (hw : (V c main_arg7 : Vec Ideal S128x1 .f32) = x7)
    (hb : (V c main_v78 : Vec Ideal S1x1 .f32) (ix2 (0 : Fin 1) (0 : Fin 1)) = b) (g : Fin 64) :
    ((dat2 (F := Ideal) V c).arrAt 5 cfg2.N : Vec Ideal S64x1 .f32) (ix2 g (0 : Fin 1))
      = Ideal.div 1 (1 + Ideal.exp (-((∑ j : Fin 128,
          Ideal.div (∑ n ∈ Finset.univ.filter (fun n : Fin 50000 => (x2 (ix1 n)).toInt = (g.val : ℤ)), Hf (ix2 n j))
            (max (∑ n ∈ Finset.univ.filter (fun n : Fin 50000 => (x2 (ix1 n)).toInt = (g.val : ℤ)), (1 : EReal)) 1)
            * x7 (ix2 j (0 : Fin 1))) + b))) := by
  refine (congrFun (arr2_eq V c) (ix2 g (0 : Fin 1))).trans ?_
  refine (pay3_apply (accAt2 (F := Ideal) V c 22 h22) (V c main_v77) (V c main_arg7) (V c main_v78) g).trans ?_
  show Ideal.div 1 (1 + Ideal.exp (-(_ + _))) = _
  rw [hb]
  refine congrArg (fun z => Ideal.div 1 (1 + Ideal.exp (-(z + b)))) ?_
  refine Finset.sum_congr rfl fun j _ => ?_
  rw [hw]
  refine congrArg (fun z => z * x7 (ix2 j (0 : Fin 1))) ?_
  rw [acc_apply V c g j]
  dsimp only [Pm, Hm]
  rw [hP, hH, pool_sum x2 Hf g j]
  simp only [onehot_apply]
  rw [Cert.PoolAlg.onehot_sum (fun n : Fin 50000 => x2 (ix1 n)) (fun n : Fin 50000 => Hf (ix2 n j)) g]
  rw [hinv, invK_apply, countK_apply]
  simp only [onehot_apply]
  rw [Cert.PoolAlg.onehot_count (fun n : Fin 50000 => x2 (ix1 n)) g]
  rw [Cert.PoolAlg.sum_ones, Cert.PoolAlg.scale_eq]

section Whole
variable (m : (ℓ : Loc nD τ sig) → Buf (Elt Ideal) ℓ) (c : Dev nD)

/-- The program's nine arguments on core c, at their literal types. -/
abbrev inp0 : (⟨S50000x128, .f32⟩ : BufTy).Contents (Elt Ideal) := m ((c.tc : Thread nD τ).loc main_arg0)
abbrev inp1 : (⟨S2x800000, .i32⟩ : BufTy).Contents (Elt Ideal) := m ((c.tc : Thread nD τ).loc main_arg1)
abbrev inp2 : (⟨S50000, .i32⟩ : BufTy).Contents (Elt Ideal) := m ((c.tc : Thread nD τ).loc main_arg2)
abbrev inp3 : (⟨S128x128, .f32⟩ : BufTy).Contents (Elt Ideal) := m ((c.tc : Thread nD τ).loc main_arg3)
abbrev inp4 : (⟨S128, .f32⟩ : BufTy).Contents (Elt Ideal) := m ((c.tc : Thread nD τ).loc main_arg4)
abbrev inp5 : (⟨S128x128, .f32⟩ : BufTy).Contents (Elt Ideal) := m ((c.tc : Thread nD τ).loc main_arg5)
abbrev inp6 : (⟨S128, .f32⟩ : BufTy).Contents (Elt Ideal) := m ((c.tc : Thread nD τ).loc main_arg6)
abbrev inp7 : (⟨S128x1, .f32⟩ : BufTy).Contents (Elt Ideal) := m ((c.tc : Thread nD τ).loc main_arg7)
abbrev inp8 : (⟨S1, .f32⟩ : BufTy).Contents (Elt Ideal) := m ((c.tc : Thread nD τ).loc main_arg8)

/-- Region 0's output array, as the program holds it at the region's exit, is the reference's first product. -/
theorem first_product :
    W4 m c (Proc.devRef .tc main_v30) = Cert.ReferenceIdeal.PRead.val_main_v30 (F := Ideal) (inp0 m c) (inp3 m c) :=
  (W4_arr m c 2).trans ((arr0_eq_ref (VR0 m) c).trans (by rw [arg0_at0, arg3_at0]))

/-- Region 1's output array at the region's exit is the reference's second product. -/
theorem second_product :
    W7 m c (Proc.devRef .tc main_v48)
      = Cert.ReferenceIdeal.PRead.val_main_v78 (F := Ideal) (inp0 m c) (inp1 m c) (inp3 m c) (inp4 m c) (inp5 m c) :=
  (W7_arr m c 2).trans ((arr1_eq_ref (VR1 m) c).trans (by rw [v47_eq m c (first_product m c), arg5_at1]; rfl))

/-- The node features the pooling region is entered with are the reference's. -/
theorem features_eq :
    W8 m c (Proc.devRef .tc main_v64)
      = Cert.ReferenceIdeal.PRead.val_main_v94 (F := Ideal) (inp0 m c) (inp1 m c) (inp3 m c) (inp4 m c) (inp5 m c) (inp6 m c) :=
  v64_eq m c (first_product m c) (second_product m c)

/-- The kernel program's result array is the reference's result, as a function of the nine arguments. -/
theorem result_eq :
    (dat2 (F := Ideal) (VR2 m) c).arrAt 5 cfg2.N
      = Cert.ReferenceIdeal.PRead.val_main_v116 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  show ((dat2 (F := Ideal) (VR2 m) c).arrAt 5 cfg2.N : Vec Ideal S64x1 .f32)
      = Cert.ReferenceIdeal.PRead.val_main_v116 (F := Ideal) (inp0 m c) (inp1 m c) (inp2 m c) (inp3 m c) (inp4 m c) (inp5 m c)
          (inp6 m c) (inp7 m c) (inp8 m c)
  funext i
  obtain ⟨g, u, rfl⟩ : ∃ (g : Fin 64) (u : Fin 1), i = ix2 g u := ⟨i 0, i 1, eq_ix2 i⟩
  obtain rfl : u = 0 := Subsingleton.elim _ _
  have hb : (VR2 m c main_v78 : Vec Ideal S1x1 .f32) (ix2 (0 : Fin 1) (0 : Fin 1)) = inp8 m c (ix1 (0 : Fin 1)) :=
    v78_apply m c
  refine (pooled_eq (VR2 m) c (inp2 m c)
    (Cert.ReferenceIdeal.PRead.val_main_v94 (F := Ideal) (inp0 m c) (inp1 m c) (inp3 m c) (inp4 m c) (inp5 m c) (inp6 m c))
    (inp7 m c) (inp8 m c (ix1 (0 : Fin 1))) (v79_eq m c) ((v80_eq m c).trans (congrArg (padH (F := Ideal)) (features_eq m c)))
    (v77_eq m c) (arg7_at2 m c) hb g).trans ?_
  exact (Cert.ReferenceIdeal.RefVal.ref_apply (inp0 m c) (inp1 m c) (inp2 m c) (inp3 m c) (inp4 m c) (inp5 m c) (inp6 m c) (inp7 m c)
    (inp8 m c) g).symm

end Whole

end Cert.KernelIdeal.Val

end
-- ==== Proof.lean ====
/- The certificate of the graph network's forward pass: two graph-convolution layers, mean pooling per graph, a
   linear classifier and the logistic function, as the kernel program computes it against the plain reference.

   The two programs apply the same host operations around the matrix products (degrees by an accumulating scatter, the
   symmetric normalisation, the gather of neighbour rows, the accumulating scatter of messages, bias, relu); they
   differ in three places, each an equality over the extended reals:
   * each dense product: the kernel computes it block of 5000 rows by block, the reference whole; at an index both
     are the same sum over the 128 inner indices;
   * the pooling: the kernel multiplies the 64 × 50000 membership matrix (padded with zeros to 50048 nodes, 23 blocks
     of 2176 accumulated in turn) by the node features and scales row g by one over the node count clamped below by
     one, the reference adds each node's row into its graph's row and divides by the clamped count; a sum weighted by
     a membership indicator is the sum over the members, the count is a real number at least one, and multiplying by
     the reciprocal of such a number is dividing by it, for every extended real;
   * the last step: the kernel's logistic operation is one over one plus the exponential of the negated argument,
     which is what the reference spells out.
   So no precondition is used: the claims hold for every contents of the inputs.

   The frames of the two kernel programs are one text read at the two float instances: the program's twelve items
   (nine stretches of host operations, three kernel regions) run in order from the launch memory; no item writes an
   argument. The reference's frame and run are its operations' run read back. -/
import proofs.«429642_j9543417332444_1_alg».proof.Defs
import proofs.«429642_j9543417332444_1_alg».proof.Proof.Gen.Kernel
import proofs.«429642_j9543417332444_1_alg».proof.Proof.Gen.KernelIdeal
import proofs.«429642_j9543417332444_1_alg».proof.Proof.Gen.ReferenceIdeal
import proofs.«429642_j9543417332444_1_alg».proof.Proof.Gen.Pre_finite_inputs
import proofs.«429642_j9543417332444_1_alg».proof.Proof.K.Run
import proofs.«429642_j9543417332444_1_alg».proof.Proof.KI.Run
import proofs.«429642_j9543417332444_1_alg».proof.Proof.RefRead
import proofs.«429642_j9543417332444_1_alg».proof.Proof.Val.Bridge
import Idealize.ShloMosaic.Adequacy
import Idealize.ShloMosaic.Init

noncomputable section

namespace Cert.Proof

open Idealize.ShloMosaic Idealize.ShloMosaic.TcCoe Idealize.SL.Sem

/-- The kernel program at the word-level instance runs to the end with its arguments unchanged. -/
theorem frame_k : Cert.frame_Kernel := fun m ρ _ => Cert.Kernel.Hand.run_frame m ρ

/-- The same program read at the exact instance. -/
theorem frame_ki : Cert.frame_KernelIdeal := fun m ρ _ => Cert.KernelIdeal.Hand.run_frame m ρ

/-- The reference's run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The ideal pass rewrote nothing. -/
theorem preserves : Cert.preserves_Kernel_KernelIdeal := trivial

/-- Both programs end with the reference's function of the arguments in their result arrays. -/
theorem algebraic : Cert.algebraic_KernelIdeal_ReferenceIdeal := by
  intro m ρ m' ρ' _ hagree
  refine ⟨fun c => (Cert.KernelIdeal.Hand.dat2 (F := Ideal) (Cert.KernelIdeal.Hand.VR2 m) c).arrAt 5 Cert.KernelIdeal.cfg2.N,
    Cert.KernelIdeal.Hand.run_value m ρ, ?_⟩
  refine (θ_run Cert.ReferenceIdeal.defs _ _).mono (fun _ h c => ⟨(h c).1.trans ?_, (h c).2⟩)
    (Cert.ReferenceIdeal.PValue.run (F := Ideal) m' ρ')
  beta_reduce
  rw [Cert.ReferenceIdeal.PRead.val_main_v116_eq, Cert.KernelIdeal.Val.result_eq m c,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
